-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S2000x48 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x64 : Shape := ⟨2, ![1000000, 64]⟩
abbrev S1000x48 : Shape := ⟨2, ![1000, 48]⟩
abbrev S64x144 : Shape := ⟨2, ![64, 144]⟩
abbrev S48x144 : Shape := ⟨2, ![48, 144]⟩
abbrev S144 : Shape := ⟨1, ![144]⟩
abbrev S48x24 : Shape := ⟨2, ![48, 24]⟩
abbrev S24 : Shape := ⟨1, ![24]⟩
abbrev S24x1 : Shape := ⟨2, ![24, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000x48 : S_.BroadcastsInDim S1000x48 (![] : Fin 0 → Fin S1000x48.rank)
  reducesTo_S1000x48_S_d0_1 : S1000x48.ReducesTo [0, 1] S_
  bcast_S_S64x144 : S_.BroadcastsInDim S64x144 (![] : Fin 0 → Fin S64x144.rank)
  reducesTo_S64x144_S_d0_1 : S64x144.ReducesTo [0, 1] S_
  bcast_S_S48x144 : S_.BroadcastsInDim S48x144 (![] : Fin 0 → Fin S48x144.rank)
  reducesTo_S48x144_S_d0_1 : S48x144.ReducesTo [0, 1] S_
  bcast_S_S144 : S_.BroadcastsInDim S144 (![] : Fin 0 → Fin S144.rank)
  reducesTo_S144_S_d0 : S144.ReducesTo [0] S_
  bcast_S_S48x24 : S_.BroadcastsInDim S48x24 (![] : Fin 0 → Fin S48x24.rank)
  reducesTo_S48x24_S_d0_1 : S48x24.ReducesTo [0, 1] S_
  bcast_S_S24 : S_.BroadcastsInDim S24 (![] : Fin 0 → Fin S24.rank)
  reducesTo_S24_S_d0 : S24.ReducesTo [0] S_
  bcast_S_S24x1 : S_.BroadcastsInDim S24x1 (![] : Fin 0 → Fin S24x1.rank)
  reducesTo_S24x1_S_d0_1 : S24x1.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg0 : IVec S1000000 32) (main_arg8 : FVec F S24x1 .f32) (main_arg9 : FVec F S1 .f32) (main_v33 : IVec S_ 1) : IVec S_ 1 :=
  let main_v34 : FVec F S24x1 .f32 := Host.absf main_arg8
  let main_cst_12 : FVec F S_ .f32 := constant S_ .f32 0x7F800000#32
  let main_v35 : FVec F S24x1 .f32 := broadcastInDim S24x1 ![] bcast_S_S24x1 main_cst_12
  let main_v36 : IVec S24x1 1 := cmpf .olt main_v34 main_v35
  let main_c_13 : IVec S_ 1 := constantI S_ 1 1#1
  let main_v37 : IVec S_ 1 := (fun x v => Host.reduce IntOp.andi x v reducesTo_S24x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S1000000 32 := broadcastInDim S1000000 ![] bcast_S_S1000000 main_c_16
  let main_v45 : IVec S1000000 1 := cmpi .sge main_arg0 main_v44
  let main_c_17 : IVec S_ 32 := constantI S_ 32 1000#32
  let main_v46 : IVec S1000000 32 := broadcastInDim S1000000 ![] bcast_S_S1000000 main_c_17
  let main_v47 : IVec S1000000 1 := cmpi .slt main_arg0 main_v46
  let main_v48 : IVec S1000000 1 := andi main_v45 main_v47
  let main_c_18 : IVec S_ 1 := constantI S_ 1 1#1
  let main_v49 : IVec S_ 1 := (fun x v => Host.reduce IntOp.andi x v reducesTo_S1000000_S_d0 h_S_) main_v48 main_c_18
  let main_v50 : IVec S_ 1 := andi main_v43 main_v49
  main_v50

def fn_part1 {F : FTy → Type} [FloatOps F] (main_arg0 : IVec S1000000 32) (main_arg5 : FVec F S144 .f32) (main_arg6 : FVec F S48x24 .f32) (main_arg7 : FVec F S24 .f32) (main_arg8 : FVec F S24x1 .f32) (main_arg9 : FVec F S1 .f32) (main_v13 : IVec S_ 1) (main_v16 : IVec S48x144 1) : IVec S_ 1 :=
  let main_c_5 : IVec S_ 1 := constantI S_ 1 1#1
  let main_v17 : IVec S_ 1 := (fun x v => Host.reduce IntOp.andi x v reducesTo_S48x144_S_d0_1 h_S_) main_v16 main_c_5
  let main_v18 : IVec S_ 1 := andi main_v13 main_v17
  let main_v19 : FVec F S144 .f32 := Host.absf main_arg5
  let main_cst_6 : FVec F S_ .f32 := constant S_ .f32 0x7F800000#32
  let main_v20 : FVec F S144 .f32 := broadcastInDim S144 ![] bcast_S_S144 main_cst_6
  let main_v21 : IVec S144 1 := cmpf .olt main_v19 main_v20
  let main_c_7 : IVec S_ 1 := constantI S_ 1 1#1
  let main_v22 : IVec S_ 1 := (fun x v => Host.reduce IntOp.andi x v reducesTo_S144_S_d0 h_S_) main_v21 main_c_7
  let main_v23 : IVec S_ 1 := andi main_v18 main_v22
  let main_v24 : FVec F S48x24 .f32 := Host.absf main_arg6
  let main_cst_8 : FVec F S_ .f32 := constant S_ .f32 0x7F800000#32
  let main_v25 : FVec F S48x24 .f32 := broadcastInDim S48x24 ![] bcast_S_S48x24 main_cst_8
  let main_v26 : IVec S48x24 1 := cmpf .olt main_v24 main_v25
  let main_c_9 : IVec S_ 1 := constantI S_ 1 1#1
  let main_v27 : IVec S_ 1 := (fun x v => Host.reduce IntOp.andi x v reducesTo_S48x24_S_d0_1 h_S_) main_v26 main_c_9
  let main_v28 : IVec S_ 1 := andi main_v23 main_v27
  let main_v29 : FVec F S24 .f32 := Host.absf main_arg7
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg0 main_arg8 main_arg9 main_v33

def fn {F : FTy → Type} [FloatOps F] (main_arg0 : IVec S1000000 32) (main_arg1 : FVec F S1000000x64 .f32) (main_arg2 : FVec F S1000x48 .f32) (main_arg3 : FVec F S64x144 .f32) (main_arg4 : FVec F S48x144 .f32) (main_arg5 : FVec F S144 .f32) (main_arg6 : FVec F S48x24 .f32) (main_arg7 : FVec F S24 .f32) (main_arg8 : FVec F S24x1 .f32) (main_arg9 : FVec F S1 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000x48 .f32 := Host.absf main_arg2
  let main_cst_0 : FVec F S_ .f32 := constant S_ .f32 0x7F800000#32
  let main_v5 : FVec F S1000x48 .f32 := broadcastInDim S1000x48 ![] bcast_S_S1000x48 main_cst_0
  let main_v6 : IVec S1000x48 1 := cmpf .olt main_v4 main_v5
  let main_c_1 : IVec S_ 1 := constantI S_ 1 1#1
  let main_v7 : IVec S_ 1 := (fun x v => Host.reduce IntOp.andi x v reducesTo_S1000x48_S_d0_1 h_S_) main_v6 main_c_1
  let main_v8 : IVec S_ 1 := andi main_v3 main_v7
  let main_v9 : FVec F S64x144 .f32 := Host.absf main_arg3
  let main_cst_2 : FVec F S_ .f32 := constant S_ .f32 0x7F800000#32
  let main_v10 : FVec F S64x144 .f32 := broadcastInDim S64x144 ![] bcast_S_S64x144 main_cst_2
  let main_v11 : IVec S64x144 1 := cmpf .olt main_v9 main_v10
  let main_c_3 : IVec S_ 1 := constantI S_ 1 1#1
  let main_v12 : IVec S_ 1 := (fun x v => Host.reduce IntOp.andi x v reducesTo_S64x144_S_d0_1 h_S_) main_v11 main_c_3
  let main_v13 : IVec S_ 1 := andi main_v8 main_v12
  let main_v14 : FVec F S48x144 .f32 := Host.absf main_arg4
  let main_cst_4 : FVec F S_ .f32 := constant S_ .f32 0x7F800000#32
  let main_v15 : FVec F S48x144 .f32 := broadcastInDim S48x144 ![] bcast_S_S48x144 main_cst_4
  let main_v16 : IVec S48x144 1 := cmpf .olt main_v14 main_v15
  fn_part1 (F := F) main_arg0 main_arg5 main_arg6 main_arg7 main_arg8 main_arg9 main_v13 main_v16
-- ==== Kernel.lean ====
abbrev S1000000 : Shape := ⟨1, ![1000000]⟩
abbrev S1000000x64 : Shape := ⟨2, ![1000000, 64]⟩
abbrev S1000x48 : Shape := ⟨2, ![1000, 48]⟩
abbrev S64x144 : Shape := ⟨2, ![64, 144]⟩
abbrev S48x144 : Shape := ⟨2, ![48, 144]⟩
abbrev S144 : Shape := ⟨1, ![144]⟩
abbrev S48x24 : Shape := ⟨2, ![48, 24]⟩
abbrev S24 : Shape := ⟨1, ![24]⟩
abbrev S24x1 : Shape := ⟨2, ![24, 1]⟩
abbrev S1 : Shape := ⟨1, ![1]⟩
abbrev S_ : Shape := ⟨0, ![]⟩
abbrev S1000 : Shape := ⟨1, ![1000]⟩
abbrev S1000000x1 : Shape := ⟨2, ![1000000, 1]⟩
abbrev S1000x1 : Shape := ⟨2, ![1000, 1]⟩
abbrev S500x2000 : Shape := ⟨2, ![500, 2000]⟩
abbrev S500 : Shape := ⟨1, ![500]⟩
abbrev S1000x144 : Shape := ⟨2, ![1000, 144]⟩
abbrev S1000x192 : Shape := ⟨2, ![1000, 192]⟩
abbrev S2x1000x48 : Shape := ⟨3, ![2, 1000, 48]⟩
abbrev S2000x1 : Shape := ⟨2, ![2000, 1]⟩
abbrev S2000x64 : Shape := ⟨2, ![2000, 64]⟩
abbrev S1x1000x48 : Shape := ⟨3, ![1, 1000, 48]⟩
abbrev S1x1000 : Shape := ⟨2, ![1, 1000]⟩
abbrev S2000x1000 : Shape := ⟨2, ![2000, 1000]⟩
abbrev S2000x192 : Shape := ⟨2, ![2000, 192]⟩
abbrev S2000x48 : Shape := ⟨2, ![2000, 48]⟩
abbrev S2000x144 : Shape := ⟨2, ![2000, 144]⟩
abbrev S1x144 : Shape := ⟨2, ![1, 144]⟩
abbrev S2000x24 : Shape := ⟨2, ![2000, 24]⟩
abbrev S1x24 : Shape := ⟨2, ![1, 24]⟩
abbrev S1x1 : Shape := ⟨2, ![1, 1]⟩

abbrev nBuf : Space → Nat
  | .hbm => 70
  | .vmem => 19
  | .smem => 1
  | _ => 0

abbrev bufTy : (tb : Table) → Fin (tcTables nBuf tb) → BufTy
  | .hbm, ⟨0, _⟩ => ⟨S1000000, .i32⟩
  | .hbm, ⟨1, _⟩ => ⟨S1000000x64, .f32⟩
  | .hbm, ⟨2, _⟩ => ⟨S1000x48, .f32⟩
  | .hbm, ⟨3, _⟩ => ⟨S64x144, .f32⟩
  | .hbm, ⟨4, _⟩ => ⟨S48x144, .f32⟩
  | .hbm, ⟨5, _⟩ => ⟨S144, .f32⟩
  | .hbm, ⟨6, _⟩ => ⟨S48x24, .f32⟩
  | .hbm, ⟨7, _⟩ => ⟨S24, .f32⟩
  | .hbm, ⟨8, _⟩ => ⟨S24x1, .f32⟩
  | .hbm, ⟨9, _⟩ => ⟨S1, .f32⟩
  | .hbm, ⟨10, _⟩ => ⟨S_, .i32⟩
  | .hbm, ⟨11, _⟩ => ⟨S1000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000, .i32⟩
  | .hbm, ⟨22, _⟩ => ⟨S_, .i32⟩
  | .hbm, ⟨23, _⟩ => ⟨S1000, .i32⟩
  | .hbm, ⟨24, _⟩ => ⟨S1000, .i1⟩
  | .hbm, ⟨25, _⟩ => ⟨S1000, .f32⟩
  | .hbm, ⟨26, _⟩ => ⟨S1000x1, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000, .i32⟩
  | .hbm, ⟨36, _⟩ => ⟨S1000000, .i32⟩
  | .hbm, ⟨37, _⟩ => ⟨S1000000, .i1⟩
  | .hbm, ⟨38, _⟩ => ⟨S1000000, .f32⟩
  | .hbm, ⟨39, _⟩ => ⟨S1000000x1, .i32⟩
  | .hbm, ⟨40, _⟩ => ⟨S1000000x1, .f32⟩
  | .hbm, ⟨41, _⟩ => ⟨S1000000x64, .bf16⟩
  | .hbm, ⟨42, _⟩ => ⟨S500x2000, .f32⟩
  | .hbm, ⟨43, _⟩ => ⟨S_, .f32⟩
  | .hbm, ⟨44, _⟩ => ⟨S500x2000, .f32⟩
  | .hbm, ⟨45, _⟩ => ⟨S500x2000, .i1⟩
  | .hbm, ⟨46, _⟩ => ⟨S500x2000, .i1⟩
  | .hbm, ⟨47, _⟩ => ⟨S_, .i1⟩
  | .hbm, ⟨48, _⟩ => ⟨S500, .i1⟩
  | .hbm, ⟨49, _⟩ => ⟨S1000x144, .f32⟩
  | .hbm, ⟨50, _⟩ => ⟨S1000x192, .f32⟩
  | .hbm, ⟨51, _⟩ => ⟨S1000x192, .bf16⟩
  | .hbm, ⟨52, _⟩ => ⟨S1000x192, .f32⟩
  | .hbm, ⟨53, _⟩ => ⟨S1000x192, .f32⟩
  | .hbm, ⟨54, _⟩ => ⟨S1000x192, .bf16⟩
  | .hbm, ⟨55, _⟩ => ⟨S64x144, .bf16⟩
  | .hbm, ⟨56, _⟩ => ⟨S48x24, .bf16⟩
  | .hbm, ⟨57, _⟩ => ⟨S24x1, .bf16⟩
  | .hbm, ⟨58, _⟩ => ⟨S1000000x1, .f32⟩
  | .hbm, ⟨59, _⟩ => ⟨S2x1000x48, .f32⟩
  | .hbm, ⟨60, _⟩ => ⟨S1x1000x48, .f32⟩
  | .hbm, ⟨61, _⟩ => ⟨S1000x48, .f32⟩
  | .hbm, ⟨62, _⟩ => ⟨S1x1000x48, .f32⟩
  | .hbm, ⟨63, _⟩ => ⟨S1000x48, .f32⟩
  | .hbm, ⟨64, _⟩ => ⟨S1000x48, .f32⟩
  | .hbm, ⟨65, _⟩ => ⟨S_, .f32⟩
  | .hbm, ⟨66, _⟩ => ⟨S1000x1, .f32⟩
  | .hbm, ⟨67, _⟩ => ⟨S1000x1, .i1⟩
  | .hbm, ⟨68, _⟩ => ⟨S1000x48, .i1⟩
  | .hbm, ⟨69, _⟩ => ⟨S1000x48, .f32⟩
  | .local _ .vmem, ⟨0, _⟩ => ⟨S2000x1, .i32⟩
  | .local _ .vmem, ⟨1, _⟩ => ⟨S2000x1, .i32⟩
  | .local _ .vmem, ⟨2, _⟩ => ⟨S2000x64, .bf16⟩
  | .local _ .vmem, ⟨3, _⟩ => ⟨S2000x64, .bf16⟩
  | .local _ .vmem, ⟨4, _⟩ => ⟨S2000x1, .f32⟩
  | .local _ .vmem, ⟨5, _⟩ => ⟨S2000x1, .f32⟩
  | .local _ .vmem, ⟨6, _⟩ => ⟨S1000x192, .bf16⟩
  | .local _ .vmem, ⟨7, _⟩ => ⟨S1000x192, .bf16⟩
  | .local _ .vmem, ⟨8, _⟩ => ⟨S64x144, .bf16⟩
  | .local _ .vmem, ⟨9, _⟩ => ⟨S144, .f32⟩
  | .local _ .vmem, ⟨10, _⟩ => ⟨S48x24, .bf16⟩
  | .local _ .vmem, ⟨11, _⟩ => ⟨S24, .f32⟩
  | .local _ .vmem, ⟨12, _⟩ => ⟨S24x1, .bf16⟩
  | .local _ .vmem, ⟨13, _⟩ => ⟨S1, .f32⟩
  | .local _ .vmem, ⟨14, _⟩ => ⟨S2000x1, .f32⟩
  | .local _ .vmem, ⟨15, _⟩ => ⟨S2000x1, .f32⟩
  | .local _ .vmem, ⟨16, _⟩ => ⟨S1x1000x48, .f32⟩
  | .local _ .vmem, ⟨17, _⟩ => ⟨S1x1000x48, .f32⟩
  | .local _ .vmem, ⟨18, _⟩ => ⟨S1000x48, .f32⟩
  | .local _ .smem, ⟨0, _⟩ => ⟨S500, .i32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_call0_v0 : Ref sig .tc := ⟨.hbm, 68, rfl⟩
abbrev main_v49 : Ref sig .tc := ⟨.hbm, 69, rfl⟩
abbrev main_v31 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 250], ![false, false]⟩

abbrev pre0 : Pipeline.Prefetch sig := ⟨1, ![main_v31.idx], fun | 0 => main_v31.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c250_i32 : BitVec 32 := 250#32
  let v0 : BitVec 32 := Scalar.muli arg0 c250_i32
  let arg1 : BitVec 32 := BitVec.ofNat 32 (i 1).val
  let v1 : BitVec 32 := Scalar.addi v0 arg1
  let v70 : Index := Scalar.indexCast v1
  ![v70.toNat]
def k0_cond3 (i : grid0.Coords) : BitVec 1 :=
  let arg1 : BitVec 32 := BitVec.ofNat 32 (i 1).val
  let c249_i32 : BitVec 32 := 249#32
  let v75 : BitVec 1 := Scalar.cmpi .eq arg1 c249_i32
  let v76 : BitVec 32 := Scalar.extui v75
  let c0_i32_27 : BitVec 32 := 0#32
  let v77 : BitVec 1 := Scalar.cmpi .ne v76 c0_i32_27
  v77

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1000x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1000x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S48x24 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S24x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1000x48 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  bcast_S_S1000 : S_.BroadcastsInDim S1000 (![] : Fin 0 → Fin S1000.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000_S1000x1 : S1000.ShapeCasts S1000x1
  shapeCasts_S1000000_S1000000x1 : S1000000.ShapeCasts S1000000x1
  bitsLt_bf16_f32 : FTy.bits .bf16 < FTy.bits .f32
  shapeCasts_S1000000_S500x2000 : S1000000.ShapeCasts S500x2000
  bcast_S_S500x2000 : S_.BroadcastsInDim S500x2000 (![] : Fin 0 → Fin S500x2000.rank)
  reducesTo_S500x2000_S500_d1 : S500x2000.ReducesTo [1] S500
  h_S_ : 0 < S_.numel
  natLt_1_32 : 1 < 32
  concatenates_S1000x48_S1000x144_S1000x192_d1 : Shape.Concatenates [S1000x48, S1000x144] S1000x192 1
  inb_S1000x48_S1000x48_0_0 : ∀ a, (![0, 0] : Fin 2 → Nat) a + S1000x48.size a ≤ S1000x48.size a
  h_S1000x48 : 0 < S1000x48.numel
  shapeCasts_S1000x48_S1000x48 : S1000x48.ShapeCasts S1000x48
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x1000_d1_w32 : S1x1000.Iotas .tc 32 [1]
  broadcasts_S2000x1_S2000x1000 : S2000x1.Broadcasts S2000x1000
  broadcasts_S1x1000_S2000x1000 : S1x1000.Broadcasts S2000x1000
  inb_S1000x192_S1000x192_0_0 : ∀ a, (![0, 0] : Fin 2 → Nat) a + S1000x192.size a ≤ S1000x192.size a
  h_S1000x192 : 0 < S1000x192.numel
  shapeCasts_S1000x192_S1000x192 : S1000x192.ShapeCasts S1000x192
  slices_S2000x192_o0_0_S2000x48 : S2000x192.Slices ![0, 0] S2000x48
  slices_S2000x192_o0_48_S2000x144 : S2000x192.Slices ![0, 48] S2000x144
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x144_S64x144_0_0 : ∀ a, (![0, 0] : Fin 2 → Nat) a + S64x144.size a ≤ S64x144.size a
  h_S64x144 : 0 < S64x144.numel
  shapeCasts_S64x144_S64x144 : S64x144.ShapeCasts S64x144
  inb_S144_S144_0 : ∀ a, (![0] : Fin 1 → Nat) a + S144.size a ≤ S144.size a
  h_S144 : 0 < S144.numel
  shapeCasts_S144_S1x144 : S144.ShapeCasts S1x144
  broadcasts_S1x144_S2000x144 : S1x144.Broadcasts S2000x144
  slices_S2000x144_o0_0_S2000x48 : S2000x144.Slices ![0, 0] S2000x48
  slices_S2000x144_o0_48_S2000x48 : S2000x144.Slices ![0, 48] S2000x48
  slices_S2000x144_o0_96_S2000x48 : S2000x144.Slices ![0, 96] S2000x48
  inb_S48x24_S48x24_0_0 : ∀ a, (![0, 0] : Fin 2 → Nat) a + S48x24.size a ≤ S48x24.size a
  h_S48x24 : 0 < S48x24.numel
  shapeCasts_S48x24_S48x24 : S48x24.ShapeCasts S48x24
  inb_S24_S24_0 : ∀ a, (![0] : Fin 1 → Nat) a + S24.size a ≤ S24.size a
  h_S24 : 0 < S24.numel
  shapeCasts_S24_S1x24 : S24.ShapeCasts S1x24
  broadcasts_S1x24_S2000x24 : S1x24.Broadcasts S2000x24
  inb_S24x1_S24x1_0_0 : ∀ a, (![0, 0] : Fin 2 → Nat) a + S24x1.size a ≤ S24x1.size a
  h_S24x1 : 0 < S24x1.numel
  shapeCasts_S24x1_S24x1 : S24x1.ShapeCasts S24x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  numel1_S1 : S1.numel = 1
  inb_S1x1000x48_S1x1000x48_0_0_0 : ∀ a, (![0, 0, 0] : Fin 3 → Nat) a + S1x1000x48.size a ≤ S1x1000x48.size a
  h_S1x1000x48 : 0 < S1x1000x48.numel
  shapeCasts_S1x1000x48_S1000x48 : S1x1000x48.ShapeCasts S1000x48
  shapeCasts_S1000x48_S1x1000x48 : S1000x48.ShapeCasts S1x1000x48
  slices_S2x1000x48_S1x1000x48_0_0_0 : S2x1000x48.Slices ![0, 0, 0] S1x1000x48
  slices_S2x1000x48_S1x1000x48_1_0_0 : S2x1000x48.Slices ![1, 0, 0] S1x1000x48
  bcast_S_S1000x1 : S_.BroadcastsInDim S1000x1 (![] : Fin 0 → Fin S1000x1.rank)
  bcast_S1000x1_S1000x48_0_1 : S1000x1.BroadcastsInDim S1000x48 (![0, 1] : Fin 2 → Fin S1000x48.rank)
  scatter_S1000_S1000000x1_S1000000_n_0_0_1_wf : ScatterDims.WF S1000 S1000000x1 S1000000 [] [0] [0] 1
  gather_S1000_S1000000x1_S1000000_n_0_n_n_0_1_1_wf : GatherDims.WF S1000 S1000000x1 S1000000 [] [0] [] [0] [] 1 ![1]
  dot_S1000x48_S48x144_S1000x144_1_0_0_1_n_n_wf : DotDims.WF S1000x48 S48x144 S1000x144 [1] [0] [0] [1] [] []
  dot_S2000x1000_S1000x192_S2000x192_1_0_0_1_n_n_wf : DotDims.WF S2000x1000 S1000x192 S2000x192 [1] [0] [0] [1] [] []
  dot_S2000x64_S64x144_S2000x144_1_0_0_1_n_n_wf : DotDims.WF S2000x64 S64x144 S2000x144 [1] [0] [0] [1] [] []
  dot_S2000x48_S48x24_S2000x24_1_0_0_1_n_n_wf : DotDims.WF S2000x48 S48x24 S2000x24 [1] [0] [0] [1] [] []
  dot_S2000x24_S24x1_S2000x1_1_0_0_1_n_n_wf : DotDims.WF S2000x24 S24x1 S2000x1 [1] [0] [0] [1] [] []
  dot_S2000x1000_S2000x48_S1000x48_0_0_1_1_n_n_wf : DotDims.WF S2000x1000 S2000x48 S1000x48 [0] [0] [1] [1] [] []
  hrank0 : 0 < grid0.rank
  k0_off1_inb : ∀ i : grid0.Coords, ∀ a, (k0_off1 i) a + S1.size a ≤ S500.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S1000000x1.size a
  hwx0_0 : ∀ i : grid0.Coords, EltTy.bits .i32 = 32 ∨ (Rect.block (s := S1000000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1000000x64.size a
  hwx0_1 : ∀ i : grid0.Coords, EltTy.bits .bf16 = 32 ∨ (Rect.block (s := S1000000x64) S2000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S1000000x1.size a
  hwx0_2 : ∀ i : grid0.Coords, EltTy.bits .f32 = 32 ∨ (Rect.block (s := S1000000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x192.size a ≤ S1000x192.size a
  hwx0_3 : ∀ i : grid0.Coords, EltTy.bits .bf16 = 32 ∨ (Rect.block (s := S1000x192) S1000x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x192.size a ≤ S1000x192.size a
  hwx0_4 : ∀ i : grid0.Coords, EltTy.bits .bf16 = 32 ∨ (Rect.block (s := S1000x192) S1000x192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x144.size a ≤ S64x144.size a
  hwx0_5 : ∀ i : grid0.Coords, EltTy.bits .bf16 = 32 ∨ (Rect.block (s := S64x144) S64x144.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S144.size a ≤ S144.size a
  hwx0_6 : ∀ i : grid0.Coords, EltTy.bits .f32 = 32 ∨ (Rect.block (s := S144) S144.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48x24.size a ≤ S48x24.size a
  hwx0_7 : ∀ i : grid0.Coords, EltTy.bits .bf16 = 32 ∨ (Rect.block (s := S48x24) S48x24.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24.size a ≤ S24.size a
  hwx0_8 : ∀ i : grid0.Coords, EltTy.bits .f32 = 32 ∨ (Rect.block (s := S24) S24.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S24x1.size a ≤ S24x1.size a
  hwx0_9 : ∀ i : grid0.Coords, EltTy.bits .bf16 = 32 ∨ (Rect.block (s := S24x1) S24x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x1.size a ≤ S1000000x1.size a
  hwx0_11 : ∀ i : grid0.Coords, EltTy.bits .f32 = 32 ∨ (Rect.block (s := S1000000x1) S2000x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1000x48.size a ≤ S2x1000x48.size a
  hwx0_12 : ∀ i : grid0.Coords, EltTy.bits .f32 = 32 ∨ (Rect.block (s := S2x1000x48) S1x1000x48.size (cc0_transform_12 i) (hinb0_12 i)).WholeWords (EltTy.packing .f32)

variable [Facts₀]

def scatter_S1000_S1000000x1_S1000000_n_0_0_1 : ScatterDims S1000 S1000000x1 S1000000 where
  updateWindowDims := []
  insertedWindowDims := [0]
  scatterDimsToOperandDims := [0]
  indexVectorDim := 1
  wf := scatter_S1000_S1000000x1_S1000000_n_0_0_1_wf
def gather_S1000_S1000000x1_S1000000_n_0_n_n_0_1_1 : GatherDims S1000 S1000000x1 S1000000 where
  offsetDims := []
  collapsedSliceDims := [0]
  operandBatchingDims := []
  startIndicesBatchingDims := []
  startIndexMap := [0]
  indexVectorDim := 1
  sliceSizes := ![1]
  wf := gather_S1000_S1000000x1_S1000000_n_0_n_n_0_1_1_wf
def dot_S1000x48_S48x144_S1000x144_1_0_0_1_n_n : DotDims S1000x48 S48x144 S1000x144 where
  lhsContracting := [1]
  rhsContracting := [0]
  lhsNonContracting := [0]
  rhsNonContracting := [1]
  lhsBatch := []
  rhsBatch := []
  wf := dot_S1000x48_S48x144_S1000x144_1_0_0_1_n_n_wf
def dot_S2000x1000_S1000x192_S2000x192_1_0_0_1_n_n : DotDims S2000x1000 S1000x192 S2000x192 where
  lhsContracting := [1]
  rhsContracting := [0]
  lhsNonContracting := [0]
  rhsNonContracting := [1]
  lhsBatch := []
  rhsBatch := []
  wf := dot_S2000x1000_S1000x192_S2000x192_1_0_0_1_n_n_wf
def dot_S2000x64_S64x144_S2000x144_1_0_0_1_n_n : DotDims S2000x64 S64x144 S2000x144 where
  lhsContracting := [1]
  rhsContracting := [0]
  lhsNonContracting := [0]
  rhsNonContracting := [1]
  lhsBatch := []
  rhsBatch := []
  wf := dot_S2000x64_S64x144_S2000x144_1_0_0_1_n_n_wf
def dot_S2000x48_S48x24_S2000x24_1_0_0_1_n_n : DotDims S2000x48 S48x24 S2000x24 where
  lhsContracting := [1]
  rhsContracting := [0]
  lhsNonContracting := [0]
  rhsNonContracting := [1]
  lhsBatch := []
  rhsBatch := []
  wf := dot_S2000x48_S48x24_S2000x24_1_0_0_1_n_n_wf
def dot_S2000x24_S24x1_S2000x1_1_0_0_1_n_n : DotDims S2000x24 S24x1 S2000x1 where
  lhsContracting := [1]
  rhsContracting := [0]
  lhsNonContracting := [0]
  rhsNonContracting := [1]
  lhsBatch := []
  rhsBatch := []
  wf := dot_S2000x24_S24x1_S2000x1_1_0_0_1_n_n_wf
def dot_S2000x1000_S2000x48_S1000x48_0_0_1_1_n_n : DotDims S2000x1000 S2000x48 S1000x48 where
  lhsContracting := [0]
  rhsContracting := [0]
  lhsNonContracting := [1]
  rhsNonContracting := [1]
  lhsBatch := []
  rhsBatch := []
  wf := dot_S2000x1000_S2000x48_S1000x48_0_0_1_1_n_n_wf

abbrev spec0_0 : Pipeline.WinSpec sig grid0.rank :=
  Pipeline.WinSpec.ofSpec (Memref.whole main_v23) S2000x1.size reads0_0 false false 2 stage0_0 sem0_0 nbuf0_0 hstage0_0

abbrev spec0_1 : Pipeline.WinSpec sig grid0.rank :=
  Pipeline.WinSpec.ofSpec (Memref.whole main_v25) S2000x64.size reads0_1 false false 2 stage0_1 sem0_1 nbuf0_1 hstage0_1

abbrev spec0_2 : Pipeline.WinSpec sig grid0.rank :=
  Pipeline.WinSpec.ofSpec (Memref.whole main_v24) S2000x1.size reads0_2 false false 2 stage0_2 sem0_2 nbuf0_2 hstage0_2

abbrev spec0_3 : Pipeline.WinSpec sig grid0.rank :=
  Pipeline.WinSpec.ofSpec (Memref.whole main_v34) S1000x192.size reads0_3 false true 1 stage0_3 sem0_3 nbuf0_3 hstage0_3

abbrev spec0_4 : Pipeline.WinSpec sig grid0.rank :=
  Pipeline.WinSpec.ofSpec (Memref.whole main_v37) S1000x192.size reads0_4 false true 1 stage0_4 sem0_4 nbuf0_4 hstage0_4

abbrev spec0_5 : Pipeline.WinSpec sig grid0.rank :=
  Pipeline.WinSpec.ofSpec (Memref.whole main_v38) S64x144.size reads0_5 false true 1 stage0_5 sem0_5 nbuf0_5 hstage0_5

abbrev spec0_6 : Pipeline.WinSpec sig grid0.rank :=
  Pipeline.WinSpec.ofSpec (Memref.whole main_arg5) S144.size reads0_6 false true 1 stage0_6 sem0_6 nbuf0_6 hstage0_6

abbrev spec0_7 : Pipeline.WinSpec sig grid0.rank :=
  Pipeline.WinSpec.ofSpec (Memref.whole main_v39) S48x24.size reads0_7 false true 1 stage0_7 sem0_7 nbuf0_7 hstage0_7

abbrev spec0_8 : Pipeline.WinSpec sig grid0.rank :=
  Pipeline.WinSpec.ofSpec (Memref.whole main_arg7) S24.size reads0_8 false true 1 stage0_8 sem0_8 nbuf0_8 hstage0_8

abbrev spec0_9 : Pipeline.WinSpec sig grid0.rank :=
  Pipeline.WinSpec.ofSpec (Memref.whole main_v40) S24x1.size reads0_9 false true 1 stage0_9 sem0_9 nbuf0_9 hstage0_9

abbrev spec0_10 : Pipeline.WinSpec sig grid0.rank :=
  Pipeline.WinSpec.ofSpec (Memref.whole main_arg9) S1.size reads0_10 false true 1 stage0_10 sem0_10 nbuf0_10 hstage0_10

abbrev spec0_11 : Pipeline.WinSpec sig grid0.rank :=
  Pipeline.WinSpec.ofSpec (Memref.whole main_v41_0) S2000x1.size reads0_11 true false 2 stage0_11 sem0_11 nbuf0_11 hstage0_11

abbrev spec0_12 : Pipeline.WinSpec sig grid0.rank :=
  Pipeline.WinSpec.ofSpec (Memref.whole main_v41_1) S1x1000x48.size reads0_12 true false 2 stage0_12 sem0_12 nbuf0_12 hstage0_12

abbrev spec0 : Fin 13 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | ⟨_ + 13, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | ⟨_ + 13, h⟩ => absurd h (Nat.not_lt.2 (Nat.le_add_left _ _))
abbrev ix0 (pf : pre0.Contents (Elt F)) : (w : Fin 13) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | 10 => cc0_transform_10 | 11 => cc0_transform_11 | 12 => cc0_transform_12 | ⟨_ + 13, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | 12 => hreads0_12 | ⟨_ + 13, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | 12 => hinb0_12 | ⟨_ + 13, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | 12 => hwx0_12 | ⟨_ + 13, h⟩ => absurd h (Nat.not_lt.2 (Nat.le_add_left _ _))
abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond3 i == 1#1) | ⟨_ + 13, h⟩ => absurd h (Nat.not_lt.2 (Nat.le_add_left _ _))

class Facts : Prop extends Facts₀ where
  harr0 : ∀ w, (spec0 w).arr.IsWhole

variable [Facts]
-- ==== ReferenceIdeal.lean ====
abbrev S1000000 : Shape := ⟨1, ![1000000]⟩
abbrev S1000000x64 : Shape := ⟨2, ![1000000, 64]⟩
abbrev S1000x48 : Shape := ⟨2, ![1000, 48]⟩
abbrev S64x144 : Shape := ⟨2, ![64, 144]⟩
abbrev S48x144 : Shape := ⟨2, ![48, 144]⟩
abbrev S144 : Shape := ⟨1, ![144]⟩
abbrev S48x24 : Shape := ⟨2, ![48, 24]⟩
abbrev S24 : Shape := ⟨1, ![24]⟩
abbrev S24x1 : Shape := ⟨2, ![24, 1]⟩
abbrev S1 : Shape := ⟨1, ![1]⟩
abbrev S_ : Shape := ⟨0, ![]⟩
abbrev S1000000x1 : Shape := ⟨2, ![1000000, 1]⟩
abbrev S1000000x48 : Shape := ⟨2, ![1000000, 48]⟩
abbrev S1000000x144 : Shape := ⟨2, ![1000000, 144]⟩
abbrev S1x144 : Shape := ⟨2, ![1, 144]⟩
abbrev S1000000x24 : Shape := ⟨2, ![1000000, 24]⟩
abbrev S1x24 : Shape := ⟨2, ![1, 24]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000x64, .f32⟩
  | .hbm, ⟨2, _⟩ => ⟨S1000x48, .f32⟩
  | .hbm, ⟨3, _⟩ => ⟨S64x144, .f32⟩
  | .hbm, ⟨4, _⟩ => ⟨S48x144, .f32⟩
  | .hbm, ⟨5, _⟩ => ⟨S144, .f32⟩
  | .hbm, ⟨6, _⟩ => ⟨S48x24, .f32⟩
  | .hbm, ⟨7, _⟩ => ⟨S24, .f32⟩
  | .hbm, ⟨8, _⟩ => ⟨S24x1, .f32⟩
  | .hbm, ⟨9, _⟩ => ⟨S1, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x48, .f32⟩
  | .hbm, ⟨19, _⟩ => ⟨S1000000x144, .f32⟩
  | .hbm, ⟨20, _⟩ => ⟨S1x144, .f32⟩
  | .hbm, ⟨21, _⟩ => ⟨S1000000x144, .f32⟩
  | .hbm, ⟨22, _⟩ => ⟨S1000000x144, .f32⟩
  | .hbm, ⟨23, _⟩ => ⟨S1000000x144, .f32⟩
  | .hbm, ⟨24, _⟩ => ⟨S1000000x48, .f32⟩
  | .hbm, ⟨25, _⟩ => ⟨S1000000x48, .f32⟩
  | .hbm, ⟨26, _⟩ => ⟨S1000000x48, .f32⟩
  | .hbm, ⟨27, _⟩ => ⟨S1000000x48, .f32⟩
  | .hbm, ⟨28, _⟩ => ⟨S1000000x48, .f32⟩
  | .hbm, ⟨29, _⟩ => ⟨S1000000x48, .f32⟩
  | .hbm, ⟨30, _⟩ => ⟨S1000000x48, .f32⟩
  | .hbm, ⟨31, _⟩ => ⟨S1000000x48, .f32⟩
  | .hbm, ⟨32, _⟩ => ⟨S1000000x48, .f32⟩
  | .hbm, ⟨33, _⟩ => ⟨S_, .f32⟩
  | .hbm, ⟨34, _⟩ => ⟨S1000000x48, .f32⟩
  | .hbm, ⟨35, _⟩ => ⟨S1000000x48, .f32⟩
  | .hbm, ⟨36, _⟩ => ⟨S_, .f32⟩
  | .hbm, ⟨37, _⟩ => ⟨S1000000x48, .f32⟩
  | .hbm, ⟨38, _⟩ => ⟨S1000000x48, .f32⟩
  | .hbm, ⟨39, _⟩ => ⟨S1000000x48, .f32⟩
  | .hbm, ⟨40, _⟩ => ⟨S1000000x48, .f32⟩
  | .hbm, ⟨41, _⟩ => ⟨S1000000x48, .f32⟩
  | .hbm, ⟨42, _⟩ => ⟨S_, .f32⟩
  | .hbm, ⟨43, _⟩ => ⟨S1000000x48, .f32⟩
  | .hbm, ⟨44, _⟩ => ⟨S1000000x48, .f32⟩
  | .hbm, ⟨45, _⟩ => ⟨S_, .f32⟩
  | .hbm, ⟨46, _⟩ => ⟨S1000000x48, .f32⟩
  | .hbm, ⟨47, _⟩ => ⟨S1000000x48, .f32⟩
  | .hbm, ⟨48, _⟩ => ⟨S1000000x48, .f32⟩
  | .hbm, ⟨49, _⟩ => ⟨S1000000x48, .f32⟩
  | .hbm, ⟨50, _⟩ => ⟨S1000000x48, .f32⟩
  | .hbm, ⟨51, _⟩ => ⟨S1000000x48, .f32⟩
  | .hbm, ⟨52, _⟩ => ⟨S_, .f32⟩
  | .hbm, ⟨53, _⟩ => ⟨S1000000x48, .f32⟩
  | .hbm, ⟨54, _⟩ => ⟨S1000000x48, .f32⟩
  | .hbm, ⟨55, _⟩ => ⟨S1000000x48, .f32⟩
  | .hbm, ⟨56, _⟩ => ⟨S1000000x48, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000x48, .f32⟩
  | .hbm, ⟨66, _⟩ => ⟨S1000000x24, .f32⟩
  | .hbm, ⟨67, _⟩ => ⟨S1x24, .f32⟩
  | .hbm, ⟨68, _⟩ => ⟨S1000000x24, .f32⟩
  | .hbm, ⟨69, _⟩ => ⟨S1000000x24, .f32⟩
  | .hbm, ⟨70, _⟩ => ⟨S_, .f32⟩
  | .hbm, ⟨71, _⟩ => ⟨S1000000x24, .f32⟩
  | .hbm, ⟨72, _⟩ => ⟨S1000000x24, .f32⟩
  | .hbm, ⟨73, _⟩ => ⟨S1000000x1, .f32⟩
  | .hbm, ⟨74, _⟩ => ⟨S1x1, .f32⟩
  | .hbm, ⟨75, _⟩ => ⟨S1000000x1, .f32⟩
  | .hbm, ⟨76, _⟩ => ⟨S1000000x1, .f32⟩
  | .hbm, ⟨77, _⟩ => ⟨S1000000x1, .f32⟩
  | .hbm, ⟨78, _⟩ => ⟨S1000000x1, .f32⟩
  | .hbm, ⟨79, _⟩ => ⟨S_, .f32⟩
  | .hbm, ⟨80, _⟩ => ⟨S1000000x1, .f32⟩
  | .hbm, ⟨81, _⟩ => ⟨S1000000x1, .f32⟩
  | .hbm, ⟨82, _⟩ => ⟨S_, .f32⟩
  | .hbm, ⟨83, _⟩ => ⟨S1000000x1, .f32⟩
  | .hbm, ⟨84, _⟩ => ⟨S1000000x1, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_cst : Ref sig .tc := ⟨.hbm, 70, rfl⟩
abbrev main_call0_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S144_S1x144_1 : S144.BroadcastsInDim S1x144 (![1] : Fin 1 → Fin S1x144.rank)
  bcast_S1x144_S1000000x144_0_1 : S1x144.BroadcastsInDim S1000000x144 (![0, 1] : Fin 2 → Fin S1000000x144.rank)
  slices_S1000000x144_S1000000x48_0_0 : S1000000x144.Slices ![0, 0] S1000000x48
  slices_S1000000x144_S1000000x48_0_48 : S1000000x144.Slices ![0, 48] S1000000x48
  slices_S1000000x144_S1000000x48_0_96 : S1000000x144.Slices ![0, 96] S1000000x48
  bcast_S_S1000000x48 : S_.BroadcastsInDim S1000000x48 (![] : Fin 0 → Fin S1000000x48.rank)
  bcast_S24_S1x24_1 : S24.BroadcastsInDim S1x24 (![1] : Fin 1 → Fin S1x24.rank)
  bcast_S1x24_S1000000x24_0_1 : S1x24.BroadcastsInDim S1000000x24 (![0, 1] : Fin 2 → Fin S1000000x24.rank)
  bcast_S_S1000000x24 : S_.BroadcastsInDim S1000000x24 (![] : Fin 0 → Fin S1000000x24.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S1000x48_S1000000x1_S1000000x48_1_0_n_n_0_1_148_wf : GatherDims.WF S1000x48 S1000000x1 S1000000x48 [1] [0] [] [0] [] 1 ![1, 48]
  dot_S1000000x64_S64x144_S1000000x144_1_0_0_1_n_n_wf : DotDims.WF S1000000x64 S64x144 S1000000x144 [1] [0] [0] [1] [] []
  dot_S1000000x48_S48x144_S1000000x144_1_0_0_1_n_n_wf : DotDims.WF S1000000x48 S48x144 S1000000x144 [1] [0] [0] [1] [] []
  scatter_S1000x48_S1000000x1_S1000000x48_1_0_0_1_wf : ScatterDims.WF S1000x48 S1000000x1 S1000000x48 [1] [0] [0] 1
  dot_S1000000x48_S48x24_S1000000x24_1_0_0_1_n_n_wf : DotDims.WF S1000000x48 S48x24 S1000000x24 [1] [0] [0] [1] [] []
  dot_S1000000x24_S24x1_S1000000x1_1_0_0_1_n_n_wf : DotDims.WF S1000000x24 S24x1 S1000000x1 [1] [0] [0] [1] [] []

variable [Facts₀]

def gather_S1000x48_S1000000x1_S1000000x48_1_0_n_n_0_1_148 : GatherDims S1000x48 S1000000x1 S1000000x48 where
  offsetDims := [1]
  collapsedSliceDims := [0]
  operandBatchingDims := []
  startIndicesBatchingDims := []
  startIndexMap := [0]
  indexVectorDim := 1
  sliceSizes := ![1, 48]
  wf := gather_S1000x48_S1000000x1_S1000000x48_1_0_n_n_0_1_148_wf
def dot_S1000000x64_S64x144_S1000000x144_1_0_0_1_n_n : DotDims S1000000x64 S64x144 S1000000x144 where
  lhsContracting := [1]
  rhsContracting := [0]
  lhsNonContracting := [0]
  rhsNonContracting := [1]
  lhsBatch := []
  rhsBatch := []
  wf := dot_S1000000x64_S64x144_S1000000x144_1_0_0_1_n_n_wf
def dot_S1000000x48_S48x144_S1000000x144_1_0_0_1_n_n : DotDims S1000000x48 S48x144 S1000000x144 where
  lhsContracting := [1]
  rhsContracting := [0]
  lhsNonContracting := [0]
  rhsNonContracting := [1]
  lhsBatch := []
  rhsBatch := []
  wf := dot_S1000000x48_S48x144_S1000000x144_1_0_0_1_n_n_wf
def scatter_S1000x48_S1000000x1_S1000000x48_1_0_0_1 : ScatterDims S1000x48 S1000000x1 S1000000x48 where
  updateWindowDims := [1]
  insertedWindowDims := [0]
  scatterDimsToOperandDims := [0]
  indexVectorDim := 1
  wf := scatter_S1000x48_S1000000x1_S1000000x48_1_0_0_1_wf
def dot_S1000000x48_S48x24_S1000000x24_1_0_0_1_n_n : DotDims S1000000x48 S48x24 S1000000x24 where
  lhsContracting := [1]
  rhsContracting := [0]
  lhsNonContracting := [0]
  rhsNonContracting := [1]
  lhsBatch := []
  rhsBatch := []
  wf := dot_S1000000x48_S48x24_S1000000x24_1_0_0_1_n_n_wf
def dot_S1000000x24_S24x1_S1000000x1_1_0_0_1_n_n : DotDims S1000000x24 S24x1 S1000000x1 where
  lhsContracting := [1]
  rhsContracting := [0]
  lhsNonContracting := [0]
  rhsNonContracting := [1]
  lhsBatch := []
  rhsBatch := []
  wf := dot_S1000000x24_S24x1_S1000000x1_1_0_0_1_n_n_wf

class Facts : Prop extends Facts₀ where

variable [Facts]
-- ==== Proof.LibLast.lean ====
/-
  The last position at which a function on an initial segment of the naturals takes a given value.

  Running through the positions 0, 1, …, N−1 in order and remembering the latest one at which f equals k
  leaves, at the end, the LARGEST position with f = k, or nothing when there is none.
-/
import Mathlib.Data.List.FinRange
import Mathlib.Data.List.Induction
import Mathlib.Data.Fin.Basic

namespace Cert.LibLast

/-- The running "latest seen" over the positions 0, 1, …, N−1 in increasing order. -/
def lastFold {N : Nat} {κ : Type} [DecidableEq κ] (f : Fin N → κ) (k : κ) : Option (Fin N) :=
  (List.finRange N).foldl (fun a n => if f n = k then some n else a) none

/-- The running "latest seen" over a strictly increasing list of positions: it is some t exactly when t is in the
    list, carries k, and every listed position carrying k is at most t. -/
theorem foldl_latest_eq_some_iff {N : Nat} {κ : Type} [DecidableEq κ] (f : Fin N → κ) (k : κ) (t : Fin N)
    (l : List (Fin N)) (hl : l.Pairwise (· < ·)) :
    l.foldl (fun a n => if f n = k then some n else a) none = some t
      ↔ t ∈ l ∧ f t = k ∧ ∀ t' ∈ l, f t' = k → t' ≤ t := by
  induction l using List.reverseRecOn with
  | nil => simp
  | append_singleton xs x ih =>
    rw [List.pairwise_append] at hl
    obtain ⟨hxs, -, hlt⟩ := hl
    have hlt' : ∀ y ∈ xs, y < x := fun y hy => hlt y hy x (List.mem_singleton.mpr rfl)
    rw [List.foldl_append, List.foldl_cons, List.foldl_nil]
    by_cases hx : f x = k
    · rw [if_pos hx]
      constructor
      · intro h
        have hxt : x = t := Option.some.inj h
        subst hxt
        refine ⟨by simp, hx, ?_⟩
        intro t' ht' _
        rcases List.mem_append.mp ht' with h1 | h1
        · exact le_of_lt (hlt' t' h1)
        · rw [List.mem_singleton.mp h1]
      · rintro ⟨ht, -, hmax⟩
        have hxle : x ≤ t := hmax x (by simp) hx
        rcases List.mem_append.mp ht with h1 | h1
        · exact absurd (hlt' t h1) (not_lt.mpr hxle)
        · rw [List.mem_singleton.mp h1]
    · rw [if_neg hx, ih hxs]
      constructor
      · rintro ⟨ht, hft, hmax⟩
        refine ⟨List.mem_append.mpr (Or.inl ht), hft, ?_⟩
        intro t' ht' hft'
        rcases List.mem_append.mp ht' with h1 | h1
        · exact hmax t' h1 hft'
        · rw [List.mem_singleton.mp h1] at hft'
          exact absurd hft' hx
      · rintro ⟨ht, hft, hmax⟩
        rcases List.mem_append.mp ht with h1 | h1
        · exact ⟨h1, hft, fun t' ht' hft' => hmax t' (List.mem_append.mpr (Or.inl ht')) hft'⟩
        · rw [List.mem_singleton.mp h1] at hft
          exact absurd hft hx

/-- The running "latest seen" over any list of positions is nothing exactly when no listed position carries k. -/
theorem foldl_latest_eq_none_iff {N : Nat} {κ : Type} [DecidableEq κ] (f : Fin N → κ) (k : κ)
    (l : List (Fin N)) :
    l.foldl (fun a n => if f n = k then some n else a) none = none ↔ ∀ t ∈ l, f t ≠ k := by
  induction l using List.reverseRecOn with
  | nil => simp
  | append_singleton xs x ih =>
    rw [List.foldl_append, List.foldl_cons, List.foldl_nil]
    by_cases hx : f x = k
    · rw [if_pos hx]
      constructor
      · intro h
        exact absurd h (by simp)
      · intro h
        exact absurd hx (h x (by simp))
    · rw [if_neg hx, ih]
      constructor
      · intro h t ht
        rcases List.mem_append.mp ht with h1 | h1
        · exact h t h1
        · rw [List.mem_singleton.mp h1]
          exact hx
      · intro h t ht
        exact h t (List.mem_append.mpr (Or.inl ht))

/-- The running fold is some t exactly when t carries k and no later position does. -/
theorem lastFold_eq_some_iff {N : Nat} {κ : Type} [DecidableEq κ] (f : Fin N → κ) (k : κ) (t : Fin N) :
    lastFold f k = some t ↔ f t = k ∧ ∀ t', f t' = k → t' ≤ t := by
  unfold lastFold
  rw [foldl_latest_eq_some_iff f k t (List.finRange N) (List.pairwise_lt_finRange N)]
  constructor
  · rintro ⟨-, hft, hmax⟩
    exact ⟨hft, fun t' ht' => hmax t' (List.mem_finRange t') ht'⟩
  · rintro ⟨hft, hmax⟩
    exact ⟨List.mem_finRange t, hft, fun t' _ ht' => hmax t' ht'⟩

/-- The running fold is nothing exactly when no position carries k. -/
theorem lastFold_eq_none_iff {N : Nat} {κ : Type} [DecidableEq κ] (f : Fin N → κ) (k : κ) :
    lastFold f k = none ↔ ∀ t, f t ≠ k := by
  unfold lastFold
  rw [foldl_latest_eq_none_iff f k (List.finRange N)]
  constructor
  · intro h t
    exact h t (List.mem_finRange t)
  · intro h t _
    exact h t

/-- The last position at which f takes the value k, if any: the greatest position carrying k, chosen when there
    is one. -/
noncomputable def lastOcc {N : Nat} {κ : Type} [DecidableEq κ] (f : Fin N → κ) (k : κ) : Option (Fin N) :=
  @dite _ (∃ t, f t = k ∧ ∀ t', f t' = k → t' ≤ t) (Classical.propDecidable _)
    (fun h => some (Classical.choose h)) (fun _ => none)

/-- It is some t exactly when t carries k and no later position does. -/
theorem lastOcc_eq_some_iff {N : Nat} {κ : Type} [DecidableEq κ] (f : Fin N → κ) (k : κ) (t : Fin N) :
    lastOcc f k = some t ↔ f t = k ∧ ∀ t', f t' = k → t' ≤ t := by
  unfold lastOcc
  by_cases hex : ∃ t, f t = k ∧ ∀ t', f t' = k → t' ≤ t
  · rw [dif_pos hex]
    have hc := Classical.choose_spec hex
    constructor
    · intro h
      have e : Classical.choose hex = t := Option.some.inj h
      rw [← e]
      exact hc
    · rintro ⟨hft, hmax⟩
      have e : Classical.choose hex = t := le_antisymm (hmax _ hc.1) (hc.2 t hft)
      rw [e]
  · rw [dif_neg hex]
    constructor
    · intro h
      exact absurd h.symm (Option.some_ne_none t)
    · intro h
      exact absurd ⟨t, h⟩ hex

/-- It is nothing exactly when no position carries k. -/
theorem lastOcc_eq_none_iff {N : Nat} {κ : Type} [DecidableEq κ] (f : Fin N → κ) (k : κ) :
    lastOcc f k = none ↔ ∀ t, f t ≠ k := by
  unfold lastOcc
  by_cases hex : ∃ t, f t = k ∧ ∀ t', f t' = k → t' ≤ t
  · rw [dif_pos hex]
    constructor
    · intro h
      exact absurd h (Option.some_ne_none _)
    · intro h
      obtain ⟨t, ht, -⟩ := hex
      exact absurd ht (h t)
  · rw [dif_neg hex]
    constructor
    · intro _ t ht
      cases hl : lastFold f k with
      | none => exact (lastFold_eq_none_iff f k).mp hl t ht
      | some t0 => exact hex ⟨t0, (lastFold_eq_some_iff f k t0).mp hl⟩
    · intro _
      rfl

/-- The chosen greatest position is the one the running fold ends on. -/
theorem lastOcc_eq_lastFold {N : Nat} {κ : Type} [DecidableEq κ] (f : Fin N → κ) (k : κ) :
    lastOcc f k = lastFold f k := by
  cases hl : lastFold f k with
  | none => exact (lastOcc_eq_none_iff f k).mpr ((lastFold_eq_none_iff f k).mp hl)
  | some t => exact (lastOcc_eq_some_iff f k t).mpr ((lastFold_eq_some_iff f k t).mp hl)

end Cert.LibLast
-- ==== Proof.Spec.lean ====
/-
  The mathematics of the shared-state GRU step, over the extended reals, with no program in sight.

  One row of the batch carries an integer slot into a bank of 1000 hidden states (48 numbers each) and a
  feature vector of 64 numbers. The row's hidden state h is the bank's row at its slot. Three gates are read
  off two affine maps, gx = x·W + b and gh = h·U (144 columns each, cut in three runs of 48): the update gate
  z = σ(gx_z + gh_z), the reset gate r = σ(gx_r + gh_r), the candidate tanh(gx_h + r·gh_h), and the new
  state is z·h + (1 − z)·candidate. A two-layer head maps the new state to a score in (0, 1).
  The bank is then updated: slot k receives the new state of the LAST row (largest row number) that carries
  k; a slot no row carries keeps its old contents.

  Everything below is a definition, or a statement about these definitions alone.
-/
import Idealize.ShloMosaic.PureOps.Ideal.Laws
import Idealize.ShloMosaic.Lib.ValueIdx
import proofs.«418272_j53223234732113_3_alg».proof.Proof.LibLast

noncomputable section

open scoped BigOperators

namespace Cert.Gru

open Idealize.ShloMosaic Idealize.ShloMosaic.ValueIdx Cert.LibLast

/-- The number the float word 0x3F800000 denotes (it is 1). -/
abbrev one32 : EReal := Ideal.ofBits .f32 0x3F800000#32
/-- The number the float word 0x00000000 denotes (it is 0). -/
abbrev zero32 : EReal := Ideal.ofBits .f32 0x00000000#32

/-- A matrix of extended reals over literal extents. -/
abbrev Mat (a b : Nat) : Type := (⟨2, ![a, b]⟩ : Shape).Idx → EReal
/-- A vector of extended reals over a literal extent. -/
abbrev Vc (a : Nat) : Type := (⟨1, ![a]⟩ : Shape).Idx → EReal

/-- The layer's parameters. -/
structure Params where
  W : Mat 64 144
  U : Mat 48 144
  b : Vc 144
  dw1 : Mat 48 24
  db1 : Vc 24
  dw2 : Mat 24 1
  db2 : Vc 1

variable (P : Params)

/-- Column j of x·W + b. -/
def gx (x : Fin 64 → EReal) (j : Fin 144) : EReal := (∑ k : Fin 64, x k * P.W (ix2 k j)) + P.b (ix1 j)
/-- Column j of h·U. -/
def gh (h : Fin 48 → EReal) (j : Fin 144) : EReal := ∑ k : Fin 48, h k * P.U (ix2 k j)

/-- The three runs of 48 columns: update, reset, candidate. -/
def colZ (j : Fin 48) : Fin 144 := ⟨j.val, by omega⟩
def colR (j : Fin 48) : Fin 144 := ⟨j.val + 48, by omega⟩
def colH (j : Fin 48) : Fin 144 := ⟨j.val + 96, by omega⟩

/-- The update gate. -/
def upd (h : Fin 48 → EReal) (x : Fin 64 → EReal) (j : Fin 48) : EReal :=
  Ideal.logistic (gx P x (colZ j) + gh P h (colZ j))
/-- The reset gate. -/
def rst (h : Fin 48 → EReal) (x : Fin 64 → EReal) (j : Fin 48) : EReal :=
  Ideal.logistic (gx P x (colR j) + gh P h (colR j))
/-- The candidate state. -/
def cand (h : Fin 48 → EReal) (x : Fin 64 → EReal) (j : Fin 48) : EReal :=
  Ideal.tanh (gx P x (colH j) + rst P h x j * gh P h (colH j))
/-- The new hidden state. -/
def hnew (h : Fin 48 → EReal) (x : Fin 64 → EReal) (j : Fin 48) : EReal :=
  upd P h x j * h j + (one32 - upd P h x j) * cand P h x j
/-- The head's hidden layer: relu of an affine map of the new state. -/
def hidden (h : Fin 48 → EReal) (x : Fin 64 → EReal) (k : Fin 24) : EReal :=
  max ((∑ i : Fin 48, hnew P h x i * P.dw1 (ix2 i k)) + P.db1 (ix1 k)) zero32
/-- The head's score. -/
def score (h : Fin 48 → EReal) (x : Fin 64 → EReal) : EReal :=
  Ideal.logistic ((∑ k : Fin 24, hidden P h x k * P.dw2 (ix2 k 0)) + P.db2 (ix1 0))

/-! ## The batch -/

variable (ids : (⟨1, ![1000000]⟩ : Shape).Idx → BitVec 32) (X : Mat 1000000 64) (S : Mat 1000 48)

/-- Row t's slot in the bank (total: read modulo 1000; on the domain 0 ≤ id < 1000 it is the id). -/
def slot (t : Fin 1000000) : Fin 1000 := ⟨(ids (ix1 t)).toNat % 1000, Nat.mod_lt _ (by norm_num)⟩
/-- Every id is a slot number. -/
def InRange : Prop := ∀ t : Fin 1000000, (ids (ix1 t)).toNat < 1000
/-- Every entry is a real number. -/
def Finite {s : Shape} (A : s.Idx → EReal) : Prop := ∀ i, ∃ r : ℝ, A i = (r : EReal)

/-- Row t's hidden state: the bank's row at its slot. -/
def stateRow (t : Fin 1000000) : Fin 48 → EReal := fun k => S (ix2 (slot ids t) k)
/-- Row t's features. -/
def featRow (t : Fin 1000000) : Fin 64 → EReal := fun k => X (ix2 t k)
/-- Row t's new state. -/
def H (t : Fin 1000000) (j : Fin 48) : EReal := hnew P (stateRow ids S t) (featRow X t) j
/-- The scores, one per row. -/
def outArr : Mat 1000000 1 := fun i => score P (stateRow ids S (i 0)) (featRow X (i 0))

/-- The updated bank: slot k holds the new state of the last row carrying k, else its old row. -/
def newState : Mat 1000 48 := fun i =>
  match lastOcc (slot ids) (i 0) with
  | some t => H P ids X S t (i 1)
  | none => S i

/-! ## The same update, accumulated tile by tile

Rows are cut in 500 tiles of 2000; a row weighs 1 on slot k when it carries k and is the last row that does,
else 0. A tile's contribution to slot k is the weighted sum of its rows' new states; each of two halves of the
batch (250 tiles each) adds its tiles' contributions up, in order, from zero. -/

/-- A row number read modulo the batch size (total; rows below the batch size are themselves). -/
def row (n : Nat) : Fin 1000000 := ⟨n % 1000000, Nat.mod_lt _ (by norm_num)⟩
/-- Row t is the last row carrying its slot. -/
def IsLast (t : Fin 1000000) : Prop := lastOcc (slot ids) (slot ids t) = some t
instance (t : Fin 1000000) : Decidable (IsLast ids t) := by unfold IsLast; infer_instance
/-- Row t's weight on slot k. -/
def wgt (t : Fin 1000000) (k : Fin 1000) : EReal := if slot ids t = k ∧ IsLast ids t then 1 else 0
/-- Tile number tile's contribution to entry (k, j) of the bank. -/
def contrib (tile : Nat) (k : Fin 1000) (j : Fin 48) : EReal :=
  ∑ r : Fin 2000, wgt ids (row (2000 * tile + r.val)) k * H P ids X S (row (2000 * tile + r.val)) j
/-- Some row of the tile is a last row. -/
def TileHasLast (tile : Nat) : Prop := ∃ r : Fin 2000, IsLast ids (row (2000 * tile + r.val))
instance (tile : Nat) : Decidable (TileHasLast ids tile) := by unfold TileHasLast; infer_instance
/-- Half c's running sum after its first n tiles. -/
def acc (c n : Nat) (k : Fin 1000) (j : Fin 48) : EReal := ∑ s ∈ Finset.range n, contrib P ids X S (250 * c + s) k j

end Cert.Gru

end
-- ==== Proof.PreFacts.lean ====
/-
  What the precondition says.

  The precondition is one bit: the conjunction, over nine float arrays, of "every entry's absolute value is
  below +∞", and, over the integer array, of "every word is at least 0 and below 1000 as a signed number".
  Read at the extended reals, the bit being set gives: the bank and the recurrent weights hold real numbers,
  and every id, read as a natural number, is below 1000.
-/
import proofs.«418272_j53223234732113_3_alg».proof.Pre_finite_inputs
import proofs.«418272_j53223234732113_3_alg».proof.Proof.Gen.Pre_finite_inputs
import proofs.«418272_j53223234732113_3_alg».proof.Proof.Spec
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Gru

/-- The scalar shape has one index. -/
instance : Subsingleton (⟨0, ![]⟩ : Shape).Idx := ⟨fun a b => funext fun d => d.elim0⟩

/-- The float word 0x7F800000 denotes +∞. -/
theorem inf32 : Ideal.ofBits .f32 0x7F800000#32 = (⊤ : EReal) := by simp [Ideal.ofBits, Ideal.ieee]

/-- An extended real whose absolute value is below +∞ is a real number: +∞ and −∞ both have absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- A conjunction of two one-bit arrays, read at an index: both bits are set there. -/
theorem vandi_eq_one {s : Shape} (x y : IVec s 1) (i : s.Idx) : andi x y i = 1#1 ↔ x i = 1#1 ∧ y i = 1#1 :=
  IntOp.andi_eq_one

/-- "Every entry's absolute value is below +∞" being set gives: every entry is a real number. -/
theorem finite_of_all {s : Shape} {axes : List (Fin s.rank)} (A : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
          (cmpf .olt (Host.absf A) (broadcastInDim s ![] hb (constant (F := Ideal) ⟨0, ![]⟩ .f32 0x7F800000#32)))
          (constantI ⟨0, ![]⟩ 1 1#1) hr h0 ix0 = 1#1) :
    Cert.Gru.Finite A := by
  intro i
  -- the conjunction over all entries is set, so the bit at entry i is set
  have hi := Host.reduce_andi_all _ _ hr h0 ix0 e i
  have hlt : max (A i) (-(A i)) < (⊤ : EReal) := by
    -- the bit at i compares |A i| with the broadcast constant, which reads +∞ everywhere
    have : Ideal.cmp .olt (max (A i) (-(A i))) (Ideal.ofBits .f32 0x7F800000#32) = 1#1 := hi
    rw [inf32] at this
    simp only [Ideal.cmp, StableHlo.Predicate.ofBool_eq_one_iff, decide_eq_true_eq] at this
    exact this
  exact real_of_abs_lt_top _ hlt

/-- A 32-bit word at least 0 and below 1000, both read signed, is below 1000 read unsigned. -/
theorem toNat_lt_of_signed (w : BitVec 32) (h0 : IntOp.cmpi .sge w 0#32 = 1#1) (h1 : IntOp.cmpi .slt w 1000#32 = 1#1) :
    w.toNat < 1000 := by
  rw [IntOp.cmpi_sge] at h0
  rw [IntOp.cmpi_slt] at h1
  have e := BitVec.toInt_eq_toNat_cond w
  have hw := w.isLt
  have z : (0#32 : BitVec 32).toInt = 0 := by decide
  have k : (1000#32 : BitVec 32).toInt = 1000 := by decide
  rw [z] at h0
  rw [k] at h1
  split at e <;> omega

/-- "Every word is at least 0 and below 1000, signed" being set gives: every word, read unsigned, is below 1000. -/
theorem range_of_all {s : Shape} {axes : List (Fin s.rank)} (ids : IVec s 32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
          (andi (cmpi .sge ids (broadcastInDim s ![] hb (constantI ⟨0, ![]⟩ 32 0#32)))
                (cmpi .slt ids (broadcastInDim s ![] hb (constantI ⟨0, ![]⟩ 32 1000#32))))
          (constantI ⟨0, ![]⟩ 1 1#1) hr h0 ix0 = 1#1) :
    ∀ i, (ids i).toNat < 1000 := by
  intro i
  have hi := Host.reduce_andi_all _ _ hr h0 ix0 e i
  rw [vandi_eq_one] at hi
  exact toNat_lt_of_signed (ids i) hi.1 hi.2

/-- The precondition's bit set: ids in range, the bank finite, the recurrent weights finite. -/
theorem of_pre [Cert.Pre_finite_inputs.Facts]
    (a0 : IVec Cert.Pre_finite_inputs.S1000000 32) (a1 : FVec Ideal Cert.Pre_finite_inputs.S1000000x64 .f32)
    (a2 : FVec Ideal Cert.Pre_finite_inputs.S1000x48 .f32) (a3 : FVec Ideal Cert.Pre_finite_inputs.S64x144 .f32)
    (a4 : FVec Ideal Cert.Pre_finite_inputs.S48x144 .f32) (a5 : FVec Ideal Cert.Pre_finite_inputs.S144 .f32)
    (a6 : FVec Ideal Cert.Pre_finite_inputs.S48x24 .f32) (a7 : FVec Ideal Cert.Pre_finite_inputs.S24 .f32)
    (a8 : FVec Ideal Cert.Pre_finite_inputs.S24x1 .f32) (a9 : FVec Ideal Cert.Pre_finite_inputs.S1 .f32)
    (h : Cert.Pre_finite_inputs.fn (F := Ideal) a0 a1 a2 a3 a4 a5 a6 a7 a8 a9 = fun _ => 1#1) :
    InRange a0 ∧ Finite a2 ∧ Finite a4 := by
  -- the one bit, read at the scalar shape's index, is a nine-fold conjunction of ten "all entries" bits
  have e := congrFun h ix0
  dsimp only [Cert.Pre_finite_inputs.fn, Cert.Pre_finite_inputs.fn_part1, Cert.Pre_finite_inputs.fn_part2] at e
  simp only [vandi_eq_one] at e
  obtain ⟨⟨⟨⟨⟨⟨⟨⟨⟨-, h2⟩, -⟩, h4⟩, -⟩, -⟩, -⟩, -⟩, -⟩, h0⟩ := e
  exact ⟨fun t => range_of_all a0 _ _ _ h0 (ix1 t), finite_of_all a2 _ _ _ h2, finite_of_all a4 _ _ _ h4⟩

end Cert.PreFacts

end
-- ==== Proof.KPieces.lean ====
/-
  What one grid point leaves in its buffers, case by case.

  The body has three conditionals: "first tile of this half" (zero the accumulator), "this tile holds a last row"
  (add the tile's contribution into the accumulator), "last tile of this half" (copy the accumulator into the second
  output's block). Whatever the case, the first output's block receives the block of scores computed from the
  point's input blocks. The accumulator ends at: zero plus the contribution (first tile, flagged); zero (first tile,
  not flagged); what the point before left plus the contribution (later tile, flagged); what the point before left
  (later tile, not flagged). At a last tile the second output's block is the accumulator just computed, with a unit
  axis in front.
-/
import proofs.«418272_j53223234732113_3_alg».proof.Proof.Gen.KernelIdeal.Frame
import Idealize.ShloMosaic.Lib.Pipeline.Value
import Idealize.ShloMosaic.Lib.Tactic

set_option maxRecDepth 16384

noncomputable section

namespace Cert.KPieces

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S2000x1 .i32) (harg3 : arg3.IsWhole) (arg4 : Memref sig .tc .vmem S2000x64 .bf16) (harg4 : arg4.IsWhole)
  (arg5 : Memref sig .tc .vmem S2000x1 .f32) (harg5 : arg5.IsWhole) (arg6 : Memref sig .tc .vmem S1000x192 .bf16) (harg6 : arg6.IsWhole)
  (arg7 : Memref sig .tc .vmem S1000x192 .bf16) (harg7 : arg7.IsWhole) (arg8 : Memref sig .tc .vmem S64x144 .bf16) (harg8 : arg8.IsWhole)
  (arg9 : Memref sig .tc .vmem S144 .f32) (harg9 : arg9.IsWhole) (arg10 : Memref sig .tc .vmem S48x24 .bf16) (harg10 : arg10.IsWhole)
  (arg11 : Memref sig .tc .vmem S24 .f32) (harg11 : arg11.IsWhole) (arg12 : Memref sig .tc .vmem S24x1 .bf16) (harg12 : arg12.IsWhole)
  (arg13 : Memref sig .tc .vmem S1 .f32) (harg13 : arg13.IsWhole) (arg14 : Memref sig .tc .vmem S2000x1 .f32) (harg14 : arg14.IsWhole)
  (arg15 : Memref sig .tc .vmem S1x1000x48 .f32) (harg15 : arg15.IsWhole) (arg16 : Memref sig .tc .vmem S1000x48 .f32) (harg16 : arg16.IsWhole)
  (x0 : Vec F S2000x1 .i32) (x1 : Vec F S2000x64 .bf16) (x2 : Vec F S2000x1 .f32) (x3 : Vec F S1000x192 .bf16) (x4 : Vec F S1000x192 .bf16)
  (x5 : Vec F S64x144 .bf16) (x6 : Vec F S144 .f32) (x7 : Vec F S48x24 .bf16) (x8 : Vec F S24 .f32) (x9 : Vec F S24x1 .bf16) (x10 : Vec F S1 .f32)
  (xt0 : TbBuf0 (F := F) c tbM0_0) (xs0 : Vec F S1000x48 .f32)

/-- The flag word the body reads for this point. -/
abbrev flagWord : BitVec 32 := (tbM0_0.view.readAt (Elt F) (Rect.unit (s := S500) (k0_off1 i) S1.size (k0_off1_inb i)).toLoadRect xt0 (Shape.Idx.first (numel1_S1.symm ▸ Nat.one_pos)))

/-- The block of scores, as a function of the point's input blocks. -/
abbrev outP : FVec F S2000x1 .f32 :=
  k0_pay3 (k0_pay9 x0 x3 x4) (k0_pay12 x1 x5 x6) (k0_pay13 x1 x5 x6) (k0_pay14 x0 x3 x4) (k0_pay15 x0 x3 x4)
    (k0_pay16 x0 x3 x4 x1 x5 x6) x7 x8 x9 x10
/-- The accumulator after a flagged tile, over the accumulator before it. -/
abbrev accP (prev : Vec F S1000x48 .f32) : FVec F S1000x48 .f32 :=
  k0_pay4 (k0_pay7 x0) (k0_pay9 x0 x3 x4) (k0_pay12 x1 x5 x6) (k0_pay13 x1 x5 x6) (k0_pay14 x0 x3 x4) (k0_pay15 x0 x3 x4)
    (k0_pay16 x0 x3 x4 x1 x5 x6) x2 prev

/-! ## The scores' block: the same in every case -/

theorem out_A (hc0 : cond0_0 i) (hc2 : ¬cond0_2 i) (hc1 : cond0_1 i (flagWord c i xt0)) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1 = outP x0 x1 x3 x4 x5 x6 x7 x8 x9 x10 := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem out_B (hc0 : cond0_0 i) (hc2 : ¬cond0_2 i) (hc1 : ¬cond0_1 i (flagWord c i xt0)) :
    out0_B_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1 = outP x0 x1 x3 x4 x5 x6 x7 x8 x9 x10 := by
  unfold out0_B_11
  rw [View.read_writes_eq_canon _ _ _ (cover0_B_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem out_C (hc0 : ¬cond0_0 i) (hc2 : ¬cond0_2 i) (hc1 : cond0_1 i (flagWord c i xt0)) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = outP x0 x1 x3 x4 x5 x6 x7 x8 x9 x10 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem out_D (hc0 : ¬cond0_0 i) (hc2 : ¬cond0_2 i) (hc1 : ¬cond0_1 i (flagWord c i xt0)) :
    out0_D_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = outP x0 x1 x3 x4 x5 x6 x7 x8 x9 x10 := by
  unfold out0_D_11
  rw [View.read_writes_eq_canon _ _ _ (cover0_D_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_D
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem out_E (hc0 : ¬cond0_0 i) (hc2 : cond0_2 i) (hc1 : cond0_1 i (flagWord c i xt0)) :
    out0_E_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = outP x0 x1 x3 x4 x5 x6 x7 x8 x9 x10 := by
  unfold out0_E_11
  rw [View.read_writes_eq_canon _ _ _ (cover0_E_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_E
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem out_F (hc0 : ¬cond0_0 i) (hc2 : cond0_2 i) (hc1 : ¬cond0_1 i (flagWord c i xt0)) :
    out0_F_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = outP x0 x1 x3 x4 x5 x6 x7 x8 x9 x10 := by
  unfold out0_F_11
  rw [View.read_writes_eq_canon _ _ _ (cover0_F_11 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_F
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

/-! ## The accumulator -/

theorem sc_A (hc0 : cond0_0 i) (hc2 : ¬cond0_2 i) (hc1 : cond0_1 i (flagWord c i xt0)) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1 = accP x0 x1 x2 x3 x4 x5 x6 (k0_pay6 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1)]
  unfold kernelRun0_A
  dsimp only
  sl_unfold_words
  rw [View.canon_cons_unit_zero (S := S1000x48) hz2, View.readCov_unit_zero (S := S1000x48) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem sc_B (hc0 : cond0_0 i) (hc2 : ¬cond0_2 i) (hc1 : ¬cond0_1 i (flagWord c i xt0)) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1 = k0_pay6 (F := F) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 hc1)]
  unfold kernelRun0_B
  dsimp only
  sl_unfold_words
  rw [View.canon_unit_zero hz2]

theorem sc_C (hc0 : ¬cond0_0 i) (hc2 : ¬cond0_2 i) (hc1 : cond0_1 i (flagWord c i xt0)) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = accP x0 x1 x2 x3 x4 x5 x6 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem sc_E (hc0 : ¬cond0_0 i) (hc2 : cond0_2 i) (hc1 : cond0_1 i (flagWord c i xt0)) :
    sout0_E_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = accP x0 x1 x2 x3 x4 x5 x6 xs0 := by
  unfold sout0_E_0
  rw [View.read_writes_eq_canon _ _ _ (scover0_E_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_E
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem sc_D (hc0 : ¬cond0_0 i) (hc2 : ¬cond0_2 i) (hc1 : ¬cond0_1 i (flagWord c i xt0)) :
    sout0_D_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = xs0 := rfl

theorem sc_F (hc0 : ¬cond0_0 i) (hc2 : cond0_2 i) (hc1 : ¬cond0_1 i (flagWord c i xt0)) :
    sout0_F_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = xs0 := rfl

/-! ## The second output's block at a last tile -/

theorem o12_E (hc0 : ¬cond0_0 i) (hc2 : cond0_2 i) (hc1 : cond0_1 i (flagWord c i xt0)) :
    out0_E_12 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = k0_pay5 (accP x0 x1 x2 x3 x4 x5 x6 xs0) := by
  unfold out0_E_12
  rw [View.read_writes_eq_canon _ _ _ (cover0_E_12 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_E
  dsimp only
  sl_unfold_words
  rw [View.canon_unit_zero hz3]
  simp only [View.readCov_unit_zero (S := S1000x48) _ hz2, View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

theorem o12_F (hc0 : ¬cond0_0 i) (hc2 : cond0_2 i) (hc1 : ¬cond0_1 i (flagWord c i xt0)) :
    out0_F_12 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1 = k0_pay5 xs0 := by
  unfold out0_F_12
  rw [View.read_writes_eq_canon _ _ _ (cover0_F_12 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 x10 xt0 xs0 hc1)]
  unfold kernelRun0_F
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, harg13.read_unread, harg16.read_unread, View.ld_unit_zero (S := S2000x1) hz2, View.ld_unit_zero (S := S2000x64) hz2, View.ld_unit_zero (S := S1000x192) hz2, View.ld_unit_zero (S := S64x144) hz2, View.ld_unit_zero (S := S144) hz1, View.ld_unit_zero (S := S48x24) hz2, View.ld_unit_zero (S := S24) hz1, View.ld_unit_zero (S := S24x1) hz2, View.ld_unit_zero (S := S1) hz1, View.ld_unit_zero (S := S1000x48) hz2]

end Cert.KPieces

end
-- ==== Proof.KernelBlocks.lean ====
/-
  The windows' blocks, read at an index.

  The grid has 500 points, point t at coordinates (t / 250, t % 250). Windows 0, 1, 2 cut their arrays in
  blocks of 2000 rows and fetch block number 250 · (t / 250) + t % 250 = t at point t, so row r of the block
  is row 2000 · t + r of the array. Windows 3 to 10 fetch their whole arrays at every point. The word the
  body reads from the table of flags at point t is entry t. The body's branch on that word is taken
  exactly when the word is not zero.
-/
import proofs.«418272_j53223234732113_3_alg».proof.Proof.Gen.KernelIdeal.Frame.Runs
import Idealize.ShloMosaic.Lib.Pipeline.Value
import Idealize.ShloMosaic.Lib.ValueIdx

noncomputable section

namespace Cert.KernelBlocks

open Idealize.ShloMosaic Idealize.ShloMosaic.TcCoe Idealize.SL.Sem
open Cert.KernelIdeal Cert.KernelIdeal.Gen Idealize.ShloMosaic.ValueIdx

variable {F : FTy → Type} [FloatOps F]
variable (m : (ℓ : Loc nD τ sig) → Buf (Elt F) ℓ)

/-- Window 0's block number at point t is (t, 0). -/
theorem index0 : ∀ t : Fin grid0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)

/-- Row r of window 0's block at point t is row 2000 · t + r of its array. -/
theorem iblk0_apply (hO : Ok m) (c : Dev nD) (t : Fin (cfgM m hO).N) (r : Fin 2000) :
    (iblk m hO c 0 t : Vec F S2000x1 .i32) (ix2 r 0)
      = (V m c main_v23 : Vec F S1000000x1 .i32)
          (ix2 ⟨2000 * t.val + r.val, by have := t.isLt; have : (cfgM m hO).N = 500 := N_0; omega⟩ 0) := by
  have hi := index0 t
  unfold iblk
  show V m c main_v23 _ = V m c main_v23 _
  congr 1
  funext a
  apply Fin.ext
  match a with
  | ⟨0, _⟩ =>
    show cc0_transform_0 (grid0.coords t) 0 * 2000 + 1 * r.val = 2000 * t.val + r.val
    rw [hi.1]; omega
  | ⟨1, _⟩ =>
    show cc0_transform_0 (grid0.coords t) 1 * 1 + 1 * 0 = 0
    rw [hi.2]

/-- Window 1's block number at point t is (t, 0). -/
theorem index1 : ∀ t : Fin grid0.N, cc0_transform_1 (grid0.coords t) 0 = t.val ∧ cc0_transform_1 (grid0.coords t) 1 = 0 :=
  (by decide +kernel : ∀ t : Fin grid0.N, cc0_transform_1 (grid0.coords t) 0 = t.val ∧ cc0_transform_1 (grid0.coords t) 1 = 0)

/-- Entry (r, q) of window 1's block at point t is entry (2000 · t + r, q) of its array. -/
theorem iblk1_apply (hO : Ok m) (c : Dev nD) (t : Fin (cfgM m hO).N) (r : Fin 2000) (q : Fin 64) :
    (iblk m hO c 1 t : Vec F S2000x64 .bf16) (ix2 r q)
      = (V m c main_v25 : Vec F S1000000x64 .bf16)
          (ix2 ⟨2000 * t.val + r.val, by have := t.isLt; have : (cfgM m hO).N = 500 := N_0; omega⟩ q) := by
  have hi := index1 t
  unfold iblk
  show V m c main_v25 _ = V m c main_v25 _
  congr 1
  funext a
  apply Fin.ext
  match a with
  | ⟨0, _⟩ =>
    show cc0_transform_1 (grid0.coords t) 0 * 2000 + 1 * r.val = 2000 * t.val + r.val
    rw [hi.1]; omega
  | ⟨1, _⟩ =>
    show cc0_transform_1 (grid0.coords t) 1 * 64 + 1 * q.val = q.val
    rw [hi.2]; omega

/-- Window 2's block number at point t is (t, 0). -/
theorem index2 : ∀ t : Fin grid0.N, cc0_transform_2 (grid0.coords t) 0 = t.val ∧ cc0_transform_2 (grid0.coords t) 1 = 0 :=
  (by decide +kernel : ∀ t : Fin grid0.N, cc0_transform_2 (grid0.coords t) 0 = t.val ∧ cc0_transform_2 (grid0.coords t) 1 = 0)

/-- Row r of window 2's block at point t is row 2000 · t + r of its array. -/
theorem iblk2_apply (hO : Ok m) (c : Dev nD) (t : Fin (cfgM m hO).N) (r : Fin 2000) :
    (iblk m hO c 2 t : Vec F S2000x1 .f32) (ix2 r 0)
      = (V m c main_v24 : Vec F S1000000x1 .f32)
          (ix2 ⟨2000 * t.val + r.val, by have := t.isLt; have : (cfgM m hO).N = 500 := N_0; omega⟩ 0) := by
  have hi := index2 t
  unfold iblk
  show V m c main_v24 _ = V m c main_v24 _
  congr 1
  funext a
  apply Fin.ext
  match a with
  | ⟨0, _⟩ =>
    show cc0_transform_2 (grid0.coords t) 0 * 2000 + 1 * r.val = 2000 * t.val + r.val
    rw [hi.1]; omega
  | ⟨1, _⟩ =>
    show cc0_transform_2 (grid0.coords t) 1 * 1 + 1 * 0 = 0
    rw [hi.2]

/-- Window 3's block at every point is its whole array. -/
theorem iblk3_eq (hO : Ok m) (c : Dev nD) (t : Fin (cfgM m hO).N) :
    (iblk m hO c 3 t : Vec F S1000x192 .bf16) = V m c main_v34 := by
  refine funext fun (j : S1000x192.Idx) => ?_
  unfold iblk
  show V m c main_v34 _ = V m c main_v34 j
  congr 1
  funext a
  apply Fin.ext
  match a with
  | ⟨0, _⟩ => show 0 * 1000 + 1 * (j 0).val = (j 0).val; omega
  | ⟨1, _⟩ => show 0 * 192 + 1 * (j 1).val = (j 1).val; omega

/-- Window 4's block at every point is its whole array. -/
theorem iblk4_eq (hO : Ok m) (c : Dev nD) (t : Fin (cfgM m hO).N) :
    (iblk m hO c 4 t : Vec F S1000x192 .bf16) = V m c main_v37 := by
  refine funext fun (j : S1000x192.Idx) => ?_
  unfold iblk
  show V m c main_v37 _ = V m c main_v37 j
  congr 1
  funext a
  apply Fin.ext
  match a with
  | ⟨0, _⟩ => show 0 * 1000 + 1 * (j 0).val = (j 0).val; omega
  | ⟨1, _⟩ => show 0 * 192 + 1 * (j 1).val = (j 1).val; omega

/-- Window 5's block at every point is its whole array. -/
theorem iblk5_eq (hO : Ok m) (c : Dev nD) (t : Fin (cfgM m hO).N) :
    (iblk m hO c 5 t : Vec F S64x144 .bf16) = V m c main_v38 := by
  refine funext fun (j : S64x144.Idx) => ?_
  unfold iblk
  show V m c main_v38 _ = V m c main_v38 j
  congr 1
  funext a
  apply Fin.ext
  match a with
  | ⟨0, _⟩ => show 0 * 64 + 1 * (j 0).val = (j 0).val; omega
  | ⟨1, _⟩ => show 0 * 144 + 1 * (j 1).val = (j 1).val; omega

/-- Window 6's block at every point is its whole array. -/
theorem iblk6_eq (hO : Ok m) (c : Dev nD) (t : Fin (cfgM m hO).N) :
    (iblk m hO c 6 t : Vec F S144 .f32) = V m c main_arg5 := by
  refine funext fun (j : S144.Idx) => ?_
  unfold iblk
  show V m c main_arg5 _ = V m c main_arg5 j
  congr 1
  funext a
  apply Fin.ext
  match a with
  | ⟨0, _⟩ => show 0 * 144 + 1 * (j 0).val = (j 0).val; omega

/-- Window 7's block at every point is its whole array. -/
theorem iblk7_eq (hO : Ok m) (c : Dev nD) (t : Fin (cfgM m hO).N) :
    (iblk m hO c 7 t : Vec F S48x24 .bf16) = V m c main_v39 := by
  refine funext fun (j : S48x24.Idx) => ?_
  unfold iblk
  show V m c main_v39 _ = V m c main_v39 j
  congr 1
  funext a
  apply Fin.ext
  match a with
  | ⟨0, _⟩ => show 0 * 48 + 1 * (j 0).val = (j 0).val; omega
  | ⟨1, _⟩ => show 0 * 24 + 1 * (j 1).val = (j 1).val; omega

/-- Window 8's block at every point is its whole array. -/
theorem iblk8_eq (hO : Ok m) (c : Dev nD) (t : Fin (cfgM m hO).N) :
    (iblk m hO c 8 t : Vec F S24 .f32) = V m c main_arg7 := by
  refine funext fun (j : S24.Idx) => ?_
  unfold iblk
  show V m c main_arg7 _ = V m c main_arg7 j
  congr 1
  funext a
  apply Fin.ext
  match a with
  | ⟨0, _⟩ => show 0 * 24 + 1 * (j 0).val = (j 0).val; omega

/-- Window 9's block at every point is its whole array. -/
theorem iblk9_eq (hO : Ok m) (c : Dev nD) (t : Fin (cfgM m hO).N) :
    (iblk m hO c 9 t : Vec F S24x1 .bf16) = V m c main_v40 := by
  refine funext fun (j : S24x1.Idx) => ?_
  unfold iblk
  show V m c main_v40 _ = V m c main_v40 j
  congr 1
  funext a
  apply Fin.ext
  match a with
  | ⟨0, _⟩ => show 0 * 24 + 1 * (j 0).val = (j 0).val; omega
  | ⟨1, _⟩ => show 0 * 1 + 1 * (j 1).val = (j 1).val; omega

/-- Window 10's block at every point is its whole array. -/
theorem iblk10_eq (hO : Ok m) (c : Dev nD) (t : Fin (cfgM m hO).N) :
    (iblk m hO c 10 t : Vec F S1 .f32) = V m c main_arg9 := by
  refine funext fun (j : S1.Idx) => ?_
  unfold iblk
  show V m c main_arg9 _ = V m c main_arg9 j
  congr 1
  funext a
  apply Fin.ext
  match a with
  | ⟨0, _⟩ => show 0 * 1 + 1 * (j 0).val = (j 0).val; omega

/-- The offset at which the body reads the table of flags at point t is t. -/
theorem flagOff : ∀ t : Fin grid0.N, k0_off1 (grid0.coords t) 0 = t.val :=
  (by decide +kernel : ∀ t : Fin grid0.N, k0_off1 (grid0.coords t) 0 = t.val)

/-- The word the body reads from the table of flags at point t is the table's entry t. -/
theorem flagWord_eq (c : Dev nD) (t : Fin grid0.N) :
    tbM0_0.view.readAt (Elt F) (Rect.unit (s := S500) (k0_off1 (grid0.coords t)) S1.size (k0_off1_inb (grid0.coords t))).toLoadRect
        (tbl m 0) (Shape.Idx.first (numel1_S1.symm ▸ Nat.one_pos))
      = (tbl m 0 : S500.Idx → BitVec 32) (ix1 ⟨t.val, t.isLt⟩) := by
  have hk := flagOff t
  show (tbl m 0 : S500.Idx → BitVec 32) _ = (tbl m 0 : S500.Idx → BitVec 32) _
  congr 1
  funext a
  apply Fin.ext
  match a with
  | ⟨0, _⟩ =>
    have h1 : 0 < S1.numel := numel1_S1.symm ▸ Nat.one_pos
    have hz : (Shape.Idx.first h1 (0 : Fin 1)).val = 0 := by
      have := (Shape.Idx.first h1 (0 : Fin 1)).isLt
      have e : S1.size (0 : Fin 1) = 1 := by decide
      omega
    show k0_off1 (grid0.coords t) 0 + 1 * (Shape.Idx.first h1 (0 : Fin 1)).val = t.val
    rw [hk, hz]; omega

/-- A one-bit word widened to 32 bits is not zero exactly when the bit is set. -/
theorem extui_ne_zero (b : BitVec 1) : Scalar.cmpi .ne (Scalar.extui b) 0#32 = 1#1 ↔ b = 1#1 := by
  revert b; decide

/-- The body's branch on the flag word is taken exactly when the word is not zero. -/
theorem cond0_1_iff (i : grid0.Coords) (w : BitVec 32) : cond0_1 i w ↔ w ≠ 0#32 := by
  show Scalar.cmpi .ne (Scalar.extui (Scalar.cmpi .ne w 0#32)) 0#32 = 1#1 ↔ w ≠ 0#32
  rw [extui_ne_zero]
  exact IntOp.cmpi_ne

end Cert.KernelBlocks

end
-- ==== Proof.SpecFacts.lean ====
/-
  Small facts about the specification's numbers.

  The float word 0x3F800000 denotes 1 and 0x00000000 denotes 0. The logistic function is 1 / (1 + e^(−x)) at every
  extended real, so the spelled-out quotient with the word for 1 is the logistic function. The logistic function
  and tanh take real values at every extended real (0, 1, −1 at the infinities), so the new hidden state
  z·h + (1 − z)·candidate is a real number as soon as h is; and a real number minus itself is zero. A finite sum of
  products of real numbers is a real number.
-/
import proofs.«418272_j53223234732113_3_alg».proof.Proof.Spec

noncomputable section

open scoped BigOperators

namespace Cert.Gru

open Idealize.ShloMosaic Idealize.ShloMosaic.ValueIdx

theorem one32_eq : one32 = 1 := by
  simp [one32, Ideal.ofBits, Ideal.ieee, -EReal.coe_mul]
  norm_num

theorem zero32_eq : zero32 = 0 := by
  simp [zero32, Ideal.ofBits, Ideal.ieee]

/-- The quotient 1 / (1 + e^(−x)), spelled with the word for 1, is the logistic function. -/
theorem div_one_add_exp_neg (x : EReal) : Ideal.div one32 (one32 + Ideal.exp (-x)) = Ideal.logistic x := by
  rw [one32_eq]
  rfl

/-- The logistic function takes real values everywhere. -/
theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- tanh takes real values everywhere. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- A real number minus itself is zero. -/
theorem sub_self_of_real {x : EReal} (h : ∃ r : ℝ, x = (r : EReal)) : x - x = 0 := by
  obtain ⟨r, rfl⟩ := h
  rw [← EReal.coe_sub, sub_self, EReal.coe_zero]

/-- A finite sum of products of real numbers is a real number. -/
theorem sum_mul_real {ι : Type} [Fintype ι] (a b : ι → EReal) (ha : ∀ i, ∃ r : ℝ, a i = (r : EReal))
    (hb : ∀ i, ∃ r : ℝ, b i = (r : EReal)) : ∃ r : ℝ, ∑ i, a i * b i = (r : EReal) := by
  classical
  choose f hf using ha
  choose g hg using hb
  refine ⟨∑ i, f i * g i, ?_⟩
  have key : ∀ s : Finset ι, ∑ i ∈ s, a i * b i = ((∑ i ∈ s, f i * g i : ℝ) : EReal) := by
    intro s
    induction s using Finset.induction_on with
    | empty => simp
    | insert i s hi ih =>
      rw [Finset.sum_insert hi, Finset.sum_insert hi, ih, hf i, hg i, EReal.coe_add, EReal.coe_mul]
  exact key Finset.univ

/-- The new hidden state is a real number as soon as the old one is. -/
theorem hnew_real (P : Params) (h : Fin 48 → EReal) (x : Fin 64 → EReal) (hh : ∀ k, ∃ r : ℝ, h k = (r : EReal))
    (j : Fin 48) : ∃ r : ℝ, hnew P h x j = (r : EReal) := by
  unfold hnew upd cand
  obtain ⟨z, hz⟩ := logistic_real (gx P x (colZ j) + gh P h (colZ j))
  obtain ⟨c, hc⟩ := tanh_real (gx P x (colH j) + rst P h x j * gh P h (colH j))
  obtain ⟨v, hv⟩ := hh j
  rw [hz, hc, hv, one32_eq]
  refine ⟨z * v + (1 - z) * c, ?_⟩
  rw [EReal.coe_add, EReal.coe_mul, EReal.coe_mul, EReal.coe_sub, EReal.coe_one]

end Cert.Gru

end
-- ==== Proof.LibRows.lean ====
/-
  Row gathers and row scatters of the host program, read at an index.

  A table of K rows is indexed by a column of N integer words (an N×1 array). On the domain where every word,
  read as a natural number, is below K:
  · gathering rows by those words gives, at (t, j), the table's entry (word t, j);
  · scattering N update rows into the table with "the update replaces the entry", updates taken in row-major
    order, leaves at (k, j) the update row of the LAST t whose word is k, and the old entry when no word is k;
  · scattering the row numbers 0 … N−1 into a vector of −1 with "keep the signed maximum" leaves at k the number
    of the last t whose word is k, and −1 when there is none.
  The extents are variables; nothing here depends on a program.
-/
import Idealize.ShloMosaic.PureOps.ShapeOps
import Idealize.ShloMosaic.PureOps.Values
import Idealize.ShloMosaic.Lib.ValueIdx
import proofs.«418272_j53223234732113_3_alg».proof.Proof.LibLast

noncomputable section

namespace Cert.LibRows

open Idealize.ShloMosaic Idealize.ShloMosaic.ValueIdx Cert.LibLast

variable {N K C : Nat}

/-- Row t's slot: its index word read as a natural number, modulo the number of rows of the table (on the domain
    the reduction does nothing). -/
def slotOf (hK : 0 < K) (idx : IVec (⟨2, ![N, 1]⟩ : Shape) 32) (t : Fin N) : Fin K :=
  ⟨(idx (ix2 t 0)).toNat % K, Nat.mod_lt _ hK⟩

/-- A scatter read at one entry: only the updates landing on that entry matter, taken in row-major order. -/
theorem scatter_apply {α : Type} {w : Nat} {s si u : Shape} (d : ScatterDims s si u) (f : α → α → α)
    (x : s.Idx → α) (idx : IVec si w) (upd : u.Idx → α) (i' : s.Idx) :
    Host.scatter d f x idx upd i'
      = (List.finRange u.numel).foldl (fun a n =>
          if d.resultIdx? (u.rowMajor.symm n) idx = some i' then f a (upd (u.rowMajor.symm n)) else a) (x i') := by
  unfold Host.scatter
  generalize List.finRange u.numel = ns
  induction ns generalizing x with
  | nil => rfl
  | cons n ns ih =>
    rw [List.foldl_cons, List.foldl_cons, ih]
    congr 1
    cases hg : d.resultIdx? (u.rowMajor.symm n) idx with
    | none => simp
    | some i =>
      by_cases h : i' = i
      · subst h; simp
      · have h' : ¬ (some i = some i') := fun e => h (Option.some.inj e).symm
        simp [h, h']
/-- Updating along a strictly increasing list of positions, where an update at a later hit absorbs whatever the
    earlier hits (or the start) left: the result is the update of the LATEST hit, or the start when nothing hits. -/
theorem foldl_upd_eq_latest {M : Nat} {κ β : Type} [DecidableEq κ] (g : Fin M → κ) (k : κ) (v : Fin M → β)
    (f : β → β → β) (a0 : β)
    (h0 : ∀ n, g n = k → f a0 (v n) = v n)
    (h1 : ∀ n' n, n' < n → g n' = k → g n = k → f (v n') (v n) = v n)
    (l : List (Fin M)) (hl : l.Pairwise (· < ·)) :
    l.foldl (fun a n => if g n = k then f a (v n) else a) a0
      = match l.foldl (fun o n => if g n = k then some n else o) none with
        | some m => v m
        | none => a0 := by
  induction l using List.reverseRecOn with
  | nil => rfl
  | append_singleton xs y ih =>
    rw [List.pairwise_append] at hl
    obtain ⟨hxs, -, hlt⟩ := hl
    have hlt' : ∀ z ∈ xs, z < y := fun z hz => hlt z hz y (List.mem_singleton.mpr rfl)
    rw [List.foldl_append, List.foldl_cons, List.foldl_nil, List.foldl_append, List.foldl_cons, List.foldl_nil, ih hxs]
    by_cases hy : g y = k
    · rw [if_pos hy, if_pos hy]
      cases hm : xs.foldl (fun o n => if g n = k then some n else o) none with
      | none => exact h0 y hy
      | some m =>
        obtain ⟨hmem, hgm, -⟩ := (foldl_latest_eq_some_iff g k m xs hxs).mp hm
        exact h1 m y (hlt' m hmem) hgm hy
    · rw [if_neg hy, if_neg hy]

/-- The same over all positions 0 … M−1 in order: the update of the last hit. -/
theorem foldl_finRange_upd {M : Nat} {κ β : Type} [DecidableEq κ] (g : Fin M → κ) (k : κ) (v : Fin M → β)
    (f : β → β → β) (a0 : β)
    (h0 : ∀ n, g n = k → f a0 (v n) = v n)
    (h1 : ∀ n' n, n' < n → g n' = k → g n = k → f (v n') (v n) = v n) :
    (List.finRange M).foldl (fun a n => if g n = k then f a (v n) else a) a0
      = match lastOcc g k with
        | some m => v m
        | none => a0 := by
  rw [lastOcc_eq_lastFold]
  unfold lastFold
  exact foldl_upd_eq_latest g k v f a0 h0 h1 (List.finRange M) (List.pairwise_lt_finRange M)

/-- Where the update at (t, c) of a row scatter lands: row "word t", column c. -/
theorem resultIdx_rows
    (wf : ScatterDims.WF (⟨2, ![K, C]⟩ : Shape) (⟨2, ![N, 1]⟩ : Shape) (⟨2, ![N, C]⟩ : Shape) [1] [0] [0] 1)
    (hK : 0 < K) (hK31 : K < 2 ^ 31) (idx : IVec (⟨2, ![N, 1]⟩ : Shape) 32)
    (hin : ∀ t : Fin N, (idx (ix2 t 0)).toNat < K) (t : Fin N) (c : Fin C) :
    ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).resultIdx? (ix2 t c) idx = some (ix2 (slotOf hK idx t) c) := by
  have hsi : ∀ (cc : Fin 1), ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).siIdx (ix2 t c) cc = ix2 t 0 := by
    intro cc
    funext b
    match b with
    | ⟨0, _⟩ => rfl
    | ⟨1, _⟩ => apply Fin.ext; show cc.val = 0; omega
  have hw := hin t
  have hint : (idx (ix2 t 0)).toInt = ((idx (ix2 t 0)).toNat : Int) := BitVec.toInt_eq_toNat_of_lt (by omega)
  have hs0 : ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 0 = ((idx (ix2 t 0)).toNat : Int) := by
    unfold ScatterDims.start
    have m0 : (0 : Fin 2) ∈ [(0 : Fin 2)] := List.mem_singleton.mpr rfl
    rw [dif_pos m0, hsi, hint]
  have hs1 : ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 1 = 0 := by
    unfold ScatterDims.start
    have m1 : (1 : Fin 2) ∉ [(0 : Fin 2)] := by decide
    rw [dif_neg m1]
  have hw0 : ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 0 = 0 := by
    unfold ScatterDims.window
    have m : (0 : Fin 2) ∉ (List.finRange 2).filter (fun a => a ∉ [(0 : Fin 2)]) := by decide
    exact dif_neg m
  have hw1 : ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 1 = c.val := by
    unfold ScatterDims.window
    have m : (1 : Fin 2) ∈ (List.finRange 2).filter (fun a => a ∉ [(0 : Fin 2)]) := by decide
    exact (dif_pos m).trans rfl
  unfold ScatterDims.resultIdx?
  have hc := c.isLt
  have hall : ∀ a, 0 ≤ ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx a + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) a
      ∧ ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx a + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) a < (⟨2, ![K, C]⟩ : Shape).size a := by
    intro a
    match a with
    | ⟨0, _⟩ =>
      show 0 ≤ ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 0 + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 0
        ∧ ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 0 + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 0 < (K : Int)
      rw [hs0, hw0]; omega
    | ⟨1, _⟩ =>
      show 0 ≤ ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 1 + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 1
        ∧ ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 1 + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 1 < (C : Int)
      rw [hs1, hw1]; omega
  rw [dif_pos hall]
  congr 1
  funext a
  match a with
  | ⟨0, _⟩ =>
    apply Fin.ext
    show (({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 0 + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 0).toNat = (idx (ix2 t 0)).toNat % K
    rw [hs0, hw0, Nat.mod_eq_of_lt hw]; omega
  | ⟨1, _⟩ =>
    apply Fin.ext
    show (({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).start (ix2 t c) idx 1 + ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).window (ix2 t c) 1).toNat = c.val
    rw [hs1, hw1]; omega

/-- The last row-major position of an N×C array whose (slot of row, column) is (i₀, i₁) is the position of
    (last row with slot i₀, i₁). -/
theorem lastOcc_rows (σ : Fin N → Fin K) (i : (⟨2, ![K, C]⟩ : Shape).Idx) :
    lastOcc (fun n : Fin (⟨2, ![N, C]⟩ : Shape).numel =>
        (some (ix2 (n0 := K) (n1 := C) (σ (((⟨2, ![N, C]⟩ : Shape).rowMajor.symm n) 0)) (((⟨2, ![N, C]⟩ : Shape).rowMajor.symm n) 1)) :
          Option (⟨2, ![K, C]⟩ : Shape).Idx)) (some i)
      = (lastOcc σ (i 0)).map (fun t => (⟨2, ![N, C]⟩ : Shape).rowMajor (ix2 t (i 1))) := by
  cases h : lastOcc σ (i 0) with
  | none =>
    rw [Option.map_none, lastOcc_eq_none_iff]
    intro n hn
    have e : ix2 (n0 := K) (n1 := C) (σ (((⟨2, ![N, C]⟩ : Shape).rowMajor.symm n) 0)) (((⟨2, ![N, C]⟩ : Shape).rowMajor.symm n) 1) = i :=
      Option.some.inj hn
    exact (lastOcc_eq_none_iff σ (i 0)).mp h _ (congrFun e 0)
  | some t =>
    rw [Option.map_some, lastOcc_eq_some_iff]
    obtain ⟨ht, hmax⟩ := (lastOcc_eq_some_iff σ (i 0) t).mp h
    constructor
    · rw [Equiv.symm_apply_apply]
      show some (ix2 (σ t) (i 1)) = some i
      rw [ht]
      exact congrArg some (eq_ix2 i).symm
    · intro n hn
      have e : ix2 (n0 := K) (n1 := C) (σ (((⟨2, ![N, C]⟩ : Shape).rowMajor.symm n) 0)) (((⟨2, ![N, C]⟩ : Shape).rowMajor.symm n) 1) = i :=
        Option.some.inj hn
      have e0 : σ (((⟨2, ![N, C]⟩ : Shape).rowMajor.symm n) 0) = i 0 := congrFun e 0
      have e1 : ((⟨2, ![N, C]⟩ : Shape).rowMajor.symm n) 1 = i 1 := congrFun e 1
      have hle : ((⟨2, ![N, C]⟩ : Shape).rowMajor.symm n) 0 ≤ t := hmax _ e0
      have hn2 := Shape.rowMajor_val_two (d := ![N, C]) ((⟨2, ![N, C]⟩ : Shape).rowMajor.symm n)
      rw [Equiv.apply_symm_apply] at hn2
      have ht2 := Shape.rowMajor_val_two (d := ![N, C]) (ix2 t (i 1))
      apply Fin.le_def.mpr
      rw [hn2, ht2, e1]
      exact Nat.add_le_add_right (Nat.mul_le_mul_right _ (Fin.le_def.mp hle)) _

/-- A natural number below 2³¹, as a 32-bit word read signed, is itself. -/
theorem toInt_ofNat_small (a : Nat) (ha : a < 2 ^ 31) : (BitVec.ofNat 32 a).toInt = (a : Int) := by
  have h : (BitVec.ofNat 32 a).toNat = a := by
    rw [BitVec.toNat_ofNat]; exact Nat.mod_eq_of_lt (by omega)
  rw [BitVec.toInt_eq_toNat_of_lt (by omega), h]

/-- The signed maximum of two small naturals in increasing order is the later one. -/
theorem maxsi_ofNat_le (a b : Nat) (hab : a ≤ b) (hb : b < 2 ^ 31) :
    IntOp.maxsi (BitVec.ofNat 32 a) (BitVec.ofNat 32 b) = BitVec.ofNat 32 b := by
  unfold IntOp.maxsi
  have hs : (BitVec.ofNat 32 b).slt (BitVec.ofNat 32 a) = false := by
    rw [BitVec.slt, toInt_ofNat_small a (by omega), toInt_ofNat_small b hb]
    exact decide_eq_false (by omega)
  rw [hs]; rfl

/-- The signed maximum of −1 and a small natural is the natural. -/
theorem maxsi_neg_one (b : Nat) (hb : b < 2 ^ 31) :
    IntOp.maxsi (4294967295#32) (BitVec.ofNat 32 b) = BitVec.ofNat 32 b := by
  unfold IntOp.maxsi
  have h1 : (4294967295#32 : BitVec 32).toInt = -1 := by decide
  have hs : (BitVec.ofNat 32 b).slt (4294967295#32) = false := by
    rw [BitVec.slt, toInt_ofNat_small b hb, h1]
    exact decide_eq_false (by omega)
  rw [hs]; rfl

/-- Where the update at t of a vector scatter lands: entry "word t". -/
theorem resultIdx_vec
    (wf : ScatterDims.WF (⟨1, ![K]⟩ : Shape) (⟨2, ![N, 1]⟩ : Shape) (⟨1, ![N]⟩ : Shape) [] [0] [0] 1)
    (hK : 0 < K) (hK31 : K < 2 ^ 31) (idx : IVec (⟨2, ![N, 1]⟩ : Shape) 32)
    (hin : ∀ t : Fin N, (idx (ix2 t 0)).toNat < K) (t : Fin N) :
    ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).resultIdx? (ix1 t) idx = some (ix1 (slotOf hK idx t)) := by
  have hsi : ∀ (cc : Fin 1), ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).siIdx (ix1 t) cc = ix2 t 0 := by
    intro cc
    funext b
    match b with
    | ⟨0, _⟩ => rfl
    | ⟨1, _⟩ => apply Fin.ext; show cc.val = 0; omega
  have hw := hin t
  have hint : (idx (ix2 t 0)).toInt = ((idx (ix2 t 0)).toNat : Int) := BitVec.toInt_eq_toNat_of_lt (by omega)
  have hs0 : ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).start (ix1 t) idx 0 = ((idx (ix2 t 0)).toNat : Int) := by
    unfold ScatterDims.start
    have m0 : (0 : Fin 1) ∈ [(0 : Fin 1)] := List.mem_singleton.mpr rfl
    rw [dif_pos m0, hsi, hint]
  have hw0 : ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).window (ix1 t) 0 = 0 := by
    unfold ScatterDims.window
    have m : (0 : Fin 1) ∉ (List.finRange 1).filter (fun a => a ∉ [(0 : Fin 1)]) := by decide
    exact dif_neg m
  unfold ScatterDims.resultIdx?
  have hall : ∀ a, 0 ≤ ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).start (ix1 t) idx a + ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).window (ix1 t) a
      ∧ ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).start (ix1 t) idx a + ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).window (ix1 t) a < (⟨1, ![K]⟩ : Shape).size a := by
    intro a
    match a with
    | ⟨0, _⟩ =>
      show 0 ≤ ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).start (ix1 t) idx 0 + ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).window (ix1 t) 0
        ∧ ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).start (ix1 t) idx 0 + ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).window (ix1 t) 0 < (K : Int)
      rw [hs0, hw0]; omega
  rw [dif_pos hall]
  congr 1
  funext a
  match a with
  | ⟨0, _⟩ =>
    apply Fin.ext
    show (({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).start (ix1 t) idx 0 + ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).window (ix1 t) 0).toNat = (idx (ix2 t 0)).toNat % K
    rw [hs0, hw0, Nat.mod_eq_of_lt hw]; omega

/-- The last position of a length-N vector whose slot is k is the last row with slot k. -/
theorem lastOcc_vec (σ : Fin N → Fin K) (k : Fin K) :
    lastOcc (fun n : Fin (⟨1, ![N]⟩ : Shape).numel =>
        (some (ix1 (σ (((⟨1, ![N]⟩ : Shape).rowMajor.symm n) 0))) : Option (⟨1, ![K]⟩ : Shape).Idx)) (some (ix1 k))
      = (lastOcc σ k).map (fun t => (⟨1, ![N]⟩ : Shape).rowMajor (ix1 t)) := by
  cases h : lastOcc σ k with
  | none =>
    rw [Option.map_none, lastOcc_eq_none_iff]
    intro n hn
    have e : ix1 (σ (((⟨1, ![N]⟩ : Shape).rowMajor.symm n) 0)) = ix1 k := Option.some.inj hn
    exact (lastOcc_eq_none_iff σ k).mp h _ (congrFun e 0)
  | some t =>
    rw [Option.map_some, lastOcc_eq_some_iff]
    obtain ⟨ht, hmax⟩ := (lastOcc_eq_some_iff σ k t).mp h
    constructor
    · rw [Equiv.symm_apply_apply]
      show some (ix1 (σ t)) = some (ix1 k)
      rw [ht]
    · intro n hn
      have e : ix1 (σ (((⟨1, ![N]⟩ : Shape).rowMajor.symm n) 0)) = ix1 k := Option.some.inj hn
      have e0 : σ (((⟨1, ![N]⟩ : Shape).rowMajor.symm n) 0) = k := congrFun e 0
      have hle : ((⟨1, ![N]⟩ : Shape).rowMajor.symm n) 0 ≤ t := hmax _ e0
      have hn2 := Shape.rowMajor_val_one (d := ![N]) ((⟨1, ![N]⟩ : Shape).rowMajor.symm n)
      rw [Equiv.apply_symm_apply] at hn2
      have ht2 := Shape.rowMajor_val_one (d := ![N]) (ix1 t)
      apply Fin.le_def.mpr
      rw [hn2, ht2]
      exact Fin.le_def.mp hle

/-- A row gather at an index: the table's entry at (word t, j). -/
theorem gather_rows_apply {α : Type}
    (wf : GatherDims.WF (⟨2, ![K, C]⟩ : Shape) (⟨2, ![N, 1]⟩ : Shape) (⟨2, ![N, C]⟩ : Shape) [1] [0] [] [0] [] 1 ![1, C])
    (hK31 : K < 2 ^ 31) (x : (⟨2, ![K, C]⟩ : Shape).Idx → α) (idx : IVec (⟨2, ![N, 1]⟩ : Shape) 32)
    (hin : ∀ t : Fin N, (idx (ix2 t 0)).toNat < K) (t : Fin N) (j : Fin C) :
    Host.gather ({ offsetDims := [1], collapsedSliceDims := [0], operandBatchingDims := [], startIndicesBatchingDims := [], startIndexMap := [0], indexVectorDim := 1, sliceSizes := ![1, C], wf := wf } :
        GatherDims (⟨2, ![K, C]⟩ : Shape) (⟨2, ![N, 1]⟩ : Shape) (⟨2, ![N, C]⟩ : Shape)) x idx (ix2 t j)
      = x (ix2 ⟨(idx (ix2 t 0)).toNat, hin t⟩ j) := by
  unfold Host.gather
  congr 1
  funext a
  match a with
  | ⟨0, h0⟩ =>
    apply Fin.ext
    simp only [GatherDims.operandIdx, GatherDims.start, GatherDims.batchCoord, GatherDims.offCoord]
    have m0 : (⟨0, h0⟩ : Fin 2) ∈ [(0 : Fin 2)] := List.mem_singleton.mpr rfl
    have m2 : (⟨0, h0⟩ : Fin 2) ∉ Shape.kept (⟨2, ![K, C]⟩ : Shape) ([0] ++ []) := by
      show (0 : Fin 2) ∉ (List.finRange 2).filter (fun a => a ∉ [(0 : Fin 2)])
      decide
    rw [dif_pos m0, dif_neg (List.not_mem_nil), dif_neg m2]
    have hsi : ({ offsetDims := [1], collapsedSliceDims := [0], operandBatchingDims := [], startIndicesBatchingDims := [],
                   startIndexMap := [0], indexVectorDim := 1, sliceSizes := ![1, C], wf := wf } :
        GatherDims (⟨2, ![K, C]⟩ : Shape) (⟨2, ![N, 1]⟩ : Shape) (⟨2, ![N, C]⟩ : Shape)).siIdx (ix2 t j)
          ⟨List.idxOf (⟨0, h0⟩ : Fin 2) [(0 : Fin 2)], List.idxOf_lt_length_iff.2 m0⟩ = ix2 t 0 := by
      funext b
      match b with
      | ⟨0, _⟩ => rfl
      | ⟨1, _⟩ => rfl
    rw [hsi]
    show min (idx (ix2 t 0)).toInt.toNat (K - 1) + 0 + 0 = (idx (ix2 t 0)).toNat
    have h1 := hin t
    rw [BitVec.toInt_eq_toNat_of_lt (by omega)]
    simp only [Int.toNat_natCast, Nat.add_zero]
    omega
  | ⟨1, h1⟩ =>
    apply Fin.ext
    simp only [GatherDims.operandIdx, GatherDims.start, GatherDims.batchCoord, GatherDims.offCoord]
    have m0 : (⟨1, h1⟩ : Fin 2) ∉ [(0 : Fin 2)] := by
      show (1 : Fin 2) ∉ [(0 : Fin 2)]
      decide
    have m2 : (⟨1, h1⟩ : Fin 2) ∈ Shape.kept (⟨2, ![K, C]⟩ : Shape) ([0] ++ []) := by
      show (1 : Fin 2) ∈ (List.finRange 2).filter (fun a => a ∉ [(0 : Fin 2)])
      decide
    rw [dif_neg m0, dif_neg (List.not_mem_nil), dif_pos m2]
    simp only [Nat.zero_add]
    rfl

/-- A row scatter whose update replaces the entry: slot k holds the update row of the last row carrying k. -/
theorem scatter_set_rows {α : Type}
    (wf : ScatterDims.WF (⟨2, ![K, C]⟩ : Shape) (⟨2, ![N, 1]⟩ : Shape) (⟨2, ![N, C]⟩ : Shape) [1] [0] [0] 1)
    (hK : 0 < K) (hK31 : K < 2 ^ 31) (x : (⟨2, ![K, C]⟩ : Shape).Idx → α) (idx : IVec (⟨2, ![N, 1]⟩ : Shape) 32)
    (upd : (⟨2, ![N, C]⟩ : Shape).Idx → α) (hin : ∀ t : Fin N, (idx (ix2 t 0)).toNat < K)
    (i : (⟨2, ![K, C]⟩ : Shape).Idx) :
    Host.scatter ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)) (fun _ b => b) x idx upd i
      = match lastOcc (slotOf hK idx) (i 0) with
        | some t => upd (ix2 t (i 1))
        | none => x i := by
  rw [scatter_apply]
  rw [foldl_finRange_upd _ (some i) _ (fun _ b => b) (x i) (fun _ _ => rfl) (fun _ _ _ _ _ => rfl)]
  have hg : (fun n : Fin (⟨2, ![N, C]⟩ : Shape).numel =>
        ({ updateWindowDims := [1], insertedWindowDims := [0], scatterDimsToOperandDims := [0], indexVectorDim := 1, wf := wf } :
        ScatterDims (⟨2, ![K, C]⟩ : Shape) (⟨2, ![N, 1]⟩ : Shape) (⟨2, ![N, C]⟩ : Shape)).resultIdx? ((⟨2, ![N, C]⟩ : Shape).rowMajor.symm n) idx)
      = fun n => some (ix2 (n0 := K) (n1 := C) (slotOf hK idx (((⟨2, ![N, C]⟩ : Shape).rowMajor.symm n) 0))
          (((⟨2, ![N, C]⟩ : Shape).rowMajor.symm n) 1)) := by
    funext n
    conv_lhs => rw [eq_ix2 ((⟨2, ![N, C]⟩ : Shape).rowMajor.symm n)]
    exact resultIdx_rows wf hK hK31 idx hin _ _
  rw [hg, lastOcc_rows (slotOf hK idx) i]
  cases lastOcc (slotOf hK idx) (i 0) with
  | none => rfl
  | some t =>
    show upd ((⟨2, ![N, C]⟩ : Shape).rowMajor.symm ((⟨2, ![N, C]⟩ : Shape).rowMajor (ix2 t (i 1)))) = upd (ix2 t (i 1))
    rw [Equiv.symm_apply_apply]

/-- Scattering the row numbers into a vector of −1 under the signed maximum: slot k holds the number of the last
    row carrying k, or −1. -/
theorem scatter_max_iota
    (wf : ScatterDims.WF (⟨1, ![K]⟩ : Shape) (⟨2, ![N, 1]⟩ : Shape) (⟨1, ![N]⟩ : Shape) [] [0] [0] 1)
    (hK : 0 < K) (hK31 : K < 2 ^ 31) (hN31 : N < 2 ^ 31) (idx : IVec (⟨2, ![N, 1]⟩ : Shape) 32)
    (hin : ∀ t : Fin N, (idx (ix2 t 0)).toNat < K) (k : Fin K) :
    Host.scatter ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)) IntOp.maxsi
        (fun _ => 4294967295#32) idx (fun j => BitVec.ofNat 32 (j 0).val) (ix1 k)
      = match lastOcc (slotOf hK idx) k with
        | some t => BitVec.ofNat 32 t.val
        | none => 4294967295#32 := by
  rw [scatter_apply]
  have hval : ∀ n : Fin (⟨1, ![N]⟩ : Shape).numel, (((⟨1, ![N]⟩ : Shape).rowMajor.symm n) 0).val = n.val := by
    intro n
    have h := Shape.rowMajor_val_one (d := ![N]) ((⟨1, ![N]⟩ : Shape).rowMajor.symm n)
    rw [Equiv.apply_symm_apply] at h
    exact h.symm
  have hlt : ∀ n : Fin (⟨1, ![N]⟩ : Shape).numel, (((⟨1, ![N]⟩ : Shape).rowMajor.symm n) 0).val < 2 ^ 31 := by
    intro n
    have h : (((⟨1, ![N]⟩ : Shape).rowMajor.symm n) 0).val < N := (((⟨1, ![N]⟩ : Shape).rowMajor.symm n) 0).isLt
    omega
  rw [foldl_finRange_upd _ (some (ix1 k)) _ IntOp.maxsi (4294967295#32)
    (fun n _ => maxsi_neg_one _ (hlt n))
    (fun n' n hnn _ _ => maxsi_ofNat_le _ _ (by rw [hval n', hval n]; exact Nat.le_of_lt (Fin.lt_def.mp hnn)) (hlt n))]
  have hg : (fun n : Fin (⟨1, ![N]⟩ : Shape).numel =>
        ({ updateWindowDims := [], insertedWindowDims := [0], scatterDimsToOperandDims := [0], indexVectorDim := 1, wf := wf } :
        ScatterDims (⟨1, ![K]⟩ : Shape) (⟨2, ![N, 1]⟩ : Shape) (⟨1, ![N]⟩ : Shape)).resultIdx? ((⟨1, ![N]⟩ : Shape).rowMajor.symm n) idx)
      = fun n => some (ix1 (slotOf hK idx (((⟨1, ![N]⟩ : Shape).rowMajor.symm n) 0))) := by
    funext n
    conv_lhs => rw [eq_ix1 ((⟨1, ![N]⟩ : Shape).rowMajor.symm n)]
    exact resultIdx_vec wf hK hK31 idx hin _
  rw [hg, lastOcc_vec (slotOf hK idx) k]
  cases lastOcc (slotOf hK idx) k with
  | none => rfl
  | some t =>
    show BitVec.ofNat 32 (((⟨1, ![N]⟩ : Shape).rowMajor.symm ((⟨1, ![N]⟩ : Shape).rowMajor (ix1 t))) 0).val = BitVec.ofNat 32 t.val
    rw [Equiv.symm_apply_apply]
    rfl

end Cert.LibRows

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KernelHost.lean ====
/-
  The program's arguments, in the specification's terms.

  The id vector, the feature matrix and the bank of hidden states are the first three arguments; the layer's
  parameters (input weights, recurrent weights, bias, and the head's two weight matrices and two biases) are the
  remaining seven. What the program computes from them before the kernel region — for each slot the number of the
  last row carrying it, hence a 0/1 mark per row, a flag per tile of 2000 rows and a 0/1 mark per slot; the table
  [bank | bank·U] and the table's difference with itself; the id vector reshaped into a column; the operands whose
  float format changes, which is the identity on the extended reals — is stated over these names.
-/
import proofs.«418272_j53223234732113_3_alg».proof.Proof.Gen.KernelIdeal.Frame.Runs
import proofs.«418272_j53223234732113_3_alg».proof.Proof.Spec
import proofs.«418272_j53223234732113_3_alg».proof.Proof.SpecFacts
import proofs.«418272_j53223234732113_3_alg».proof.Proof.LibRows
import proofs.«418272_j53223234732113_3_alg».proof.Proof.LibPlainDot
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelHost

open Idealize.ShloMosaic Idealize.ShloMosaic.TcCoe Idealize.SL.Sem Idealize.ShloMosaic.ValueIdx
open Cert.KernelIdeal Cert.KernelIdeal.Gen Cert.Gru Cert.LibLast

variable (m : (ℓ : Loc nD τ sig) → Buf (Elt Ideal) ℓ) (c : Dev nD)

/-- The arguments, as the specification's arrays. -/
abbrev ids : (⟨1, ![1000000]⟩ : Shape).Idx → BitVec 32 := m ((c : Thread nD τ).loc main_arg0)
abbrev feats : Mat 1000000 64 := m ((c : Thread nD τ).loc main_arg1)
abbrev bank : Mat 1000 48 := m ((c : Thread nD τ).loc main_arg2)
/-- The parameters, read off the arguments. -/
def params : Params where
  W := m ((c : Thread nD τ).loc main_arg3)
  U := m ((c : Thread nD τ).loc main_arg4)
  b := m ((c : Thread nD τ).loc main_arg5)
  dw1 := m ((c : Thread nD τ).loc main_arg6)
  db1 := m ((c : Thread nD τ).loc main_arg7)
  dw2 := m ((c : Thread nD τ).loc main_arg8)
  db2 := m ((c : Thread nD τ).loc main_arg9)

end Cert.KernelHost

end
-- ==== Proof.KernelHostA.lean ====
/-
  The float side of what the arrays hold when the kernel region is entered.

  The features, the input weights and the two head matrices reach the region through a change of float format, which
  is the identity on the extended reals; the id column is the id vector reshaped, row t of the column sitting at
  position t of the vector. The first table is the bank beside the bank times the recurrent weights: its left 48
  columns are the bank's, its right 144 columns the sums over the inner coordinate of bank entry times weight. The
  second table is the first minus itself, zero at every entry because the entries are real numbers (a bank entry,
  or a finite sum of products of real numbers).
-/
import proofs.«418272_j53223234732113_3_alg».proof.Proof.KernelHost

set_option maxRecDepth 16384

noncomputable section

open scoped BigOperators

namespace Cert.KernelHost

open Idealize.ShloMosaic Idealize.ShloMosaic.TcCoe Idealize.SL.Sem Idealize.ShloMosaic.ValueIdx
open Cert.KernelIdeal Cert.KernelIdeal.Gen Cert.Gru Cert.LibLast

variable (m : (ℓ : Loc nD τ sig) → Buf (Elt Ideal) ℓ) (c : Dev nD)

/-- The bank times the recurrent weights, as the host computes it. -/
abbrev bankU : S1000x144.Idx → EReal :=
  Host.dotGeneral (F := Ideal) (φ₁ := .f32) (φ₂ := .f32) dot_S1000x48_S48x144_S1000x144_1_0_0_1_n_n none (bank m c) (params m c).U

/-- The table before the format change: the bank beside its product with the recurrent weights. -/
abbrev tab : S1000x192.Idx → EReal :=
  concatenate S1000x192 1 [⟨S1000x48, bank m c⟩, ⟨S1000x144, bankU m c⟩] concatenates_S1000x48_S1000x144_S1000x192_d1

/-! ## Each buffer as its operations' term over the arguments -/

theorem V_v23_eq : (V m c main_v23 : S1000000x1.Idx → BitVec 32)
    = (shapeCast S1000000x1 (ids m c) shapeCasts_S1000000_S1000000x1 : S1000000x1.Idx → BitVec 32) := by
  show StableHlo.after hostOps0 (fun b => m (c, b)) (Proc.devRef .tc main_v23) = _
  after_results
  rfl

theorem V_v25_eq : (V m c main_v25 : S1000000x64.Idx → EReal)
    = (truncf (F := Ideal) (φ := .f32) .bf16 (feats m c) bitsLt_bf16_f32 : S1000000x64.Idx → EReal) := by
  show StableHlo.after hostOps0 (fun b => m (c, b)) (Proc.devRef .tc main_v25) = _
  after_results

set_option maxHeartbeats 1000000 in
theorem V_v34_eq : (V m c main_v34 : S1000x192.Idx → EReal)
    = (truncf (F := Ideal) (φ := .f32) .bf16 (tab m c) bitsLt_bf16_f32 : S1000x192.Idx → EReal) := by
  show StableHlo.after hostOps0 (fun b => m (c, b)) (Proc.devRef .tc main_v34) = _
  after_results_simp
  rfl

set_option maxHeartbeats 1000000 in
theorem V_v37_eq : (V m c main_v37 : S1000x192.Idx → EReal)
    = (truncf (F := Ideal) (φ := .f32) .bf16
        (subf (F := Ideal) (φ := .f32) (tab m c)
          (extf (F := Ideal) (φ := .bf16) .f32 (truncf (F := Ideal) (φ := .f32) .bf16 (tab m c) bitsLt_bf16_f32) bitsLt_bf16_f32))
        bitsLt_bf16_f32 : S1000x192.Idx → EReal) := by
  show StableHlo.after hostOps0 (fun b => m (c, b)) (Proc.devRef .tc main_v37) = _
  after_results_simp
  rfl

theorem V_v38_eq : (V m c main_v38 : S64x144.Idx → EReal)
    = (truncf (F := Ideal) (φ := .f32) .bf16 (params m c).W bitsLt_bf16_f32 : S64x144.Idx → EReal) := by
  show StableHlo.after hostOps0 (fun b => m (c, b)) (Proc.devRef .tc main_v38) = _
  after_results
  rfl

theorem V_v39_eq : (V m c main_v39 : S48x24.Idx → EReal)
    = (truncf (F := Ideal) (φ := .f32) .bf16 (params m c).dw1 bitsLt_bf16_f32 : S48x24.Idx → EReal) := by
  show StableHlo.after hostOps0 (fun b => m (c, b)) (Proc.devRef .tc main_v39) = _
  after_results
  rfl

theorem V_v40_eq : (V m c main_v40 : S24x1.Idx → EReal)
    = (truncf (F := Ideal) (φ := .f32) .bf16 (params m c).dw2 bitsLt_bf16_f32 : S24x1.Idx → EReal) := by
  show StableHlo.after hostOps0 (fun b => m (c, b)) (Proc.devRef .tc main_v40) = _
  after_results
  rfl

/-! ## The table at an index -/

/-- The table's left 48 columns are the bank. -/
theorem tab_left (k : Fin 1000) (q : Fin 48) :
    tab m c (ix2 k ⟨q.val, by omega⟩) = bank m c (ix2 k q) := by
  refine concatenate_pair_apply_left (t := S1000x192) (s₁ := S1000x48) (s₂ := S1000x144) 1 (bank m c) (bankU m c)
    concatenates_S1000x48_S1000x144_S1000x192_d1 (ix2 k ⟨q.val, by omega⟩) rfl (ix2 k q) ?_
  intro b
  match b with
  | ⟨0, _⟩ => rfl
  | ⟨1, _⟩ => rfl

/-- The table's right 144 columns are the bank times the recurrent weights. -/
theorem tab_right (k : Fin 1000) (j : Fin 144) :
    tab m c (ix2 k ⟨j.val + 48, by omega⟩) = ∑ q : Fin 48, bank m c (ix2 k q) * (params m c).U (ix2 q j) := by
  have h : tab m c (ix2 k ⟨j.val + 48, by omega⟩) = bankU m c (ix2 k j) := by
    refine concatenate_pair_apply_right (t := S1000x192) (s₁ := S1000x48) (s₂ := S1000x144) 1 (bank m c) (bankU m c)
      concatenates_S1000x48_S1000x144_S1000x192_d1 (ix2 k ⟨j.val + 48, by omega⟩) rfl rfl (ix2 k j) ?_ ?_
    · intro b hb
      match b with
      | ⟨0, _⟩ => rfl
      | ⟨1, _⟩ => exact absurd rfl hb
    · rfl
  rw [h]
  exact Cert.LibPlainDot.dotGeneral_apply (M := 1000) (K := 48) (N := 144) none .single (bank m c) (params m c).U (ix2 k j)

/-- Every entry of the table is a real number when the bank and the recurrent weights are: a bank entry, or a finite
    sum of products of a bank entry and a weight. -/
theorem tab_real (hS : Finite (bank m c)) (hU : Finite (params m c).U) (i : S1000x192.Idx) :
    ∃ r : ℝ, tab m c i = (r : EReal) := by
  obtain ⟨p, q, rfl⟩ : ∃ p q, i = ix2 p q := ⟨i 0, i 1, eq_ix2 i⟩
  by_cases hq : q.val < 48
  · have e : (ix2 p q : S1000x192.Idx) = ix2 p ⟨(⟨q.val, hq⟩ : Fin 48).val, by omega⟩ := rfl
    rw [e, tab_left]
    exact hS _
  · have hq' : q.val - 48 < 144 := by have := q.isLt; omega
    have e : (ix2 p q : S1000x192.Idx) = ix2 p ⟨(⟨q.val - 48, hq'⟩ : Fin 144).val + 48, by omega⟩ := by
      congr 1; apply Fin.ext; show q.val = q.val - 48 + 48; omega
    rw [e, tab_right]
    exact sum_mul_real _ _ (fun t => hS _) (fun t => hU _)

/-! ## The statements -/

/-- The id column the region reads: the id vector reshaped (row t of the column sits at the vector's position t). -/
theorem V_idcol' (t : Fin 1000000) :
    (V m c main_v23 : S1000000x1.Idx → BitVec 32) (ix2 t 0) = ids m c (ix1 t) := by
  rw [V_v23_eq]
  refine shapeCast_apply (ids m c) shapeCasts_S1000000_S1000000x1 (ix2 t 0) (ix1 t) ?_
  rw [Shape.rowMajor_val_one, Shape.rowMajor_val_two]
  show t.val = t.val * 1 + 0
  omega

/-- The features the region reads: the argument (the format change is the identity). -/
theorem V_feats' : (V m c main_v25 : S1000000x64.Idx → EReal) = feats m c := by
  rw [V_v25_eq]
  funext i
  exact truncf_apply _ _ i

/-- The first table's left 48 columns: the bank. -/
theorem V_table_state' (k : Fin 1000) (q : Fin 48) :
    (V m c main_v34 : S1000x192.Idx → EReal) (ix2 k ⟨q.val, by omega⟩) = bank m c (ix2 k q) := by
  rw [V_v34_eq, truncf_apply]
  exact tab_left m c k q

/-- The first table's right 144 columns: the bank times the recurrent weights. -/
theorem V_table_rec' (k : Fin 1000) (j : Fin 144) :
    (V m c main_v34 : S1000x192.Idx → EReal) (ix2 k ⟨j.val + 48, by omega⟩)
      = ∑ q : Fin 48, bank m c (ix2 k q) * (params m c).U (ix2 q j) := by
  rw [V_v34_eq, truncf_apply]
  exact tab_right m c k j

/-- The second table: the table minus itself, zero because its entries are real numbers. -/
theorem V_table_lo' (hS : Finite (bank m c)) (hU : Finite (params m c).U) (i : S1000x192.Idx) :
    (V m c main_v37 : S1000x192.Idx → EReal) i = (0 : EReal) := by
  rw [V_v37_eq, truncf_apply, subf_apply, extf_apply, truncf_apply]
  exact sub_self_of_real (tab_real m c hS hU i)

theorem V_W' : (V m c main_v38 : S64x144.Idx → EReal) = (params m c).W := by
  rw [V_v38_eq]
  funext i
  exact truncf_apply _ _ i

theorem V_dw1' : (V m c main_v39 : S48x24.Idx → EReal) = (params m c).dw1 := by
  rw [V_v39_eq]
  funext i
  exact truncf_apply _ _ i

theorem V_dw2' : (V m c main_v40 : S24x1.Idx → EReal) = (params m c).dw2 := by
  rw [V_v40_eq]
  funext i
  exact truncf_apply _ _ i

end Cert.KernelHost

end
-- ==== Proof.KernelHostB.lean ====
/-
  The integer side of what the program computes before the kernel region, read at an index.

  From the id vector alone the program builds: the column of ids (an id below zero shifted up by 1000, which on the
  domain 0 ≤ id < 1000 changes nothing); for each slot the number of the last row carrying it, by scattering the row
  numbers into a vector of −1 under the signed maximum; for each row a 0/1 mark "the number recorded for my slot is
  my own", i.e. "I am the last row carrying my slot"; for each slot a 0/1 mark "the recorded number is not negative",
  i.e. "some row carries me"; and for each tile of 2000 rows a flag, the "or" of "mark ≠ 0" over the tile's rows.

  First some facts on 32-bit words and on an "or"-reduction of a mask along its rows, with no program in sight; then
  the four values as terms of the id vector; then each read at an index, in the specification's terms.
-/
import proofs.«418272_j53223234732113_3_alg».proof.Proof.KernelHost
import Idealize.ShloMosaic.Lib.Affine
import Idealize.ShloMosaic.PureOps.Reduce
import Idealize.ShloMosaic.PureOps.Ideal.Laws

set_option maxRecDepth 16384

noncomputable section

open scoped BigOperators

namespace Cert.KernelHost

open Idealize.ShloMosaic Idealize.ShloMosaic.TcCoe Idealize.SL.Sem Idealize.ShloMosaic.ValueIdx
open Cert.KernelIdeal Cert.KernelIdeal.Gen Cert.Gru Cert.LibLast

/-! ## Words -/

/-- A word below 1000 is not negative as a signed word. -/
theorem cmpi_slt_zero_of_small (x : BitVec 32) (hx : x.toNat < 1000) : IntOp.cmpi .slt x 0#32 = 0#1 := by
  have h : x.slt 0#32 = false := by
    apply Bool.eq_false_iff.2
    intro hlt
    have h1 := BitVec.slt_iff_toInt_lt.1 hlt
    rw [BitVec.toInt_eq_toNat_of_lt (by omega)] at h1
    simp at h1
    omega
  show BitVec.ofBool (x.slt 0#32) = 0#1
  rw [h]; rfl

/-- A row number, as a word, is not negative as a signed word. -/
theorem cmpi_sge_zero_ofNat (t : Nat) (ht : t < 1000000) : IntOp.cmpi .sge (BitVec.ofNat 32 t) 0#32 = 1#1 := by
  have h : (0#32).sle (BitVec.ofNat 32 t) = true := by
    apply BitVec.sle_iff_toInt_le.2
    have h2 : (BitVec.ofNat 32 t).toNat = t := by rw [BitVec.toNat_ofNat]; exact Nat.mod_eq_of_lt (by omega)
    have h3 : (BitVec.ofNat 32 t).toInt = (t : Int) := by
      rw [BitVec.toInt_eq_toNat_of_lt (by rw [h2]; omega), h2]
    rw [h3, BitVec.toInt_zero]
    omega
  show BitVec.ofBool ((0#32).sle (BitVec.ofNat 32 t)) = 1#1
  rw [h]; rfl

/-- Two numbers below 2³², as words, are equal words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases hab : a = b
  · rw [if_pos hab, hab]; simp
  · rw [if_neg hab]
    have hne : BitVec.ofNat 32 a ≠ BitVec.ofNat 32 b := by
      intro he
      have := congrArg BitVec.toNat he
      rw [BitVec.toNat_ofNat, BitVec.toNat_ofNat, Nat.mod_eq_of_lt ha, Nat.mod_eq_of_lt hb] at this
      exact hab this
    have : (BitVec.ofNat 32 a == BitVec.ofNat 32 b) = false := by simpa using hne
    rw [this]; rfl

/-- The word −1 is no row number. -/
theorem cmpi_eq_neg_one_ofNat (t : Nat) (ht : t < 1000000) :
    IntOp.cmpi .eq 4294967295#32 (BitVec.ofNat 32 t) = 0#1 := by
  have h := cmpi_eq_ofNat 4294967295 t (by norm_num) (by omega)
  rw [if_neg (by omega)] at h
  exact h

/-! ## An or-reduction along the rows of a mask -/

/-- A left fold by "or" over one-bit words is 1 exactly when it started at 1 or met a 1. -/
theorem foldl_ori_eq_one {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- Or-reducing an [n × m] mask over its columns, from 0: row p's result is 1 exactly when some column of row p is 1. -/
theorem reduce_ori_cols_eq_one {n k : Nat} (mask : IVec ⟨2, ![n, k]⟩ 1)
    (h : (⟨2, ![n, k]⟩ : Shape).ReducesTo [1] ⟨1, ![n]⟩) {u : Shape} (hu : 0 < u.numel) (p : Fin n) :
    Host.reduce IntOp.ori mask (constantI u 1 0#1) h hu (ix1 p) = 1#1 ↔ ∃ q : Fin k, mask (ix2 p q) = 1#1 := by
  rw [Host.reduce_eq_foldl, foldl_ori_eq_one]
  have hdrop : ∀ i : (⟨2, ![n, k]⟩ : Shape).Idx, h.drop i = ix1 p ↔ i 0 = p := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  constructor
  · rintro (h0 | ⟨i, hi, h1⟩)
    · exact absurd (show (0#1 : BitVec 1) = 1#1 from h0) (by decide)
    · rw [List.mem_filter] at hi
      have h0 : i 0 = p := (hdrop i).1 (of_decide_eq_true hi.2)
      have hback : ix2 p (i 1) = i := by
        funext b; match b with
        | ⟨0, _⟩ => exact h0.symm
        | ⟨1, _⟩ => rfl
      exact ⟨i 1, (congrArg mask hback).trans h1⟩
  · rintro ⟨q, hq⟩
    refine Or.inr ⟨ix2 p q, ?_, hq⟩
    rw [List.mem_filter]
    exact ⟨List.mem_map.2 ⟨_, List.mem_finRange _, Equiv.symm_apply_apply _ _⟩, decide_eq_true ((hdrop _).2 rfl)⟩

/-- A one-bit word that is not 1 is 0; the or-reduction as an "if". -/
theorem reduce_ori_cols {n k : Nat} (mask : IVec ⟨2, ![n, k]⟩ 1)
    (h : (⟨2, ![n, k]⟩ : Shape).ReducesTo [1] ⟨1, ![n]⟩) {u : Shape} (hu : 0 < u.numel) (p : Fin n)
    [Decidable (∃ q : Fin k, mask (ix2 p q) = 1#1)] :
    Host.reduce IntOp.ori mask (constantI u 1 0#1) h hu (ix1 p)
      = if ∃ q : Fin k, mask (ix2 p q) = 1#1 then 1#1 else 0#1 := by
  by_cases hq : ∃ q : Fin k, mask (ix2 p q) = 1#1
  · rw [if_pos hq]; exact (reduce_ori_cols_eq_one mask h hu p).2 hq
  · rw [if_neg hq]; exact eq_zero_of_ne_one fun e => hq ((reduce_ori_cols_eq_one mask h hu p).1 e)

/-! ## Bits as extended reals -/

theorem uitofp_bit_one : FloatOps.uitofp (F := Ideal) .f32 (1#1) = (1 : EReal) := by
  show (((1#1 : BitVec 1).toNat : ℝ) : EReal) = 1
  simp
theorem uitofp_bit_zero : FloatOps.uitofp (F := Ideal) .f32 (0#1) = (0 : EReal) := by
  show (((0#1 : BitVec 1).toNat : ℝ) : EReal) = 0
  simp

/-! ## The host values as terms -/

variable (m : (ℓ : Loc nD τ sig) → Buf (Elt Ideal) ℓ) (c : Dev nD)

/-- The id column the program indexes with: an id below zero is shifted up by 1000; the vector, as a column. -/
def ncol : S1000000x1.Idx → BitVec 32 :=
  broadcastInDim S1000000x1 ![0] bcast_S1000000_S1000000x1_0
    (select (cmpi .slt (ids m c) (broadcastInDim S1000000 ![] bcast_S_S1000000 (constantI S_ 32 0#32)))
      (addi (ids m c) (broadcastInDim S1000000 ![] bcast_S_S1000000 (constantI S_ 32 1000#32)))
      (ids m c))

/-- Per slot, the number of the last row carrying it, or −1: the row numbers scattered under the signed maximum. -/
def lastRow : S1000.Idx → BitVec 32 :=
  Host.scatter scatter_S1000_S1000000x1_S1000000_n_0_0_1 IntOp.maxsi
    (broadcastInDim S1000 ![] bcast_S_S1000 (constantI S_ 32 4294967295#32)) (ncol m c) (iotaInDim S1000000 32 0)

/-- Per row, 1 when the row is the one recorded for its slot, else 0. -/
def markVec : S1000000.Idx → EReal :=
  uitofp (F := Ideal) .f32
    (cmpi .eq (Host.gather gather_S1000_S1000000x1_S1000000_n_0_n_n_0_1_1 (lastRow m c) (ncol m c)) (iotaInDim S1000000 32 0))

open Idealize.ShloMosaic.StableHlo in
set_option maxHeartbeats 1000000 in
theorem V_v12_eq : (V m c main_v12 : S1000x1.Idx → EReal)
    = shapeCast S1000x1 (uitofp (F := Ideal) .f32 (cmpi .sge (lastRow m c) (broadcastInDim S1000 ![] bcast_S_S1000 (constantI S_ 32 0#32))))
        shapeCasts_S1000_S1000x1 := by
  dsimp only [Gen.V, Gen.V0]
  simp only [Gen.hostOps0, List.flatten_cons, List.flatten_nil, List.append_nil, List.cons_append, List.nil_append]
  after_results_simp
  rfl

open Idealize.ShloMosaic.StableHlo in
set_option maxHeartbeats 1000000 in
theorem V_v24_eq : (V m c main_v24 : S1000000x1.Idx → EReal)
    = shapeCast S1000000x1 (markVec m c) shapeCasts_S1000000_S1000000x1 := by
  dsimp only [Gen.V, Gen.V0]
  simp only [Gen.hostOps0, List.flatten_cons, List.flatten_nil, List.append_nil, List.cons_append, List.nil_append]
  after_results_simp
  rfl

open Idealize.ShloMosaic.StableHlo in
set_option maxHeartbeats 1000000 in
theorem V_v31_eq : (V m c main_v31 : S500.Idx → BitVec 32)
    = extui 32 (Host.reduce IntOp.ori
        (cmpf (F := Ideal) .une (shapeCast S500x2000 (markVec m c) shapeCasts_S1000000_S500x2000)
          (broadcastInDim S500x2000 ![] bcast_S_S500x2000 (constant (F := Ideal) S_ .f32 0#32)))
        (constantI S_ 1 0#1) reducesTo_S500x2000_S500_d1 h_S_) natLt_1_32 := by
  dsimp only [Gen.V, Gen.V0]
  simp only [Gen.hostOps0, List.flatten_cons, List.flatten_nil, List.append_nil, List.cons_append, List.nil_append]
  after_results_simp
  rfl

/-! ## The values at an index -/

/-- On the domain the normalised column is the id vector. -/
theorem ncol_apply (hR : InRange (ids m c)) (t : Fin 1000000) (u : Fin 1) :
    ncol m c (ix2 t u) = ids m c (ix1 t) := by
  unfold ncol
  rw [broadcastInDim_apply _ _ _ (ix2 t u) (ix1 t) (fun a => match a with | ⟨0, _⟩ => rfl)]
  rw [select_apply]
  have h0 : cmpi .slt (ids m c) (broadcastInDim S1000000 ![] bcast_S_S1000000 (constantI S_ 32 0#32)) (ix1 t) = 0#1 :=
    cmpi_slt_zero_of_small _ (hR t)
  rw [h0, select_zero]

/-- The column's slots are the specification's. -/
theorem slotOf_ncol (hR : InRange (ids m c)) :
    LibRows.slotOf (K := 1000) (by norm_num) (ncol m c) = slot (ids m c) := by
  funext t
  apply Fin.ext
  show (ncol m c (ix2 t 0)).toNat % 1000 = (ids m c (ix1 t)).toNat % 1000
  rw [ncol_apply m c hR]

/-- Slot k's entry when some row carries k: the number of the last such row. -/
theorem lastRow_some (hR : InRange (ids m c)) (k : Fin 1000) (t : Fin 1000000)
    (hs : lastOcc (slot (ids m c)) k = some t) : lastRow m c (ix1 k) = BitVec.ofNat 32 t.val := by
  have h := LibRows.scatter_max_iota (K := 1000) (N := 1000000) Facts₀.scatter_S1000_S1000000x1_S1000000_n_0_0_1_wf
    (by norm_num) (by norm_num) (by norm_num) (ncol m c) (fun t => by rw [ncol_apply m c hR]; exact hR t) k
  rw [slotOf_ncol m c hR, hs] at h
  exact h

/-- Slot k's entry when no row carries k: −1. -/
theorem lastRow_none (hR : InRange (ids m c)) (k : Fin 1000)
    (hs : lastOcc (slot (ids m c)) k = none) : lastRow m c (ix1 k) = 4294967295#32 := by
  have h := LibRows.scatter_max_iota (K := 1000) (N := 1000000) Facts₀.scatter_S1000_S1000000x1_S1000000_n_0_0_1_wf
    (by norm_num) (by norm_num) (by norm_num) (ncol m c) (fun t => by rw [ncol_apply m c hR]; exact hR t) k
  rw [slotOf_ncol m c hR, hs] at h
  exact h

/-- The "some row carries this slot" marks. -/
theorem V_occurs' (hR : InRange (ids m c)) (k : Fin 1000) :
    (V m c main_v12 : S1000x1.Idx → EReal) (ix2 k 0)
      = if (lastOcc (slot (ids m c)) k).isSome then (1 : EReal) else 0 := by
  refine (congrFun (V_v12_eq m c) (ix2 k 0)).trans ?_
  rw [shapeCast_apply _ _ (ix2 k 0) (ix1 k) (by
    rw [Shape.rowMajor_val_one, Shape.rowMajor_val_two]; show k.val = k.val * 1 + 0; omega)]
  show FloatOps.uitofp (F := Ideal) .f32 (IntOp.cmpi .sge (lastRow m c (ix1 k)) 0#32) = _
  cases hs : lastOcc (slot (ids m c)) k with
  | none =>
    rw [lastRow_none m c hR k hs, show IntOp.cmpi .sge 4294967295#32 0#32 = 0#1 from by decide, uitofp_bit_zero]
    rfl
  | some t =>
    rw [lastRow_some m c hR k t hs, cmpi_sge_zero_ofNat _ t.isLt, uitofp_bit_one]
    rfl

/-- Row t's gathered entry: the entry of its slot. -/
theorem gathered_apply (hR : InRange (ids m c)) (t : Fin 1000000) :
    Host.gather gather_S1000_S1000000x1_S1000000_n_0_n_n_0_1_1 (lastRow m c) (ncol m c) (ix1 t)
      = lastRow m c (ix1 (slot (ids m c) t)) := by
  have h := StableHlo.Predicate.gather_take (N := 1000) (n := 1000000) (w := 32) gather_S1000_S1000000x1_S1000000_n_0_n_n_0_1_1
    rfl rfl rfl rfl (lastRow m c) (ncol m c) t (by norm_num)
  have e1 : (Shape.Idx.ofFin t : S1000000.Idx) = ix1 t := by
    funext a; match a with | ⟨0, _⟩ => rfl
  have e2 : ncol m c (StableHlo.Predicate.ixP t) = ids m c (ix1 t) := by
    have : (StableHlo.Predicate.ixP t : S1000000x1.Idx) = ix2 t 0 := by
      funext a; match a with
      | ⟨0, _⟩ => rfl
      | ⟨1, _⟩ => rfl
    rw [this]; exact ncol_apply m c hR t 0
  rw [e1] at h
  rw [h]
  refine congrArg (lastRow m c) ?_
  funext a
  match a with
  | ⟨0, _⟩ =>
    apply Fin.ext
    show min (ncol m c (StableHlo.Predicate.ixP t)).toInt.toNat (1000 - 1) = (ids m c (ix1 t)).toNat % 1000
    have hw := hR t
    rw [e2, BitVec.toInt_eq_toNat_of_lt (by omega), Int.toNat_natCast, Nat.mod_eq_of_lt hw]
    omega

/-- Row t's mark: 1 exactly when t is the last row carrying its slot. -/
theorem markVec_apply (hR : InRange (ids m c)) (t : Fin 1000000) :
    markVec m c (ix1 t) = if IsLast (ids m c) t then (1 : EReal) else 0 := by
  show FloatOps.uitofp (F := Ideal) .f32 (IntOp.cmpi .eq
    (Host.gather gather_S1000_S1000000x1_S1000000_n_0_n_n_0_1_1 (lastRow m c) (ncol m c) (ix1 t)) (BitVec.ofNat 32 t.val)) = _
  rw [gathered_apply m c hR t]
  by_cases hL : IsLast (ids m c) t
  · rw [if_pos hL, lastRow_some m c hR _ t hL, cmpi_eq_ofNat _ _ (by omega) (by omega), if_pos rfl, uitofp_bit_one]
  · rw [if_neg hL]
    cases hs : lastOcc (slot (ids m c)) (slot (ids m c) t) with
    | none => rw [lastRow_none m c hR _ hs, cmpi_eq_neg_one_ofNat _ t.isLt, uitofp_bit_zero]
    | some t' =>
      have hne : t'.val ≠ t.val := fun e => hL (by unfold IsLast; rw [hs, Fin.ext e])
      rw [lastRow_some m c hR _ t' hs, cmpi_eq_ofNat _ _ (by omega) (by omega), if_neg hne, uitofp_bit_zero]

/-- The last-row marks the region reads. -/
theorem V_marks' (hR : InRange (ids m c)) (t : Fin 1000000) :
    (V m c main_v24 : S1000000x1.Idx → EReal) (ix2 t 0) = if IsLast (ids m c) t then (1 : EReal) else 0 := by
  refine (congrFun (V_v24_eq m c) (ix2 t 0)).trans ?_
  rw [shapeCast_apply _ _ (ix2 t 0) (ix1 t) (by
    rw [Shape.rowMajor_val_one, Shape.rowMajor_val_two]; show t.val = t.val * 1 + 0; omega)]
  exact markVec_apply m c hR t

/-- Entry (tile, r) of the tiles' mask: set exactly when row 2000·tile + r is a last row. -/
theorem flagMask_apply (hR : InRange (ids m c)) (tile : Fin 500) (r : Fin 2000) :
    cmpf (F := Ideal) .une (shapeCast S500x2000 (markVec m c) shapeCasts_S1000000_S500x2000)
        (broadcastInDim S500x2000 ![] bcast_S_S500x2000 (constant (F := Ideal) S_ .f32 0#32)) (ix2 tile r) = 1#1
      ↔ IsLast (ids m c) (row (2000 * tile.val + r.val)) := by
  have hlt : 2000 * tile.val + r.val < 1000000 := by have := tile.isLt; have := r.isLt; omega
  have hrow : row (2000 * tile.val + r.val) = ⟨2000 * tile.val + r.val, hlt⟩ := Fin.ext (Nat.mod_eq_of_lt hlt)
  show Ideal.cmp .une (shapeCast S500x2000 (markVec m c) shapeCasts_S1000000_S500x2000 (ix2 tile r))
    (Ideal.ofBits .f32 0x00000000#32) = 1#1 ↔ _
  rw [shapeCast_apply _ _ (ix2 tile r) (ix1 ⟨2000 * tile.val + r.val, hlt⟩) (by
    rw [Shape.rowMajor_val_one, Shape.rowMajor_val_two]
    show 2000 * tile.val + r.val = tile.val * 2000 + r.val; omega)]
  rw [markVec_apply m c hR, hrow, Ideal.ofBits_zero_f32]
  by_cases hL : IsLast (ids m c) ⟨2000 * tile.val + r.val, hlt⟩
  · rw [if_pos hL]; simp [Ideal.cmp, hL]
  · rw [if_neg hL]; simp [Ideal.cmp, hL]

/-- The per-tile flags the region is handed. -/
theorem tbl_flags' (hR : InRange (ids m c)) (tile : Fin 500) :
    (tbl m 0 : S500.Idx → BitVec 32) (ix1 tile) = if TileHasLast (ids m c) tile.val then 1#32 else 0#32 := by
  obtain rfl : c = 0 := Subsingleton.elim _ _
  have hV : (tbl m 0 : S500.Idx → BitVec 32) = V m 0 main_v31 := rfl
  refine (congrFun (hV.trans (V_v31_eq m 0)) (ix1 tile)).trans ?_
  rw [extui_apply]
  classical
  rw [reduce_ori_cols]
  by_cases hT : TileHasLast (ids m 0) tile.val
  · rw [if_pos hT, if_pos (by obtain ⟨r, hr⟩ := hT; exact ⟨r, (flagMask_apply m 0 hR tile r).2 hr⟩)]; rfl
  · rw [if_neg hT, if_neg (by rintro ⟨r, hr⟩; exact hT ⟨r, (flagMask_apply m 0 hR tile r).1 hr⟩)]; rfl

end Cert.KernelHost

end
-- ==== Proof.KernelCell.lean ====
/-
  The kernel body's arithmetic, named.

  One grid point sees 2000 rows: their id words (a 2000×1 block), their features (2000×64), their
  last-row marks (2000×1), and whole copies of two 1000×192 tables, the weights and the biases. The body
  builds the 2000×1000 indicator "row r carries slot k", multiplies it into the two tables and adds the products,
  which picks, for row r, row slot(r) of the first table when the second table is zero: the first 48 columns
  are the row's hidden state, the other 144 the state times the recurrent weights. From there on the body is
  the cell of the specification, entry by entry; and its accumulator update adds, at slot k, the marked rows'
  new states that carry k. Named here: the block of new hidden states, the block of scores, the stored
  accumulator, a row's slot, and what the point's blocks hold in the specification's terms.
-/
import proofs.«418272_j53223234732113_3_alg».proof.Proof.Gen.KernelIdeal.Skeleton
import proofs.«418272_j53223234732113_3_alg».proof.Proof.Spec
import proofs.«418272_j53223234732113_3_alg».proof.Proof.LibPlainDot
import Idealize.ShloMosaic.Lib.Pipeline.Value
import Idealize.ShloMosaic.Lib.ValueLayout

noncomputable section

open scoped BigOperators

namespace Cert.KernelCell

open Idealize.ShloMosaic Idealize.ShloMosaic.ValueIdx Cert.KernelIdeal Cert.KernelIdeal.Gen Cert.Gru

variable (x0 : Vec Ideal S2000x1 .i32) (x1 : Vec Ideal S2000x64 .bf16) (x2 : Vec Ideal S2000x1 .f32)
  (x3 x4 : Vec Ideal S1000x192 .bf16) (x5 : Vec Ideal S64x144 .bf16) (x6 : Vec Ideal S144 .f32)
  (x7 : Vec Ideal S48x24 .bf16) (x8 : Vec Ideal S24 .f32) (x9 : Vec Ideal S24x1 .bf16) (x10 : Vec Ideal S1 .f32)

/-- The block of new hidden states the body computes from its input blocks. -/
def hnPay : FVec Ideal S2000x48 .f32 :=
  k0_pay1 (k0_pay9 x0 x3 x4) (k0_pay12 x1 x5 x6) (k0_pay13 x1 x5 x6) (k0_pay14 x0 x3 x4) (k0_pay15 x0 x3 x4)
    (k0_pay16 x0 x3 x4 x1 x5 x6)
/-- The block of scores the body stores. -/
def outPay : FVec Ideal S2000x1 .f32 :=
  k0_pay3 (k0_pay9 x0 x3 x4) (k0_pay12 x1 x5 x6) (k0_pay13 x1 x5 x6) (k0_pay14 x0 x3 x4) (k0_pay15 x0 x3 x4)
    (k0_pay16 x0 x3 x4 x1 x5 x6) x7 x8 x9 x10
/-- The accumulator the body stores, over the accumulator it loaded. -/
def accPay (prev : Vec Ideal S1000x48 .f32) : FVec Ideal S1000x48 .f32 :=
  k0_pay4 (k0_pay7 x0) (k0_pay9 x0 x3 x4) (k0_pay12 x1 x5 x6) (k0_pay13 x1 x5 x6) (k0_pay14 x0 x3 x4) (k0_pay15 x0 x3 x4)
    (k0_pay16 x0 x3 x4 x1 x5 x6) x2 prev

/-- Row r's slot, read off the block of id words (modulo 1000: the identity on the domain). -/
def sl (r : Fin 2000) : Fin 1000 := ⟨(x0 (ix2 r 0)).toNat % 1000, Nat.mod_lt _ (by norm_num)⟩

/-- What the point's blocks hold, in the specification's terms: ids in range; the first table the bank next to the
    bank times the recurrent weights; the second table zero; the parameters. -/
structure BlockFacts (P : Params) (Sb : Mat 1000 48) : Prop where
  ids_lt : ∀ r : Fin 2000, (x0 (ix2 r 0)).toNat < 1000
  hi_state : ∀ (k : Fin 1000) (q : Fin 48), x3 (ix2 k ⟨q.val, by omega⟩) = Sb (ix2 k q)
  hi_rec : ∀ (k : Fin 1000) (j : Fin 144), x3 (ix2 k ⟨j.val + 48, by omega⟩) = ∑ q : Fin 48, Sb (ix2 k q) * P.U (ix2 q j)
  lo_zero : ∀ i, x4 i = 0
  hW : x5 = P.W
  hb : x6 = P.b
  hdw1 : x7 = P.dw1
  hdb1 : x8 = P.db1
  hdw2 : x9 = P.dw2
  hdb2 : x10 = P.db2

end Cert.KernelCell

end
-- ==== Proof.KernelCellA.lean ====
/-
  The kernel body's arithmetic read at an index: the indicator block, the block of new hidden states, and the
  block of scores.

  The indicator block holds, at (r, k), the number 1 when row r's id word is the word of k, else 0: the comparison
  of two words is a one-bit word, widened and read as a signed integer it is 1 or 0. The product of the indicator
  block with a table picks, for row r, the table's row at slot(r): a sum over k of (1 if slot(r) = k else 0) times
  the table's entry at (k, c) has one surviving term. The slices of the picked rows are the hidden state and its
  three recurrent products; the product of the features with the input weights plus the bias, sliced, are the three
  input terms; and the gates, the candidate and the new state are the specification's, entry by entry.
-/
import proofs.«418272_j53223234732113_3_alg».proof.Proof.KernelCell

noncomputable section

open scoped BigOperators

namespace Cert.KernelCell

open Idealize.ShloMosaic Idealize.ShloMosaic.ValueIdx Cert.KernelIdeal Cert.KernelIdeal.Gen Cert.Gru

/-! ## Reading the layout operations at an index -/

section Layout
variable {α : Type}

/-- A column block [a, 1] broadcast to [a, b] reads, at (p, c), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The indicator -/

/-- The comparison of an in-range id word with the word of k, widened and read as a number: 1 when the word's
    slot is k, else 0. -/
theorem word_ind (w : BitVec 32) (k : Fin 1000) (hw : w.toNat < 1000) :
    (FloatOps.sitofp (F := Ideal) .f32 ((IntOp.cmpi .eq w (BitVec.ofNat 32 k.val)).setWidth 32) : EReal)
      = if (⟨w.toNat % 1000, Nat.mod_lt _ (by norm_num)⟩ : Fin 1000) = k then 1 else 0 := by
  have hk : (BitVec.ofNat 32 k.val).toNat = k.val := by
    rw [BitVec.toNat_ofNat]; have := k.isLt; omega
  by_cases h : w = BitVec.ofNat 32 k.val
  · have hc : IntOp.cmpi .eq w (BitVec.ofNat 32 k.val) = 1#1 := by
      simp only [IntOp.cmpi, h, beq_self_eq_true]; rfl
    have hs : (⟨w.toNat % 1000, Nat.mod_lt _ (by norm_num)⟩ : Fin 1000) = k := by
      apply Fin.ext; show w.toNat % 1000 = k.val; rw [h, hk]; have := k.isLt; omega
    rw [hc, if_pos hs]
    show (((((1#1 : BitVec 1).setWidth 32).toInt : ℝ)) : EReal) = 1
    have : ((1#1 : BitVec 1).setWidth 32).toInt = 1 := by decide
    rw [this]; norm_num
  · have hc : IntOp.cmpi .eq w (BitVec.ofNat 32 k.val) = 0#1 := by
      have : (w == BitVec.ofNat 32 k.val) = false := by simpa using h
      simp only [IntOp.cmpi, this]; rfl
    have hs : ¬ (⟨w.toNat % 1000, Nat.mod_lt _ (by norm_num)⟩ : Fin 1000) = k := by
      intro e
      apply h
      apply BitVec.eq_of_toNat_eq
      rw [hk]
      have e' : w.toNat % 1000 = k.val := congrArg Fin.val e
      omega
    rw [hc, if_neg hs]
    show (((((0#1 : BitVec 1).setWidth 32).toInt : ℝ)) : EReal) = 0
    have : ((0#1 : BitVec 1).setWidth 32).toInt = 0 := by decide
    rw [this]; norm_num

variable (x0 : Vec Ideal S2000x1 .i32) (x1 : Vec Ideal S2000x64 .bf16) (x2 : Vec Ideal S2000x1 .f32)
  (x3 x4 : Vec Ideal S1000x192 .bf16) (x5 : Vec Ideal S64x144 .bf16) (x6 : Vec Ideal S144 .f32)
  (x7 : Vec Ideal S48x24 .bf16) (x8 : Vec Ideal S24 .f32) (x9 : Vec Ideal S24x1 .bf16) (x10 : Vec Ideal S1 .f32)

/-- The indicator block: 1 where row r carries slot k, else 0. -/
theorem onehot_apply' (hids : ∀ r : Fin 2000, (x0 (ix2 r 0)).toNat < 1000) (r : Fin 2000) (k : Fin 1000) :
    k0_pay7 (F := Ideal) x0 (ix2 r k) = if sl x0 r = k then 1 else 0 := by
  unfold k0_pay7
  rw [truncf_apply, sitofp_apply, extui_apply]
  show FloatOps.sitofp (F := Ideal) .f32 ((IntOp.cmpi .eq
      (broadcastTo S2000x1000 (shapeCast S2000x1 x0 shapeCasts_S2000x1_S2000x1) broadcasts_S2000x1_S2000x1000 (ix2 r k))
      (broadcastTo S2000x1000 (iota .tc S1x1000 32 [1] iota_S1x1000_d1_w32) broadcasts_S1x1000_S2000x1000 (ix2 r k))).setWidth 32) = _
  rw [broadcastTo_a1_ab_apply, broadcastTo_1b_ab_apply, shapeCast_self, iota_single_apply]
  exact word_ind (x0 (ix2 r 0)) k (hids r)

/-! ## Picking a table's row -/

/-- The product of an indicator block with a table, into the zero accumulator, is at (p, c) the table's entry
    at (s p, c): one term of the sum over k survives. -/
theorem pick_row {M K N : ℕ} (ind : FVec Ideal ⟨2, ![M, K]⟩ .bf16) (T : FVec Ideal ⟨2, ![K, N]⟩ .bf16) (s : Fin M → Fin K)
    (hind : ∀ (p : Fin M) (k : Fin K), ind (ix2 p k) = if s p = k then 1 else 0) (p : Fin M) (c : Fin N) :
    FloatOps.matmul (DotDims.plain M K N) none ind T (constant ⟨2, ![M, N]⟩ .f32 0x00000000#32) (ix2 p c)
      = T (ix2 (s p) c) := by
  rw [Cert.LibPlainDot.matmul_zero_apply]
  show ∑ k : Fin K, ind (ix2 p k) * T (ix2 k c) = _
  rw [Finset.sum_eq_single (s p)]
  · rw [hind, if_pos rfl, one_mul]
  · intro k _ hk
    rw [hind, if_neg (fun e => hk e.symm), zero_mul]
  · intro h; exact absurd (Finset.mem_univ _) h

/-- The picked rows: at (r, c) the first table's entry at (slot r, c) plus the second's. -/
theorem pay8_apply (hids : ∀ r : Fin 2000, (x0 (ix2 r 0)).toNat < 1000) (r : Fin 2000) (c : Fin 192) :
    k0_pay8 (F := Ideal) x0 x3 x4 (ix2 r c) = x3 (ix2 (sl x0 r) c) + x4 (ix2 (sl x0 r) c) := by
  unfold k0_pay8
  rw [addf_apply, shapeCast_self, shapeCast_self]
  have hd : dot_S2000x1000_S1000x192_S2000x192_1_0_0_1_n_n = DotDims.plain 2000 1000 192 := rfl
  rw [hd]
  exact congrArg₂ (· + ·)
    (pick_row (k0_pay7 x0) x3 (sl x0) (onehot_apply' x0 hids) r c)
    (pick_row (k0_pay7 x0) x4 (sl x0) (onehot_apply' x0 hids) r c)

/-! ## Runs of columns -/

section Slices
variable {α : Type}

/-- A run of columns cut out of a block [a, b] from column o on reads, at (p, c), the block at (p, o + c). -/
theorem slice_cols_apply {a b b' : ℕ} (o : ℕ) (x : (⟨2, ![a, b]⟩ : Shape).Idx → α)
    (h : (⟨2, ![a, b]⟩ : Shape).Slices ![0, o] ⟨2, ![a, b']⟩) (p : Fin a) (c : Fin b') (k : Fin b)
    (hk : k.val = o + c.val) :
    extractStridedSlice ⟨2, ![a, b']⟩ ![0, o] x h (ix2 p c) = x (ix2 p k) := by
  refine extractStridedSlice_apply _ x h (ix2 p c) (ix2 p k) fun ax => ?_
  match ax with
  | ⟨0, _⟩ => show p.val = 0 + p.val; omega
  | ⟨1, _⟩ => exact hk

end Slices

theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

/-- The state columns of the picked rows, when the second table is zero. -/
theorem pay9_apply (hids : ∀ r : Fin 2000, (x0 (ix2 r 0)).toNat < 1000) (hlo : ∀ i, x4 i = 0)
    (r : Fin 2000) (q : Fin 48) :
    k0_pay9 (F := Ideal) x0 x3 x4 (ix2 r q) = x3 (ix2 (sl x0 r) ⟨q.val, by omega⟩) := by
  unfold k0_pay9
  refine (slice_cols_apply 0 _ _ r q ⟨q.val, by omega⟩ (by show q.val = 0 + q.val; omega)).trans ?_
  rw [pay8_apply x0 x3 x4 hids, hlo, add_zero]

/-- The other 144 columns of the picked rows, when the second table is zero. -/
theorem pay10_apply (hids : ∀ r : Fin 2000, (x0 (ix2 r 0)).toNat < 1000) (hlo : ∀ i, x4 i = 0)
    (r : Fin 2000) (j : Fin 144) :
    k0_pay10 (F := Ideal) x0 x3 x4 (ix2 r j) = x3 (ix2 (sl x0 r) ⟨j.val + 48, by omega⟩) := by
  unfold k0_pay10
  refine (slice_cols_apply 48 _ _ r j ⟨j.val + 48, by omega⟩ (by show j.val + 48 = 48 + j.val; omega)).trans ?_
  rw [pay8_apply x0 x3 x4 hids, hlo, add_zero]

/-- The features times the input weights, plus the bias. -/
theorem pay11_apply (r : Fin 2000) (j : Fin 144) :
    k0_pay11 (F := Ideal) x1 x5 x6 (ix2 r j) = (∑ k : Fin 64, x1 (ix2 r k) * x5 (ix2 k j)) + x6 (ix1 j) := by
  unfold k0_pay11
  rw [addf_apply, shapeCast_self, shapeCast_self]
  have hd : dot_S2000x64_S64x144_S2000x144_1_0_0_1_n_n = DotDims.plain 2000 64 144 := rfl
  rw [hd]
  refine congrArg₂ (· + ·) (Cert.LibPlainDot.matmul_zero_apply none x1 x5 (ix2 r j)) ?_
  rw [broadcastTo_1b_ab_apply, shapeCast_a_1a_apply]

/-! ## The cell, entry by entry -/

/-- The body's cell over its six blocks, at an index. -/
theorem pay1_apply (v21 v33 v34 v36 v37 v39 : FVec Ideal S2000x48 .f32) (i : S2000x48.Idx) :
    k0_pay1 v21 v33 v34 v36 v37 v39 i
      = v39 i * v21 i + (one32 - v39 i) * Ideal.tanh (v34 i + Ideal.logistic (v33 i + v36 i) * v37 i) := rfl

section Cell
variable (P : Params) (Sb : Mat 1000 48)

theorem st_apply (hB : BlockFacts x0 x3 x4 x5 x6 x7 x8 x9 x10 P Sb) (r : Fin 2000) (q : Fin 48) :
    k0_pay9 (F := Ideal) x0 x3 x4 (ix2 r q) = Sb (ix2 (sl x0 r) q) :=
  (pay9_apply x0 x3 x4 hB.ids_lt hB.lo_zero r q).trans (hB.hi_state (sl x0 r) q)

theorem gh_apply (hB : BlockFacts x0 x3 x4 x5 x6 x7 x8 x9 x10 P Sb) (r : Fin 2000) (j : Fin 144) :
    k0_pay10 (F := Ideal) x0 x3 x4 (ix2 r j) = gh P (fun q => Sb (ix2 (sl x0 r) q)) j :=
  (pay10_apply x0 x3 x4 hB.ids_lt hB.lo_zero r j).trans (hB.hi_rec (sl x0 r) j)

theorem gx_apply (hW : x5 = P.W) (hb : x6 = P.b) (r : Fin 2000) (j : Fin 144) :
    k0_pay11 (F := Ideal) x1 x5 x6 (ix2 r j) = gx P (fun q => x1 (ix2 r q)) j := by
  rw [pay11_apply, hW, hb]; rfl

theorem v33_apply (hW : x5 = P.W) (hb : x6 = P.b) (r : Fin 2000) (q : Fin 48) :
    k0_pay12 (F := Ideal) x1 x5 x6 (ix2 r q) = gx P (fun q => x1 (ix2 r q)) (colR q) := by
  unfold k0_pay12
  exact (slice_cols_apply 48 _ _ r q (colR q) (by show q.val + 48 = 48 + q.val; omega)).trans
    (gx_apply x1 x5 x6 P hW hb r (colR q))

theorem v34_apply (hW : x5 = P.W) (hb : x6 = P.b) (r : Fin 2000) (q : Fin 48) :
    k0_pay13 (F := Ideal) x1 x5 x6 (ix2 r q) = gx P (fun q => x1 (ix2 r q)) (colH q) := by
  unfold k0_pay13
  exact (slice_cols_apply 96 _ _ r q (colH q) (by show q.val + 96 = 96 + q.val; omega)).trans
    (gx_apply x1 x5 x6 P hW hb r (colH q))

theorem v36_apply (hB : BlockFacts x0 x3 x4 x5 x6 x7 x8 x9 x10 P Sb) (r : Fin 2000) (q : Fin 48) :
    k0_pay14 (F := Ideal) x0 x3 x4 (ix2 r q) = gh P (fun q => Sb (ix2 (sl x0 r) q)) (colR q) := by
  unfold k0_pay14
  exact (slice_cols_apply 48 _ _ r q (colR q) (by show q.val + 48 = 48 + q.val; omega)).trans
    (gh_apply x0 x3 x4 x5 x6 x7 x8 x9 x10 P Sb hB r (colR q))

theorem v37_apply (hB : BlockFacts x0 x3 x4 x5 x6 x7 x8 x9 x10 P Sb) (r : Fin 2000) (q : Fin 48) :
    k0_pay15 (F := Ideal) x0 x3 x4 (ix2 r q) = gh P (fun q => Sb (ix2 (sl x0 r) q)) (colH q) := by
  unfold k0_pay15
  exact (slice_cols_apply 96 _ _ r q (colH q) (by show q.val + 96 = 96 + q.val; omega)).trans
    (gh_apply x0 x3 x4 x5 x6 x7 x8 x9 x10 P Sb hB r (colH q))

theorem v39_apply (hB : BlockFacts x0 x3 x4 x5 x6 x7 x8 x9 x10 P Sb) (r : Fin 2000) (q : Fin 48) :
    k0_pay16 (F := Ideal) x0 x3 x4 x1 x5 x6 (ix2 r q)
      = upd P (fun q => Sb (ix2 (sl x0 r) q)) (fun q => x1 (ix2 r q)) q := by
  unfold k0_pay16
  rw [logistic_apply, addf_apply]
  exact congrArg Ideal.logistic (congrArg₂ (· + ·)
    ((slice_cols_apply 0 _ _ r q (colZ q) (by show q.val = 0 + q.val; omega)).trans
      (gx_apply x1 x5 x6 P hB.hW hB.hb r (colZ q)))
    ((slice_cols_apply 0 _ _ r q (colZ q) (by show q.val = 0 + q.val; omega)).trans
      (gh_apply x0 x3 x4 x5 x6 x7 x8 x9 x10 P Sb hB r (colZ q))))

/-- The new hidden state of row r, entry j: the specification's cell at the bank's row slot(r) and the row's
    features. -/
theorem hnPay_apply' (hB : BlockFacts x0 x3 x4 x5 x6 x7 x8 x9 x10 P Sb) (r : Fin 2000) (j : Fin 48) :
    hnPay x0 x1 x3 x4 x5 x6 (ix2 r j)
      = hnew P (fun q => Sb (ix2 (sl x0 r) q)) (fun q => x1 (ix2 r q)) j := by
  unfold hnPay
  rw [pay1_apply, v39_apply x0 x1 x3 x4 x5 x6 x7 x8 x9 x10 P Sb hB, st_apply x0 x3 x4 x5 x6 x7 x8 x9 x10 P Sb hB,
    v33_apply x1 x5 x6 P hB.hW hB.hb, v34_apply x1 x5 x6 P hB.hW hB.hb,
    v36_apply x0 x3 x4 x5 x6 x7 x8 x9 x10 P Sb hB, v37_apply x0 x3 x4 x5 x6 x7 x8 x9 x10 P Sb hB]
  rfl

end Cell

/-! ## The head -/

/-- The head over the body's cell, at a row. -/
theorem pay3_apply (v21 v33 v34 v36 v37 v39 : FVec Ideal S2000x48 .f32) (v51 : Vec Ideal S48x24 .bf16)
    (v54 : Vec Ideal S24 .f32) (v61 : Vec Ideal S24x1 .bf16) (v64 : Vec Ideal S1 .f32) (r : Fin 2000) :
    k0_pay3 v21 v33 v34 v36 v37 v39 v51 v54 v61 v64 (ix2 r 0)
      = Ideal.logistic ((∑ k : Fin 24,
            max ((∑ i : Fin 48, k0_pay1 v21 v33 v34 v36 v37 v39 (ix2 r i) * v51 (ix2 i k)) + v54 (ix1 k)) zero32
              * v61 (ix2 k 0)) + v64 (ix1 0)) := by
  unfold k0_pay3
  rw [logistic_apply, addf_apply, shapeCast_self, shapeCast_self]
  have hd1 : dot_S2000x48_S48x24_S2000x24_1_0_0_1_n_n = DotDims.plain 2000 48 24 := rfl
  have hd2 : dot_S2000x24_S24x1_S2000x1_1_0_0_1_n_n = DotDims.plain 2000 24 1 := rfl
  rw [hd1, hd2]
  refine congrArg Ideal.logistic (congrArg₂ (· + ·) ?_ ?_)
  · refine (Cert.LibPlainDot.matmul_zero_apply (φ₁ := .bf16) (φ₂ := .bf16) none _ v61 (ix2 r 0)).trans ?_
    refine Finset.sum_congr rfl fun k _ => congrArg₂ (· * ·) ?_ rfl
    rw [truncf_apply, maximumf_apply, addf_apply, broadcast_apply]
    refine congrArg₂ max (congrArg₂ (· + ·) ?_ ?_) rfl
    · exact Cert.LibPlainDot.matmul_zero_apply (φ₁ := .bf16) (φ₂ := .bf16) none (k0_pay2 v21 v33 v34 v36 v37 v39) v51 (ix2 r k)
    · rw [broadcastTo_1b_ab_apply, shapeCast_a_1a_apply]
  · rw [broadcastTo_1b_ab_apply, shapeCast_a_1a_apply]

/-- The score of row r. -/
theorem outPay_apply' (P : Params) (Sb : Mat 1000 48) (hB : BlockFacts x0 x3 x4 x5 x6 x7 x8 x9 x10 P Sb)
    (r : Fin 2000) :
    outPay x0 x1 x3 x4 x5 x6 x7 x8 x9 x10 (ix2 r 0)
      = score P (fun q => Sb (ix2 (sl x0 r) q)) (fun q => x1 (ix2 r q)) := by
  unfold outPay
  rw [pay3_apply, hB.hdw1, hB.hdb1, hB.hdw2, hB.hdb2]
  unfold score Cert.Gru.hidden
  exact congrArg Ideal.logistic (congrArg₂ (· + ·)
    (Finset.sum_congr rfl fun k _ => congrArg₂ (· * ·)
      (congrArg₂ max (congrArg₂ (· + ·)
        (Finset.sum_congr rfl fun i _ => congrArg₂ (· * ·)
          (hnPay_apply' x0 x1 x3 x4 x5 x6 x7 x8 x9 x10 P Sb hB r i) rfl) rfl) rfl) rfl) rfl)

end Cert.KernelCell

end
-- ==== Proof.LibTransDot.lean ====
/-
  The matrix product that contracts the first axis of both operands, read at an index.

  For the contraction pattern "inner × rows" by "inner × columns" (left axis 0 against right axis 0, the other
  axis of each operand kept, no batch axis), the product into a zero accumulator is at output index (p, q) the
  sum over the inner coordinate k of l(k, p) · r(k, q). The contraction's own index type has one axis of extent
  K; the sum is re-indexed through the bijection of that type with `Fin K`.
  Nothing here depends on a program: the three extents are variables, and the pattern's well-formedness is
  whatever proof of it a program carries.
-/
import Idealize.ShloMosaic.PureOps.Ideal.Laws
import Idealize.ShloMosaic.Lib.ValueIdx

noncomputable section

open scoped BigOperators

namespace Cert.LibTransDot

open Idealize.ShloMosaic Idealize.ShloMosaic.ValueIdx

variable {M K N : Nat}

/-- The pattern: a K×M operand against a K×N operand, both contracted on axis 0, over any proof that the pattern
    is well formed. -/
abbrev dims (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩

variable (w : DotDims.WF ⟨2, ![K, M]⟩ ⟨2, ![K, N]⟩ ⟨2, ![M, N]⟩ [0] [0] [1] [1] [] [])

/-- The pattern contracts exactly one axis. -/
theorem contr_rank : (dims w).contr.rank = 1 := rfl

/-- That axis has the inner extent. -/
theorem contr_size : (dims w).contr.size ⟨0, by rw [contr_rank]; exact Nat.one_pos⟩ = K := rfl

/-- The bijection of the contraction's index type with the inner coordinate. -/
abbrev inner : (dims w).contr.Idx ≃ Fin K := contrEquiv1 (dims w) K (contr_rank w) (contr_size w)

/-- At output index j and inner coordinate k the left operand is read at (k, j₀). -/
theorem lhsIdx_inner (j : (⟨2, ![M, N]⟩ : Shape).Idx) (k : Fin K) :
    (dims w).lhsIdx j ((inner w).symm k) = ix2 k (j 0) := by
  funext a
  match a with
  | ⟨0, _⟩ =>
    apply Fin.ext
    exact ((dims w).lhsIdx_val_of_single (cl := 0) rfl j ((inner w).symm k)).trans
      (contrEquiv1_symm_val (dims w) K (contr_rank w) (contr_size w) k)
  | ⟨1, _⟩ => rfl

/-- At output index j and inner coordinate k the right operand is read at (k, j₁). -/
theorem rhsIdx_inner (j : (⟨2, ![M, N]⟩ : Shape).Idx) (k : Fin K) :
    (dims w).rhsIdx j ((inner w).symm k) = ix2 k (j 1) := by
  funext a
  match a with
  | ⟨0, _⟩ =>
    apply Fin.ext
    exact ((dims w).rhsIdx_val_of_single (cr := 0) rfl j ((inner w).symm k)).trans
      (contrEquiv1_symm_val (dims w) K (contr_rank w) (contr_size w) k)
  | ⟨1, _⟩ => rfl

/-- The contraction's sum, over the inner coordinate. -/
theorem sum_inner (l : (⟨2, ![K, M]⟩ : Shape).Idx → EReal) (r : (⟨2, ![K, N]⟩ : Shape).Idx → EReal)
    (j : (⟨2, ![M, N]⟩ : Shape).Idx) :
    ∑ k : (dims w).contr.Idx, l ((dims w).lhsIdx j k) * r ((dims w).rhsIdx j k)
      = ∑ k : Fin K, l (ix2 k (j 0)) * r (ix2 k (j 1)) := by
  rw [← Equiv.sum_comp (inner w).symm]
  exact Finset.sum_congr rfl fun k _ =>
    congrArg₂ (· * ·) (congrArg l (lhsIdx_inner w j k)) (congrArg r (rhsIdx_inner w j k))

/-- A kernel's product into the zero accumulator, at an index. -/
theorem matmul_zero_apply {φ₁ φ₂ : FTy} (prec : Option ContractPrecision)
    (l : FVec Ideal ⟨2, ![K, M]⟩ φ₁) (r : FVec Ideal ⟨2, ![K, N]⟩ φ₂) (j : (⟨2, ![M, N]⟩ : Shape).Idx) :
    FloatOps.matmul (dims w) prec l r (constant ⟨2, ![M, N]⟩ .f32 0x00000000#32) j
      = ∑ k : Fin K, l (ix2 k (j 0)) * r (ix2 k (j 1)) :=
  (Ideal.matmul_constant_zero_apply (dims w) prec l r j).trans (sum_inner w l r j)

end Cert.LibTransDot

end
-- ==== Proof.KernelCellB.lean ====
/-
  The accumulator update of the kernel body, read at an index.

  The body multiplies the indicator block "row r carries slot k" by the marks column spread along the slots, and
  contracts the product, over the rows, with the block of new hidden states, twice: once with the states
  themselves and once with their difference with themselves, which is zero as soon as the states are real
  numbers. What is added to the loaded accumulator at (k, j) is therefore the sum, over the rows r that carry k
  and are marked, of the new state of r at j.
-/
import proofs.«418272_j53223234732113_3_alg».proof.Proof.KernelCell
import proofs.«418272_j53223234732113_3_alg».proof.Proof.SpecFacts
import proofs.«418272_j53223234732113_3_alg».proof.Proof.LibTransDot

noncomputable section

open scoped BigOperators

namespace Cert.KernelCell

open Idealize.ShloMosaic Idealize.ShloMosaic.ValueIdx Cert.KernelIdeal Cert.KernelIdeal.Gen Cert.Gru

variable (x0 : Vec Ideal S2000x1 .i32) (x1 : Vec Ideal S2000x64 .bf16) (x2 : Vec Ideal S2000x1 .f32)
  (x3 x4 : Vec Ideal S1000x192 .bf16) (x5 : Vec Ideal S64x144 .bf16) (x6 : Vec Ideal S144 .f32)

/-- The body's product that contracts the rows, into the zero accumulator, at (p, q): the sum over the rows t of
    l(t, p) · r(t, q). -/
theorem rowsDot_apply (l : FVec Ideal S2000x1000 .bf16) (r : FVec Ideal S2000x48 .bf16) (p : Fin 1000) (q : Fin 48) :
    FloatOps.matmul dot_S2000x1000_S2000x48_S1000x48_0_0_1_1_n_n none l r (constant S1000x48 .f32 0x00000000#32) (ix2 p q)
      = ∑ t : Fin 2000, l (ix2 t p) * r (ix2 t q) :=
  LibTransDot.matmul_zero_apply (M := 1000) (K := 2000) (N := 48)
    Facts₀.dot_S2000x1000_S2000x48_S1000x48_0_0_1_1_n_n_wf none l r (ix2 p q)

/-- The indicator block times the marks column spread along the slots. -/
def markPay : FVec Ideal S2000x1000 .bf16 :=
  mulf (k0_pay7 x0) (broadcastTo S2000x1000
    (truncf .bf16 (shapeCast S2000x1 x2 shapeCasts_S2000x1_S2000x1) bitsLt_bf16_f32) broadcasts_S2000x1_S2000x1000)

/-- The marks column spread along the slots, at (r, k): row r's mark. -/
theorem marks_apply (r : Fin 2000) (k : Fin 1000) :
    broadcastTo S2000x1000 (truncf (F := Ideal) .bf16 (shapeCast S2000x1 x2 shapeCasts_S2000x1_S2000x1) bitsLt_bf16_f32)
      broadcasts_S2000x1_S2000x1000 (ix2 r k) = x2 (ix2 r 0) := by
  rw [shapeCast_self]
  exact broadcastTo_apply _ _ (ix2 r k) (ix2 r 0) fun a => match a with
    | ⟨0, _⟩ => rfl
    | ⟨1, _⟩ => rfl

/-- The product block at (r, k): 1 where row r carries slot k and is marked, else 0. -/
theorem markPay_apply (hoh : ∀ r k, k0_pay7 (F := Ideal) x0 (ix2 r k) = if sl x0 r = k then 1 else 0)
    (L : Fin 2000 → Prop) [DecidablePred L] (hL : ∀ r : Fin 2000, x2 (ix2 r 0) = if L r then 1 else 0)
    (r : Fin 2000) (k : Fin 1000) :
    markPay x0 x2 (ix2 r k) = if sl x0 r = k ∧ L r then (1 : EReal) else 0 := by
  unfold markPay
  rw [mulf_apply, marks_apply, hoh, hL]
  by_cases h1 : sl x0 r = k <;> by_cases h2 : L r <;> simp [h1, h2]

/-- The accumulator the body stores, spelled over the product block and the block of new states. -/
theorem accPay_eq (prev : Vec Ideal S1000x48 .f32) :
    accPay x0 x1 x2 x3 x4 x5 x6 prev
      = shapeCast S1000x48 (addf prev (addf
          (matmul dot_S2000x1000_S2000x48_S1000x48_0_0_1_1_n_n none (markPay x0 x2)
            (truncf .bf16 (hnPay x0 x1 x3 x4 x5 x6) bitsLt_bf16_f32) (constant S1000x48 .f32 0x00000000#32))
          (matmul dot_S2000x1000_S2000x48_S1000x48_0_0_1_1_n_n none (markPay x0 x2)
            (truncf .bf16 (subf (hnPay x0 x1 x3 x4 x5 x6) (hnPay x0 x1 x3 x4 x5 x6)) bitsLt_bf16_f32)
            (constant S1000x48 .f32 0x00000000#32)))) shapeCasts_S1000x48_S1000x48 := rfl

/-- The accumulator update at (k, j): the loaded accumulator plus the marked rows' new states that carry k — given
    the indicator block's entries, that the marks are 0 or 1 (L the marked rows) and that the new states are real
    numbers (their difference with themselves, which the body also multiplies in, is then zero). -/
theorem accPay_apply' (hoh : ∀ r k, k0_pay7 (F := Ideal) x0 (ix2 r k) = if sl x0 r = k then 1 else 0)
    (L : Fin 2000 → Prop) [DecidablePred L] (hL : ∀ r : Fin 2000, x2 (ix2 r 0) = if L r then 1 else 0)
    (hfin : ∀ (r : Fin 2000) (j : Fin 48), ∃ v : ℝ, hnPay x0 x1 x3 x4 x5 x6 (ix2 r j) = (v : EReal))
    (prev : Vec Ideal S1000x48 .f32) (k : Fin 1000) (j : Fin 48) :
    accPay x0 x1 x2 x3 x4 x5 x6 prev (ix2 k j)
      = prev (ix2 k j) + ∑ r : Fin 2000, (if sl x0 r = k ∧ L r then (1 : EReal) else 0) * hnPay x0 x1 x3 x4 x5 x6 (ix2 r j) := by
  rw [accPay_eq, shapeCast_self, addf_apply, addf_apply]
  simp only [matmul]
  rw [rowsDot_apply, rowsDot_apply]
  have hzero : ∑ t : Fin 2000, markPay x0 x2 (ix2 t k)
      * (truncf (F := Ideal) .bf16 (subf (hnPay x0 x1 x3 x4 x5 x6) (hnPay x0 x1 x3 x4 x5 x6)) bitsLt_bf16_f32) (ix2 t j) = 0 :=
    Finset.sum_eq_zero fun t _ => by
      rw [truncf_apply, subf_apply, sub_self_of_real (hfin t j), mul_zero]
  rw [hzero, add_zero]
  refine congrArg (prev (ix2 k j) + ·) (Finset.sum_congr rfl fun t _ => ?_)
  rw [markPay_apply x0 x2 hoh L hL t k, truncf_apply]

end Cert.KernelCell

end
-- ==== Proof.PointMath.lean ====
/-
  One grid point's arithmetic, in the specification's terms.

  Tile t holds rows 2000·t, …, 2000·t + 1999 of the batch: their id words, their features and their last-row
  marks; next to them whole copies of the tables and the parameters. A row's slot read off the block of id words is
  its slot in the batch, so the bank's row at that slot is the row's hidden state, and the block's row of features
  is the row's features. Hence the block of scores the point computes holds the specification's scores of the
  tile's rows, its block of new states their new states, and its accumulator update adds, at slot k, the tile's
  contribution to k: the sum of the new states of the tile's rows that carry k and are last rows. The new states
  are real numbers as soon as the bank's entries are.
-/
import proofs.«418272_j53223234732113_3_alg».proof.Proof.KernelCellA
import proofs.«418272_j53223234732113_3_alg».proof.Proof.KernelCellB
import proofs.«418272_j53223234732113_3_alg».proof.Proof.SpecFacts
import proofs.«418272_j53223234732113_3_alg».proof.Proof.Spec

noncomputable section

open scoped BigOperators

namespace Cert.PointMath

open Idealize.ShloMosaic Idealize.ShloMosaic.ValueIdx Cert.KernelIdeal Cert.KernelIdeal.Gen Cert.Gru Cert.KernelCell

variable (P : Params) (ids : (⟨1, ![1000000]⟩ : Shape).Idx → BitVec 32) (X : Mat 1000000 64) (S : Mat 1000 48) (t : Nat)
variable (x0 : Vec Ideal S2000x1 .i32) (x1 : Vec Ideal S2000x64 .bf16) (x2 : Vec Ideal S2000x1 .f32)
  (x3 x4 : Vec Ideal S1000x192 .bf16) (x5 : Vec Ideal S64x144 .bf16) (x6 : Vec Ideal S144 .f32)
  (x7 : Vec Ideal S48x24 .bf16) (x8 : Vec Ideal S24 .f32) (x9 : Vec Ideal S24x1 .bf16) (x10 : Vec Ideal S1 .f32)

/-- What the point's blocks hold: the tables and the parameters; and for each of its 2000 rows the id word, the
    features and the last-row mark of row 2000·t + r of the batch. -/
structure PointFacts : Prop where
  hB : BlockFacts x0 x3 x4 x5 x6 x7 x8 x9 x10 P S
  hx0 : ∀ r : Fin 2000, x0 (ix2 r 0) = ids (ix1 (row (2000 * t + r.val)))
  hx1 : ∀ (r : Fin 2000) (q : Fin 64), x1 (ix2 r q) = X (ix2 (row (2000 * t + r.val)) q)
  hx2 : ∀ r : Fin 2000, x2 (ix2 r 0) = if IsLast ids (row (2000 * t + r.val)) then (1 : EReal) else 0

variable (hF : PointFacts P ids X S t x0 x1 x2 x3 x4 x5 x6 x7 x8 x9 x10)
include hF

/-- The slot read off the block is the row's slot in the batch. -/
theorem sl_eq (r : Fin 2000) : sl x0 r = slot ids (row (2000 * t + r.val)) := by
  apply Fin.ext
  show (x0 (ix2 r 0)).toNat % 1000 = (ids (ix1 (row (2000 * t + r.val)))).toNat % 1000
  rw [hF.hx0]

/-- The bank's row at the block's slot is the row's hidden state. -/
theorem state_eq (r : Fin 2000) :
    (fun q : Fin 48 => S (ix2 (sl x0 r) q)) = stateRow ids S (row (2000 * t + r.val)) := by
  rw [sl_eq P ids X S t x0 x1 x2 x3 x4 x5 x6 x7 x8 x9 x10 hF r]
  rfl

/-- The block's row of features is the row's features. -/
theorem feat_eq (r : Fin 2000) : (fun q : Fin 64 => x1 (ix2 r q)) = featRow X (row (2000 * t + r.val)) :=
  funext fun q => hF.hx1 r q

/-- The point's new states are the tile's rows' new states. -/
theorem hn_point (r : Fin 2000) (j : Fin 48) :
    hnPay x0 x1 x3 x4 x5 x6 (ix2 r j) = H P ids X S (row (2000 * t + r.val)) j := by
  rw [hnPay_apply' x0 x1 x3 x4 x5 x6 x7 x8 x9 x10 P S hF.hB r j,
    state_eq P ids X S t x0 x1 x2 x3 x4 x5 x6 x7 x8 x9 x10 hF r,
    feat_eq P ids X S t x0 x1 x2 x3 x4 x5 x6 x7 x8 x9 x10 hF r]
  rfl

/-- The point's scores are the tile's rows' scores. -/
theorem out_point (r : Fin 2000) :
    outPay x0 x1 x3 x4 x5 x6 x7 x8 x9 x10 (ix2 r 0) = outArr P ids X S (ix2 (row (2000 * t + r.val)) 0) := by
  rw [outPay_apply' x0 x1 x3 x4 x5 x6 x7 x8 x9 x10 P S hF.hB r,
    state_eq P ids X S t x0 x1 x2 x3 x4 x5 x6 x7 x8 x9 x10 hF r,
    feat_eq P ids X S t x0 x1 x2 x3 x4 x5 x6 x7 x8 x9 x10 hF r]
  rfl

/-- The point's new states are real numbers when the bank's entries are. -/
theorem hn_real (hS : Cert.Gru.Finite S) (r : Fin 2000) (j : Fin 48) :
    ∃ v : ℝ, hnPay x0 x1 x3 x4 x5 x6 (ix2 r j) = (v : EReal) := by
  rw [hn_point P ids X S t x0 x1 x2 x3 x4 x5 x6 x7 x8 x9 x10 hF r j]
  exact hnew_real P _ _ (fun q => hS (ix2 (slot ids (row (2000 * t + r.val))) q)) j

/-- The point's accumulator update adds the tile's contribution. -/
theorem acc_point (hS : Cert.Gru.Finite S) (prev : Vec Ideal S1000x48 .f32) (k : Fin 1000) (j : Fin 48) :
    accPay x0 x1 x2 x3 x4 x5 x6 prev (ix2 k j) = prev (ix2 k j) + contrib P ids X S t k j := by
  rw [accPay_apply' x0 x1 x2 x3 x4 x5 x6 (onehot_apply' x0 hF.hB.ids_lt)
    (fun r : Fin 2000 => IsLast ids (row (2000 * t + r.val))) hF.hx2
    (hn_real P ids X S t x0 x1 x2 x3 x4 x5 x6 x7 x8 x9 x10 hF hS) prev k j]
  unfold contrib
  refine congrArg (prev (ix2 k j) + ·) (Finset.sum_congr rfl fun r _ => ?_)
  rw [sl_eq P ids X S t x0 x1 x2 x3 x4 x5 x6 x7 x8 x9 x10 hF r,
    hn_point P ids X S t x0 x1 x2 x3 x4 x5 x6 x7 x8 x9 x10 hF r j]
  rfl

end Cert.PointMath

end
-- ==== Proof.KernelPoint.lean ====
/-
  One grid point's blocks, in the specification's terms.

  At point t the kernel's windows hold: rows 2000 · t, …, 2000 · t + 1999 of the id column, of the features and
  of the last-row marks; whole copies of the two tables and of the parameters. Read through what the program
  computed before the kernel region, these are the specification's ids, features and marks of the tile's rows,
  the table [bank | bank · U], the zero table, and the parameters. The flag word the body reads at point t is not
  zero exactly when tile t holds a last row.
-/
import proofs.«418272_j53223234732113_3_alg».proof.Proof.KernelBlocks
import proofs.«418272_j53223234732113_3_alg».proof.Proof.KernelHostA
import proofs.«418272_j53223234732113_3_alg».proof.Proof.KernelHostB
import proofs.«418272_j53223234732113_3_alg».proof.Proof.PointMath

noncomputable section

open scoped BigOperators

namespace Cert.KernelPoint

open Idealize.ShloMosaic Idealize.ShloMosaic.TcCoe Idealize.SL.Sem Idealize.ShloMosaic.ValueIdx
open Cert.KernelIdeal Cert.KernelIdeal.Gen Cert.Gru Cert.KernelHost Cert.KernelBlocks

variable (m : (ℓ : Loc nD τ sig) → Buf (Elt Ideal) ℓ) (c : Dev nD)

/-- Row 2000 · t + r of a tile t below 500 is a row of the batch: reading its number modulo the batch size changes
    nothing. -/
theorem row_eq (t : Nat) (ht : t < 500) (r : Fin 2000) :
    row (2000 * t + r.val) = ⟨2000 * t + r.val, by have := r.isLt; omega⟩ := by
  apply Fin.ext
  show (2000 * t + r.val) % 1000000 = 2000 * t + r.val
  exact Nat.mod_eq_of_lt (by have := r.isLt; omega)

/-- What the blocks of point t hold, in the specification's terms. -/
theorem pointFacts (hO : Ok m) (hR : InRange (ids m c)) (hS : Cert.Gru.Finite (bank m c))
    (hU : Cert.Gru.Finite (params m c).U) (t : Fin (cfgM m hO).N) :
    Cert.PointMath.PointFacts (params m c) (ids m c) (feats m c) (bank m c) t.val
      (iblk m hO c 0 t : Vec Ideal S2000x1 .i32) (iblk m hO c 1 t : Vec Ideal S2000x64 .bf16)
      (iblk m hO c 2 t : Vec Ideal S2000x1 .f32) (iblk m hO c 3 t : Vec Ideal S1000x192 .bf16)
      (iblk m hO c 4 t : Vec Ideal S1000x192 .bf16) (iblk m hO c 5 t : Vec Ideal S64x144 .bf16)
      (iblk m hO c 6 t : Vec Ideal S144 .f32) (iblk m hO c 7 t : Vec Ideal S48x24 .bf16)
      (iblk m hO c 8 t : Vec Ideal S24 .f32) (iblk m hO c 9 t : Vec Ideal S24x1 .bf16)
      (iblk m hO c 10 t : Vec Ideal S1 .f32) := by
  have hN : (cfgM m hO).N = 500 := N_0
  have ht : t.val < 500 := by have := t.isLt; omega
  -- row r of the id block is the id of row 2000 · t + r
  have e0 : ∀ r : Fin 2000, (iblk m hO c 0 t : Vec Ideal S2000x1 .i32) (ix2 r 0)
      = ids m c (ix1 ⟨2000 * t.val + r.val, by have := r.isLt; omega⟩) :=
    fun r => (iblk0_apply m hO c t r).trans (V_idcol' m c _)
  refine ⟨⟨?_, ?_, ?_, ?_, ?_, ?_, ?_, ?_, ?_, ?_⟩, ?_, ?_, ?_⟩
  · exact fun r => lt_of_eq_of_lt (congrArg BitVec.toNat (e0 r)) (hR _)
  · exact fun k q => (congrFun (iblk3_eq m hO c t) _).trans (V_table_state' m c k q)
  · exact fun k j => (congrFun (iblk3_eq m hO c t) _).trans (V_table_rec' m c k j)
  · exact fun i => (congrFun (iblk4_eq m hO c t) i).trans (V_table_lo' m c hS hU i)
  · exact (iblk5_eq m hO c t).trans (V_W' m c)
  · exact (iblk6_eq m hO c t).trans (V_main_arg5 m c)
  · exact (iblk7_eq m hO c t).trans (V_dw1' m c)
  · exact (iblk8_eq m hO c t).trans (V_main_arg7 m c)
  · exact (iblk9_eq m hO c t).trans (V_dw2' m c)
  · exact (iblk10_eq m hO c t).trans (V_main_arg9 m c)
  · intro r
    rw [row_eq t.val ht r]
    exact e0 r
  · intro r q
    rw [row_eq t.val ht r]
    exact (iblk1_apply m hO c t r q).trans (congrFun (V_feats' m c) _)
  · intro r
    rw [row_eq t.val ht r]
    exact (iblk2_apply m hO c t r).trans (V_marks' m c hR _)

/-- The body's branch on the flag word at point t is taken exactly when tile t holds a last row. -/
theorem flag_iff (hO : Ok m) (hR : InRange (ids m c)) (t : Fin (cfgM m hO).N) :
    cond0_1 (grid0.coords t)
        (tbM0_0.view.readAt (Elt Ideal)
          (Rect.unit (s := S500) (k0_off1 (grid0.coords t)) S1.size (k0_off1_inb (grid0.coords t))).toLoadRect
          (tbl m 0) (Shape.Idx.first (numel1_S1.symm ▸ Nat.one_pos)))
      ↔ TileHasLast (ids m c) t.val := by
  -- the word read is entry t of the table of flags, which is 1 when tile t holds a last row and 0 otherwise
  have e := (flagWord_eq m c t).trans (tbl_flags' m c hR ⟨t.val, t.isLt⟩)
  refine (cond0_1_iff _ _).trans ⟨fun hne => ?_, fun hT hz => ?_⟩
  · by_contra hT
    exact hne (e.trans (if_neg hT))
  · have h10 : (1#32 : BitVec 32) = 0#32 := (e.trans (if_pos hT)).symm.trans hz
    exact absurd h10 (by decide)

end Cert.KernelPoint

end
-- ==== Proof.KernelCover.lean ====
/-
  The two output windows of the kernel cover their arrays, and what a block of each reads off an array.

  The first output array has 1000000 rows of one entry; point t of the 500 writes back rows 2000·t … 2000·t + 1999.
  The second has 2 × 1000 × 48 entries; the points of each half share one block, the half's 1000 × 48 slab, written
  back at the half's last point (t ≡ 249 mod 250).
-/
import proofs.«418272_j53223234732113_3_alg».proof.Proof.Gen.KernelIdeal.Frame.Runs
import Idealize.ShloMosaic.Lib.Pipeline.Value
import Idealize.ShloMosaic.Lib.ValueIdx

set_option maxRecDepth 16384

noncomputable section

namespace Cert.KernelCover

open Cert.KernelIdeal Cert.KernelIdeal.Gen Idealize.ShloMosaic Idealize.ShloMosaic.TcCoe Idealize.ShloMosaic.ValueIdx
open Idealize.ShloMosaic.Pipeline (Dat)

variable {F : FTy → Type} [FloatOps F]
variable (m : (ℓ : Loc nD τ sig) → Buf (Elt F) ℓ) (hO : Ok m)

/-- Window 11's block index at point t is (t, 0). -/
theorem idx11 : ∀ t : Fin (cfgM m hO).N,
    ((cfgM m hO).win 11).index t (0 : Fin 2) = t.val ∧ ((cfgM m hO).win 11).index t (1 : Fin 2) = 0 :=
  (by decide +kernel : ∀ t : Fin grid0.N,
    cc0_transform_11 (grid0.coords t) (0 : Fin 2) = t.val ∧ cc0_transform_11 (grid0.coords t) (1 : Fin 2) = 0)

/-- Every index of the first output array lies in the block of the point (row / 2000), which writes back. -/
theorem cover11 (i : S1000000x1.Idx) : ∃ t : Fin (cfgM m hO).N,
    ((cfgM m hO).win 11).flush t = true ∧ i ∈ (((cfgM m hO).win 11).blk t).view.set := by
  have hN : (cfgM m hO).N = 500 := N_0
  have h0 : (i 0).val < 1000000 := (i 0).isLt
  have hlt : (i 0).val / 2000 < (cfgM m hO).N := by rw [hN]; omega
  obtain ⟨t, ht⟩ : ∃ t : Fin (cfgM m hO).N, t.val = (i 0).val / 2000 := ⟨⟨_, hlt⟩, rfl⟩
  refine ⟨t, flush0_11 (adm m hO) t, ?_⟩
  have hy : (((cfgM m hO).win 11).blk t).view.emb
      (ix2 ⟨(i 0).val % 2000, Nat.mod_lt _ (by decide)⟩ (i 1) : S2000x1.Idx) = i := by
    funext a
    apply Fin.ext
    obtain ⟨e0, e1⟩ := idx11 m hO t
    match a with
    | ⟨0, _⟩ =>
      show ((cfgM m hO).win 11).index t (0 : Fin 2) * 2000 + 1 * ((i 0).val % 2000) = (i 0).val
      rw [e0]; omega
    | ⟨1, _⟩ =>
      show ((cfgM m hO).win 11).index t (1 : Fin 2) * 1 + 1 * (i 1).val = (i 1).val
      rw [e1]; omega
  exact Eq.mp (congrArg (fun j => j ∈ (((cfgM m hO).win 11).blk t).view.set) hy) (View.emb_mem_set _ _)

/-- Block t of the first output array, read at row r: the array's entry at row 2000·t + r. -/
theorem read11 (c : Dev nD) (G : Buf (Elt F) (((cfgM m hO).win 11).arr.view.loc (c.tc : Thread nD τ)))
    (t : Fin (cfgM m hO).N) (r : Fin 2000) :
    ((((cfgM m hO).win 11).blk t).view.read (Elt F) G : S2000x1.Idx → Elt F .f32) (ix2 r 0)
      = (G : S1000000x1.Idx → Elt F .f32)
          (ix2 ⟨2000 * t.val + r.val, by
            have hN : (cfgM m hO).N = 500 := N_0
            have := t.isLt; have := r.isLt; omega⟩ 0) := by
  show (G : S1000000x1.Idx → Elt F .f32) _ = _
  congr 1
  funext a
  apply Fin.ext
  obtain ⟨e0, e1⟩ := idx11 m hO t
  match a with
  | ⟨0, _⟩ =>
    show ((cfgM m hO).win 11).index t (0 : Fin 2) * 2000 + 1 * r.val = 2000 * t.val + r.val
    rw [e0]; omega
  | ⟨1, _⟩ =>
    show ((cfgM m hO).win 11).index t (1 : Fin 2) * 1 + 1 * 0 = 0
    rw [e1]

/-- Window 12's block index at point t is (t / 250, 0, 0). -/
theorem idx12 : ∀ t : Fin (cfgM m hO).N,
    ((cfgM m hO).win 12).index t (0 : Fin 3) = t.val / 250 ∧ ((cfgM m hO).win 12).index t (1 : Fin 3) = 0
      ∧ ((cfgM m hO).win 12).index t (2 : Fin 3) = 0 :=
  (by decide +kernel : ∀ t : Fin grid0.N,
    cc0_transform_12 (grid0.coords t) (0 : Fin 3) = t.val / 250 ∧ cc0_transform_12 (grid0.coords t) (1 : Fin 3) = 0
      ∧ cc0_transform_12 (grid0.coords t) (2 : Fin 3) = 0)

/-- Every index of the second output array lies in the block of the last point of its half, which writes back. -/
theorem cover12 (i : S2x1000x48.Idx) : ∃ t : Fin (cfgM m hO).N,
    ((cfgM m hO).win 12).flush t = true ∧ i ∈ (((cfgM m hO).win 12).blk t).view.set := by
  have hN : (cfgM m hO).N = 500 := N_0
  have h0 : (i 0).val < 2 := (i 0).isLt
  have hlt : 250 * (i 0).val + 249 < (cfgM m hO).N := by rw [hN]; omega
  obtain ⟨t, ht⟩ : ∃ t : Fin (cfgM m hO).N, t.val = 250 * (i 0).val + 249 := ⟨⟨_, hlt⟩, rfl⟩
  refine ⟨t, (flush0_12 (adm m hO) t).mpr (by omega), ?_⟩
  have hy : (((cfgM m hO).win 12).blk t).view.emb (ix3 0 (i 1) (i 2) : S1x1000x48.Idx) = i := by
    funext a
    apply Fin.ext
    obtain ⟨e0, e1, e2⟩ := idx12 m hO t
    match a with
    | ⟨0, _⟩ =>
      show ((cfgM m hO).win 12).index t (0 : Fin 3) * 1 + 1 * 0 = (i 0).val
      rw [e0]; omega
    | ⟨1, _⟩ =>
      show ((cfgM m hO).win 12).index t (1 : Fin 3) * 1000 + 1 * (i 1).val = (i 1).val
      rw [e1]; omega
    | ⟨2, _⟩ =>
      show ((cfgM m hO).win 12).index t (2 : Fin 3) * 48 + 1 * (i 2).val = (i 2).val
      rw [e2]; omega
  exact Eq.mp (congrArg (fun j => j ∈ (((cfgM m hO).win 12).blk t).view.set) hy) (View.emb_mem_set _ _)

/-- Block t of the second output array (t the last point of a half), read at (0, k, j): the array's entry at
    (t / 250, k, j). -/
theorem read12 (c : Dev nD) (G : Buf (Elt F) (((cfgM m hO).win 12).arr.view.loc (c.tc : Thread nD τ)))
    (t : Fin (cfgM m hO).N) (ht : t.val % 250 = 249) (k : Fin 1000) (j : Fin 48) :
    ((((cfgM m hO).win 12).blk t).view.read (Elt F) G : S1x1000x48.Idx → Elt F .f32) (ix3 0 k j)
      = (G : S2x1000x48.Idx → Elt F .f32)
          (ix3 ⟨t.val / 250, by
            have hN : (cfgM m hO).N = 500 := N_0
            have := t.isLt; omega⟩ k j) := by
  show (G : S2x1000x48.Idx → Elt F .f32) _ = _
  congr 1
  funext a
  apply Fin.ext
  obtain ⟨e0, e1, e2⟩ := idx12 m hO t
  match a with
  | ⟨0, _⟩ =>
    show ((cfgM m hO).win 12).index t (0 : Fin 3) * 1 + 1 * 0 = t.val / 250
    rw [e0]; omega
  | ⟨1, _⟩ =>
    show ((cfgM m hO).win 12).index t (1 : Fin 3) * 1000 + 1 * k.val = k.val
    rw [e1]; omega
  | ⟨2, _⟩ =>
    show ((cfgM m hO).win 12).index t (2 : Fin 3) * 48 + 1 * j.val = j.val
    rw [e2]; omega

end Cert.KernelCover

end
-- ==== Proof.KernelFinal.lean ====
/-
  The two result arrays after the run, from what each point leaves.

  The score column is cut in 500 blocks of 2000 rows; point t writes block t back, so if what every point
  leaves is rows 2000 · t, …, 2000 · t + 1999 of one column G, the array ends holding G. The pair of accumulated
  banks is cut in two blocks of one bank each; the points numbered 249 modulo 250 write block t / 250 back, so if
  what each of them leaves is bank t / 250 of one array G, the array ends holding G.
-/
import proofs.«418272_j53223234732113_3_alg».proof.Proof.Gen.KernelIdeal.Frame
import proofs.«418272_j53223234732113_3_alg».proof.Proof.KernelCover
import Idealize.ShloMosaic.Lib.Pipeline.Value
import Idealize.ShloMosaic.Lib.ValueIdx

noncomputable section

namespace Cert.KernelFinal

open Idealize.ShloMosaic Idealize.ShloMosaic.TcCoe Idealize.SL.Sem Idealize.ShloMosaic.ValueIdx
open Idealize.ShloMosaic.Pipeline (Dat)
open Cert.KernelIdeal Cert.KernelIdeal.Gen Cert.KernelCover

variable (m : (ℓ : Loc nD τ sig) → Buf (Elt Ideal) ℓ) (hO : Ok m) (c : Dev nD)

/-- The score column ends holding G when every point leaves its 2000 rows of G. -/
theorem final11 (G : S1000000x1.Idx → EReal)
    (hout : ∀ (t : Fin (cfgM m hO).N) (r : Fin 2000), (outsAt0 m hO c t.val t.isLt).1 (ix2 r 0)
      = G (ix2 ⟨2000 * t.val + r.val, by have := t.isLt; have : (cfgM m hO).N = 500 := N_0; omega⟩ 0)) :
    (dats m hO 0 c).arrAt 11 (cfgM m hO).N = G := by
  refine (dats m hO 0 c).arrAt_eq_of_cover 11 G (fun t _ => ?_) (cover11 m hO)
  -- what point t writes back is what it leaves (the block is never cut at the array's end)
  show ((cfgM m hO).win 11).cut ((cfgM m hO).grid.coords t) ((dats m hO 0 c).after 11 t) = _
  rw [after0_11]
  refine funext fun (y : S2000x1.Idx) => ?_
  obtain ⟨r, q, rfl⟩ : ∃ r q, y = ix2 r q := ⟨y 0, y 1, eq_ix2 y⟩
  obtain rfl : q = 0 := Subsingleton.elim _ _
  exact (hout t r).trans (read11 m hO c G t r).symm

/-- The pair of accumulated banks ends holding G when each point numbered 249 modulo 250 leaves bank t / 250 of G. -/
theorem final12 (G : S2x1000x48.Idx → EReal)
    (h12 : ∀ (t : Fin (cfgM m hO).N) (h2 : t.val % 250 = 249) (k : Fin 1000) (j : Fin 48),
      (outsAt0 m hO c t.val t.isLt).2.1 (ix3 0 k j)
        = G (ix3 ⟨t.val / 250, by have := t.isLt; have : (cfgM m hO).N = 500 := N_0; omega⟩ k j)) :
    (dats m hO 0 c).arrAt 12 (cfgM m hO).N = G := by
  refine (dats m hO 0 c).arrAt_eq_of_cover 12 G (fun t hf => ?_) (cover12 m hO)
  have h2 : t.val % 250 = 249 := (flush0_12 (adm m hO) t).mp hf
  show ((cfgM m hO).win 12).cut ((cfgM m hO).grid.coords t) ((dats m hO 0 c).after 12 t) = _
  rw [after0_12]
  refine funext fun (y : S1x1000x48.Idx) => ?_
  obtain ⟨p, k, j, rfl⟩ : ∃ p k j, y = ix3 p k j := ⟨y 0, y 1, y 2, eq_ix3 y⟩
  obtain rfl : p = 0 := Subsingleton.elim _ _
  exact (h12 t h2 k j).trans (read12 m hO c G t h2 k j).symm

end Cert.KernelFinal

end
-- ==== Proof.KernelTail.lean ====
/-
  The host lines after the kernel region.

  The region leaves a 2×1000×48 array: one 1000×48 partial sum per half of the batch. The program then adds the
  two halves entry by entry and selects, slot by slot, that total where the slot's mark exceeds one half (the
  mark is 0 or 1) and the old bank elsewhere.
-/
import proofs.«418272_j53223234732113_3_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelTail

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

/-- The two halves' partial sums as the region left them. -/
abbrev halves (hO : Ok m)
    (dats : (p : Fin 1) → (c : Dev nD) → Dat τ (Elt Ideal) Unit ℕ (UR sig nD τ) ℕ ((Pipeline.pin pcfgs fun _ => adm m hO) p) c)
    (c : Dev nD) : S2x1000x48.Idx → EReal := (dats 0 c).arrAt 12 (cfgM m hO).N

/-- The slots' marks, as the lines before the region left them. -/
abbrev marks (c : Dev nD) : S1000x1.Idx → EReal := V m c main_v12

/-- The bank the program was launched on. -/
abbrev oldBank (c : Dev nD) : S1000x48.Idx → EReal := m ((c : Thread nD τ).loc main_arg2)

/-- The second result after the host tail. -/
abbrev outBank (hO : Ok m)
    (dats : (p : Fin 1) → (c : Dev nD) → Dat τ (Elt Ideal) Unit ℕ (UR sig nD τ) ℕ ((Pipeline.pin pcfgs fun _ => adm m hO) p) c)
    (c : Dev nD) : S1000x48.Idx → EReal :=
  Pipeline.afterTail pcfgs (fun _ => adm m hO) dats 0 (V0 m) [hostOps1, hostOps1_1] c main_v49

/-- The float word 0x3F000000 denotes one half. -/
theorem half32_eq : Ideal.ofBits .f32 0x3F000000#32 = ((1 / 2 : ℝ) : EReal) := by
  simp [Ideal.ofBits, Ideal.ieee, -EReal.coe_mul]
  norm_num

/-- One half is below one. -/
theorem half_lt_one : (((1 / 2 : ℝ)) : EReal) < 1 := by
  rw [← EReal.coe_one, EReal.coe_lt_coe_iff]; norm_num

/-- One half is not below zero. -/
theorem not_half_lt_zero : ¬ (((1 / 2 : ℝ)) : EReal) < 0 := by
  rw [← EReal.coe_zero, EReal.coe_lt_coe_iff]; norm_num

/-- "One exceeds one half" is the bit 1. -/
theorem cmp_ogt_one_half : Ideal.cmp .ogt (1 : EReal) ((1 / 2 : ℝ) : EReal) = 1#1 := by
  show BitVec.ofBool (decide ((((1 / 2 : ℝ)) : EReal) < 1)) = 1#1
  rw [decide_eq_true half_lt_one]; rfl

/-- "Zero exceeds one half" is the bit 0. -/
theorem cmp_ogt_zero_half : Ideal.cmp .ogt (0 : EReal) ((1 / 2 : ℝ) : EReal) = 0#1 := by
  show BitVec.ofBool (decide ((((1 / 2 : ℝ)) : EReal) < 0)) = 0#1
  rw [decide_eq_false not_half_lt_zero]; rfl

/-- The tail's arithmetic on any marks column M (0 or 1 per slot), any pair of halves A and any old bank B: at (k, j)
    the two halves' sum where slot k is marked, the old bank elsewhere. -/
theorem tail_clean (M : FVec Ideal S1000x1 .f32) (A : FVec Ideal S2x1000x48 .f32) (B : FVec Ideal S1000x48 .f32)
    (occ : Fin 1000 → Prop) [DecidablePred occ]
    (hocc : ∀ k : Fin 1000, M (ix2 k 0) = if occ k then (1 : EReal) else 0) (k : Fin 1000) (j : Fin 48) :
    select (broadcastInDim S1000x48 ![0, 1] bcast_S1000x1_S1000x48_0_1
        (cmpf .ogt M (broadcastInDim S1000x1 ![] bcast_S_S1000x1 (constant (F := Ideal) S_ .f32 0x3F000000#32))))
      (addf
        (shapeCast S1000x48 (extractStridedSlice S1x1000x48 ![0, 0, 0] A slices_S2x1000x48_S1x1000x48_0_0_0)
          shapeCasts_S1x1000x48_S1000x48)
        (shapeCast S1000x48 (extractStridedSlice S1x1000x48 ![1, 0, 0] A slices_S2x1000x48_S1x1000x48_1_0_0)
          shapeCasts_S1x1000x48_S1000x48))
      B (ix2 k j)
      = if occ k then A (ix3 0 k j) + A (ix3 1 k j) else B (ix2 k j) := by
  have hX : broadcastInDim S1000x1 ![] bcast_S_S1000x1 (constant (F := Ideal) S_ .f32 0x3F000000#32) (ix2 k 0)
      = ((1 / 2 : ℝ) : EReal) := by
    rw [broadcastInDim_apply ![] bcast_S_S1000x1 _ (ix2 k 0) ix0 (fun a => a.elim0), constant_apply]
    exact half32_eq
  have hsum : addf
        (shapeCast S1000x48 (extractStridedSlice S1x1000x48 ![0, 0, 0] A slices_S2x1000x48_S1x1000x48_0_0_0)
          shapeCasts_S1x1000x48_S1000x48)
        (shapeCast S1000x48 (extractStridedSlice S1x1000x48 ![1, 0, 0] A slices_S2x1000x48_S1x1000x48_1_0_0)
          shapeCasts_S1x1000x48_S1000x48) (ix2 k j) = A (ix3 0 k j) + A (ix3 1 k j) := by
    rw [addf_apply, shapeCast_1ab_ab_apply, shapeCast_1ab_ab_apply,
      extractStridedSlice_apply ![0, 0, 0] A _ (ix3 (0 : Fin 1) k j) (ix3 (0 : Fin 2) k j) (fun a => match a with
        | ⟨0, _⟩ => rfl
        | ⟨1, _⟩ => (Nat.zero_add _).symm
        | ⟨2, _⟩ => (Nat.zero_add _).symm),
      extractStridedSlice_apply ![1, 0, 0] A _ (ix3 (0 : Fin 1) k j) (ix3 (1 : Fin 2) k j) (fun a => match a with
        | ⟨0, _⟩ => rfl
        | ⟨1, _⟩ => (Nat.zero_add _).symm
        | ⟨2, _⟩ => (Nat.zero_add _).symm)]
  rw [select_apply, hsum, broadcastInDim_apply ![0, 1] bcast_S1000x1_S1000x48_0_1 _ (ix2 k j) (ix2 k 0) (fun a => match a with
      | ⟨0, _⟩ => rfl
      | ⟨1, _⟩ => rfl), cmpf_apply, hX, hocc k]
  by_cases h : occ k
  · rw [if_pos h, if_pos h]
    show Scalar.select (Ideal.cmp .ogt 1 ((1 / 2 : ℝ) : EReal)) _ _ = _
    rw [cmp_ogt_one_half, select_one]
  · rw [if_neg h, if_neg h]
    show Scalar.select (Ideal.cmp .ogt 0 ((1 / 2 : ℝ) : EReal)) _ _ = _
    rw [cmp_ogt_zero_half, select_zero]

/-- What the region leaves at the marks column: the lines before the region wrote it, the region does not. -/
theorem exit_marks (hO : Ok m)
    (dats : (p : Fin 1) → (c : Dev nD) → Dat τ (Elt Ideal) Unit ℕ (UR sig nD τ) ℕ ((Pipeline.pin pcfgs fun _ => adm m hO) p) c)
    (c : Dev nD) :
    Pipeline.withArrays (Pipeline.pin pcfgs (fun _ => adm m hO) 0).spec c (V0 m c)
      (fun w => (dats 0 c).arrAt w (Pipeline.pin pcfgs (fun _ => adm m hO) 0).N) (Proc.devRef .tc main_v12) = marks m c :=
  Pipeline.withArrays_of_ne _ c (V0 m c) _ main_v12 (by exact (by decide : ∀ w, Pipeline.arrRef spec0 w ≠ main_v12))

/-- What the region leaves at the old bank: its launch contents. -/
theorem exit_oldBank (hO : Ok m)
    (dats : (p : Fin 1) → (c : Dev nD) → Dat τ (Elt Ideal) Unit ℕ (UR sig nD τ) ℕ ((Pipeline.pin pcfgs fun _ => adm m hO) p) c)
    (c : Dev nD) :
    Pipeline.withArrays (Pipeline.pin pcfgs (fun _ => adm m hO) 0).spec c (V0 m c)
      (fun w => (dats 0 c).arrAt w (Pipeline.pin pcfgs (fun _ => adm m hO) 0).N) (Proc.devRef .tc main_arg2) = oldBank m c :=
  (Pipeline.withArrays_of_ne _ c (V0 m c) _ main_arg2 (by exact (by decide : ∀ w, Pipeline.arrRef spec0 w ≠ main_arg2))).trans
    (V_main_arg2 m c)

/-- What the region leaves at its second result: the two halves' partial sums. -/
theorem exit_halves (hO : Ok m)
    (dats : (p : Fin 1) → (c : Dev nD) → Dat τ (Elt Ideal) Unit ℕ (UR sig nD τ) ℕ ((Pipeline.pin pcfgs fun _ => adm m hO) p) c)
    (c : Dev nD) :
    Pipeline.withArrays (Pipeline.pin pcfgs (fun _ => adm m hO) 0).spec c (V0 m c)
      (fun w => (dats 0 c).arrAt w (Pipeline.pin pcfgs (fun _ => adm m hO) 0).N) (Proc.devRef .tc main_v41_1) = halves m hO dats c :=
  Pipeline.withArrays_arr _ (launch0 (F := Ideal)).win.arr_inj c _ _ 12

/-- The contents after two stretches of lines run in a row. -/
theorem after_append (l₁ l₂ : List (HloOp τ sig (Elt Ideal))) (Vl : Valuation τ sig (Elt Ideal)) :
    StableHlo.after (l₁ ++ l₂) Vl = StableHlo.after l₂ (StableHlo.after l₁ Vl) := by
  induction l₁ generalizing Vl with
  | nil => rfl
  | cons op l ih => exact ih _

/-- The first stretch's total of the two halves. -/
theorem lines_total (Vl : Valuation τ sig (Elt Ideal)) :
    StableHlo.after hostOps1 Vl (Proc.devRef .tc main_v46)
      = (addf
        (shapeCast S1000x48 (extractStridedSlice S1x1000x48 ![0, 0, 0]
          (Vl (Proc.devRef .tc main_v41_1) : FVec Ideal S2x1000x48 .f32) slices_S2x1000x48_S1x1000x48_0_0_0)
          shapeCasts_S1x1000x48_S1000x48)
        (shapeCast S1000x48 (extractStridedSlice S1x1000x48 ![1, 0, 0]
          (Vl (Proc.devRef .tc main_v41_1) : FVec Ideal S2x1000x48 .f32) slices_S2x1000x48_S1x1000x48_1_0_0)
          shapeCasts_S1x1000x48_S1000x48) : FVec Ideal S1000x48 .f32) := by
  simp only [hostOps1]
  after_results
  rfl

/-- The first stretch's comparison of the marks with one half. -/
theorem lines_cmp (Vl : Valuation τ sig (Elt Ideal)) :
    StableHlo.after hostOps1 Vl (Proc.devRef .tc main_v48)
      = cmpf .ogt (Vl (Proc.devRef .tc main_v12)) (broadcastInDim S1000x1 ![] bcast_S_S1000x1 (constant (F := Ideal) S_ .f32 0x3F000000#32)) := by
  simp only [hostOps1]
  after_results

/-- The first stretch leaves the old bank alone. -/
theorem lines_old (Vl : Valuation τ sig (Elt Ideal)) :
    StableHlo.after hostOps1 Vl (Proc.devRef .tc main_arg2) = Vl (Proc.devRef .tc main_arg2) := by
  simp only [hostOps1]
  after_results

/-- The second stretch's selection. -/
theorem where_result (Vl : Valuation τ sig (Elt Ideal)) :
    StableHlo.after hostOps1_1 Vl (Proc.devRef .tc main_v49)
      = select (broadcastInDim S1000x48 ![0, 1] bcast_S1000x1_S1000x48_0_1 (Vl (Proc.devRef .tc main_v48)))
          (Vl (Proc.devRef .tc main_v46)) (Vl (Proc.devRef .tc main_arg2)) := by
  simp only [hostOps1_1]
  after_results
  rfl

/-- The second result after the host tail, at (k, j): where slot k is marked, the sum of the two halves' partial
    sums as the region left them; elsewhere the old bank. -/
theorem tail_apply (hO : Ok m)
    (dats : (p : Fin 1) → (c : Dev nD) → Dat τ (Elt Ideal) Unit ℕ (UR sig nD τ) ℕ ((Pipeline.pin pcfgs fun _ => adm m hO) p) c)
    (c : Dev nD) (occ : Fin 1000 → Prop) [DecidablePred occ]
    (hocc : ∀ k : Fin 1000, marks m c (ix2 k 0) = if occ k then (1 : EReal) else 0)
    (k : Fin 1000) (j : Fin 48) :
    outBank m hO dats c (ix2 k j)
      = if occ k then halves m hO dats c (ix3 0 k j) + halves m hO dats c (ix3 1 k j)
        else oldBank m c (ix2 k j) := by
  unfold outBank Pipeline.afterTail
  simp only [List.flatten_cons, List.flatten_nil, List.append_nil]
  rw [after_append, where_result, lines_cmp, lines_total, lines_old,
    exit_marks m hO dats c, exit_halves m hO dats c, exit_oldBank m hO dats c]
  exact tail_clean (marks m c) (halves m hO dats c) (oldBank m c) occ hocc k j

end Cert.KernelTail

end
-- ==== Proof.AccSum.lean ====
/-
  The tile-by-tile accumulation adds up to the bank update.

  A row weighs 1 on slot k exactly when it is the last row carrying k, so over the whole batch at most one row
  weighs on k. Hence a tile none of whose rows is a last row contributes zero; and the two halves' totals
  (250 tiles of 2000 rows each) add up, at slot k, to the new state of the last row carrying k, or to zero when no
  row carries k. Zero times any extended real is zero, so nothing here needs finiteness.
-/
import proofs.«418272_j53223234732113_3_alg».proof.Proof.Spec

noncomputable section

open scoped BigOperators

namespace Cert.Gru

open Idealize.ShloMosaic Idealize.ShloMosaic.ValueIdx Cert.LibLast

variable (P : Params) (ids : (⟨1, ![1000000]⟩ : Shape).Idx → BitVec 32) (X : Mat 1000000 64) (S : Mat 1000 48)

/-- Carrying k and being the last row of one's own slot is the same as being the last row carrying k. -/
theorem slot_and_isLast_iff (t : Fin 1000000) (k : Fin 1000) :
    (slot ids t = k ∧ IsLast ids t) ↔ lastOcc (slot ids) k = some t := by
  constructor
  · rintro ⟨hk, hl⟩
    subst hk
    exact hl
  · intro h
    have hk : slot ids t = k := ((lastOcc_eq_some_iff (slot ids) k t).1 h).1
    subst hk
    exact ⟨rfl, h⟩

/-- The last row carrying k weighs 1 on k. -/
theorem wgt_eq_one (t : Fin 1000000) (k : Fin 1000) (h : lastOcc (slot ids) k = some t) :
    wgt ids t k = 1 := by
  unfold wgt
  rw [if_pos ((slot_and_isLast_iff ids t k).2 h)]

/-- Every other row weighs 0 on k. -/
theorem wgt_eq_zero (t : Fin 1000000) (k : Fin 1000) (h : lastOcc (slot ids) k ≠ some t) :
    wgt ids t k = 0 := by
  unfold wgt
  rw [if_neg (fun hh => h ((slot_and_isLast_iff ids t k).1 hh))]

/-- A tile without a last row contributes nothing. -/
theorem contrib_eq_zero (tile : Nat) (h : ¬ TileHasLast ids tile) (k : Fin 1000) (j : Fin 48) :
    contrib P ids X S tile k j = 0 := by
  unfold contrib
  apply Finset.sum_eq_zero
  intro r _
  have hw : wgt ids (row (2000 * tile + r.val)) k = 0 := by
    unfold wgt
    rw [if_neg]
    rintro ⟨_, hl⟩
    exact h ⟨r, hl⟩
  rw [hw, zero_mul]

/-- One more tile: the running sum grows by that tile's contribution. -/
theorem acc_succ (c n : Nat) (k : Fin 1000) (j : Fin 48) :
    acc P ids X S c (n + 1) k j = acc P ids X S c n k j + contrib P ids X S (250 * c + n) k j := by
  unfold acc
  rw [Finset.sum_range_succ]

/-- No tile yet: zero. -/
theorem acc_zero (c : Nat) (k : Fin 1000) (j : Fin 48) : acc P ids X S c 0 k j = 0 := by
  unfold acc
  rw [Finset.sum_range_zero]

/-- When t0 is the last row carrying k, only the tile holding t0 contributes to slot k, and it contributes
t0's new state: inside that tile the single row t0 weighs 1 and every other row weighs 0. -/
theorem contrib_of_some (k : Fin 1000) (j : Fin 48) (t0 : Fin 1000000)
    (h : lastOcc (slot ids) k = some t0) (tile : Nat) (htile : tile < 500) :
    contrib P ids X S tile k j = if tile = t0.val / 2000 then H P ids X S t0 j else 0 := by
  have ht0 : t0.val < 1000000 := t0.isLt
  have hne : ∀ r : Fin 2000, t0.val ≠ (2000 * tile + r.val) % 1000000 →
      wgt ids (row (2000 * tile + r.val)) k = 0 := by
    intro r hr
    apply wgt_eq_zero
    rw [h]
    intro he
    exact hr (congrArg Fin.val (Option.some.inj he))
  unfold contrib
  by_cases hc : tile = t0.val / 2000
  · rw [if_pos hc]
    have hr0 : t0.val % 2000 < 2000 := Nat.mod_lt _ (by norm_num)
    have hrow : row (2000 * tile + (⟨t0.val % 2000, hr0⟩ : Fin 2000).val) = t0 := by
      apply Fin.ext
      show (2000 * tile + t0.val % 2000) % 1000000 = t0.val
      omega
    rw [Finset.sum_eq_single (⟨t0.val % 2000, hr0⟩ : Fin 2000)]
    · rw [hrow, wgt_eq_one ids t0 k h, one_mul]
    · intro r _ hr
      have hw : wgt ids (row (2000 * tile + r.val)) k = 0 := by
        apply hne
        intro hv
        apply hr
        apply Fin.ext
        show r.val = t0.val % 2000
        have := r.isLt
        omega
      rw [hw, zero_mul]
    · intro hn
      exact absurd (Finset.mem_univ _) hn
  · rw [if_neg hc]
    apply Finset.sum_eq_zero
    intro r _
    have hw : wgt ids (row (2000 * tile + r.val)) k = 0 := by
      apply hne
      intro hv
      have := r.isLt
      omega
    rw [hw, zero_mul]

/-- When t0 is the last row carrying k, the half holding t0 totals t0's new state at slot k and the other
half totals zero. -/
theorem acc_of_some (k : Fin 1000) (j : Fin 48) (t0 : Fin 1000000)
    (h : lastOcc (slot ids) k = some t0) (c : Nat) (hc : c < 2) :
    acc P ids X S c 250 k j = if c = t0.val / 500000 then H P ids X S t0 j else 0 := by
  have ht0 : t0.val < 1000000 := t0.isLt
  have key : ∀ s ∈ Finset.range 250, contrib P ids X S (250 * c + s) k j
      = if 250 * c + s = t0.val / 2000 then H P ids X S t0 j else 0 := by
    intro s hs
    have hs' : s < 250 := Finset.mem_range.1 hs
    exact contrib_of_some P ids X S k j t0 h (250 * c + s) (by omega)
  unfold acc
  rw [Finset.sum_congr rfl key]
  by_cases hcc : c = t0.val / 500000
  · rw [if_pos hcc, Finset.sum_eq_single (t0.val / 2000 - 250 * c)]
    · have he : 250 * c + (t0.val / 2000 - 250 * c) = t0.val / 2000 := by omega
      rw [if_pos he]
    · intro s _ hs
      have hn : ¬ 250 * c + s = t0.val / 2000 := by omega
      rw [if_neg hn]
    · intro hn
      have hm : t0.val / 2000 - 250 * c < 250 := by omega
      exact absurd (Finset.mem_range.2 hm) hn
  · rw [if_neg hcc]
    apply Finset.sum_eq_zero
    intro s hs
    have hs' : s < 250 := Finset.mem_range.1 hs
    have hn : ¬ 250 * c + s = t0.val / 2000 := by omega
    rw [if_neg hn]

/-- The two halves' totals at slot k: the last row's new state, or zero. -/
theorem acc_total (k : Fin 1000) (j : Fin 48) :
    acc P ids X S 0 250 k j + acc P ids X S 1 250 k j
      = match lastOcc (slot ids) k with
        | some t => H P ids X S t j
        | none => 0 := by
  rcases h : lastOcc (slot ids) k with _ | t0
  · have hz : ∀ c : Nat, acc P ids X S c 250 k j = 0 := by
      intro c
      unfold acc
      apply Finset.sum_eq_zero
      intro s _
      unfold contrib
      apply Finset.sum_eq_zero
      intro r _
      have hw : wgt ids (row (2000 * (250 * c + s) + r.val)) k = 0 := by
        apply wgt_eq_zero
        rw [h]
        intro he
        cases he
      rw [hw, zero_mul]
    show acc P ids X S 0 250 k j + acc P ids X S 1 250 k j = 0
    rw [hz 0, hz 1, add_zero]
  · have ht0 : t0.val < 1000000 := t0.isLt
    show acc P ids X S 0 250 k j + acc P ids X S 1 250 k j = H P ids X S t0 j
    rw [acc_of_some P ids X S k j t0 h 0 (by norm_num), acc_of_some P ids X S k j t0 h 1 (by norm_num)]
    by_cases h0 : 0 = t0.val / 500000
    · have h1 : ¬ 1 = t0.val / 500000 := by omega
      rw [if_pos h0, if_neg h1, add_zero]
    · have h1 : 1 = t0.val / 500000 := by omega
      rw [if_neg h0, if_pos h1, zero_add]

/-- The bank update as a selection between the accumulated total and the old bank. -/
theorem newState_eq_select (i : (⟨2, ![1000, 48]⟩ : Shape).Idx) :
    newState P ids X S i
      = if (lastOcc (slot ids) (i 0)).isSome then acc P ids X S 0 250 (i 0) (i 1) + acc P ids X S 1 250 (i 0) (i 1) else S i := by
  have ht := acc_total P ids X S (i 0) (i 1)
  unfold newState
  rcases h : lastOcc (slot ids) (i 0) with _ | t
  · show S i = if (none : Option (Fin 1000000)).isSome = true then _ else S i
    rw [if_neg (show ¬ ((none : Option (Fin 1000000)).isSome = true) by simp)]
  · rw [h] at ht
    show H P ids X S t (i 1) = if (some t).isSome = true then _ else S i
    rw [if_pos (show (some t).isSome = true from rfl)]
    exact ht.symm

end Cert.Gru

end
-- ==== Proof.KRun.lean ====
/-
  The kernel program computes the specification.

  Point t of the grid handles tile t (2000 rows) of half t / 250. Its input blocks are the tile's rows of the id
  column, the features and the last-row marks, and the whole tables and parameters; so the scores it writes are the
  specification's scores of those rows, and the accumulator it leaves is the running sum of its half's tile
  contributions up to tile t — by induction on the point, a flagged tile adding its contribution and an unflagged
  one contributing zero. The first output's blocks tile the score array; the second output's two blocks, written at
  the last tile of each half, are the two halves' totals; the host lines after the region add the halves and select
  against the old bank, which is the specification's bank update.
-/
import proofs.«418272_j53223234732113_3_alg».proof.Proof.Gen.KernelIdeal.Frame
import proofs.«418272_j53223234732113_3_alg».proof.Proof.KPieces
import proofs.«418272_j53223234732113_3_alg».proof.Proof.KernelPoint
import proofs.«418272_j53223234732113_3_alg».proof.Proof.KernelFinal
import proofs.«418272_j53223234732113_3_alg».proof.Proof.KernelTail
import proofs.«418272_j53223234732113_3_alg».proof.Proof.AccSum
import Idealize.ShloMosaic.Lib.Pipeline.Value
import Idealize.ShloMosaic.Lib.Tactic

set_option maxRecDepth 16384

noncomputable section

open scoped BigOperators

namespace Cert.KRun

open Idealize.ShloMosaic Idealize.ShloMosaic.TcCoe Idealize.SL.Sem Idealize.ShloMosaic.ValueIdx
open Cert.KernelIdeal Cert.KernelIdeal.Gen Cert.Gru Cert.KernelHost Cert.LibLast
open Idealize.ShloMosaic.Pipeline (Dat)

variable (m : (ℓ : Loc nD τ sig) → Buf (Elt Ideal) ℓ) (ρ : Dev nD → PrngReg) (c : Dev nD)

/-- The domain: ids in range, the bank and the recurrent weights real. -/
structure Dom : Prop where
  hR : InRange (ids m c)
  hS : Cert.Gru.Finite (bank m c)
  hU : Cert.Gru.Finite (params m c).U

/-! ## The running sum of a half, tile by tile -/

section Sums

variable (P : Params) (I : (⟨1, ![1000000]⟩ : Shape).Idx → BitVec 32) (X : Mat 1000000 64) (S : Mat 1000 48)

/-- At the first tile of a half the running sum is that tile's contribution (over zero). -/
theorem acc_first (n : Nat) (h0 : n % 250 = 0) (k : Fin 1000) (j : Fin 48) :
    acc P I X S (n / 250) (n % 250 + 1) k j = 0 + contrib P I X S n k j := by
  rw [h0, acc_succ, acc_zero]
  have e : 250 * (n / 250) + 0 = n := by omega
  rw [e]

/-- At a later tile it is the sum up to the tile before plus this tile's contribution. -/
theorem acc_later (n : Nat) (h0 : ¬n % 250 = 0) (k : Fin 1000) (j : Fin 48) :
    acc P I X S (n / 250) (n % 250 + 1) k j
      = acc P I X S ((n - 1) / 250) ((n - 1) % 250 + 1) k j + contrib P I X S n k j := by
  rw [acc_succ]
  have e1 : 250 * (n / 250) + n % 250 = n := by omega
  have e2 : (n - 1) / 250 = n / 250 := by omega
  have e3 : (n - 1) % 250 + 1 = n % 250 := by omega
  rw [e1, e2, e3]

end Sums

/-! ## One point -/

/-- The zero block the first tile of a half stores. -/
theorem pay6_apply (i : S1000x48.Idx) : k0_pay6 (F := Ideal) i = (0 : EReal) := by
  show Ideal.ofBits .f32 0x00000000#32 = 0
  exact zero32_eq

/-- The accumulator after point n, as the specification's running sum. -/
def accBlock (n : Nat) : Vec Ideal S1000x48 .f32 :=
  fun i => acc (params m c) (ids m c) (feats m c) (bank m c) (n / 250) (n % 250 + 1) (i 0) (i 1)

variable (hO : Ok m)

/-- The flag condition at point t, as the frame states it. -/
abbrev flagAt (t : Fin (cfgM m hO).N) : Prop := cond0_1 (grid0.coords t) (tbM0_0.view.readAt (Elt Ideal) (Rect.unit (s := S500) (k0_off1 (grid0.coords t)) S1.size (k0_off1_inb (grid0.coords t))).toLoadRect (tbl m 0) (Shape.Idx.first (numel1_S1.symm ▸ Nat.one_pos)))

theorem N500 : (cfgM m hO).N = 500 := N_0

/-- A flagged point adds its tile's contribution to the accumulator it found. -/
theorem accP_flag (hD : Dom m c) (t : Fin (cfgM m hO).N) (prev : Vec Ideal S1000x48 .f32) (k : Fin 1000) (j : Fin 48) :
    KPieces.accP (iblk m hO c 0 t) (iblk m hO c 1 t) (iblk m hO c 2 t) (iblk m hO c 3 t) (iblk m hO c 4 t) (iblk m hO c 5 t)
        (iblk m hO c 6 t) prev (ix2 k j)
      = prev (ix2 k j) + contrib (params m c) (ids m c) (feats m c) (bank m c) t.val k j :=
  Cert.PointMath.acc_point (params m c) (ids m c) (feats m c) (bank m c) t.val (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)
    (Cert.KernelPoint.pointFacts m c hO hD.hR hD.hS hD.hU t) hD.hS prev k j

/-- An unflagged point's tile contributes nothing. -/
theorem contrib_noflag (hD : Dom m c) (t : Fin (cfgM m hO).N) (h1 : ¬flagAt m hO t) (k : Fin 1000) (j : Fin 48) :
    contrib (params m c) (ids m c) (feats m c) (bank m c) t.val k j = 0 :=
  contrib_eq_zero _ _ _ _ t.val (fun h => h1 ((Cert.KernelPoint.flag_iff m c hO hD.hR t).mpr h)) k j

/-- The scores a point writes are the specification's scores of its tile's rows. -/
theorem outP_point (hD : Dom m c) (t : Fin (cfgM m hO).N) (r : Fin 2000) :
    KPieces.outP (iblk m hO c 0 t) (iblk m hO c 1 t) (iblk m hO c 3 t) (iblk m hO c 4 t) (iblk m hO c 5 t) (iblk m hO c 6 t)
        (iblk m hO c 7 t) (iblk m hO c 8 t) (iblk m hO c 9 t) (iblk m hO c 10 t) (ix2 r 0)
      = outArr (params m c) (ids m c) (feats m c) (bank m c) (ix2 (row (2000 * t.val + r.val)) 0) :=
  Cert.PointMath.out_point (params m c) (ids m c) (feats m c) (bank m c) t.val (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)
    (Cert.KernelPoint.pointFacts m c hO hD.hR hD.hS hD.hU t) r

/-! ## The accumulator after each point -/

/-- One step of the induction: the accumulator after point t, given it after every earlier point. -/
theorem scratch_step (hD : Dom m c) (t : Fin (cfgM m hO).N)
    (ih : ∀ k, k < t.val → ∀ hk : k < (cfgM m hO).N, (outsAt0 m hO c k hk).2.2 = accBlock m c k) :
    (outsAt0 m hO c t.val t.isLt).2.2 = accBlock m c t.val := by
  have hN : (cfgM m hO).N = 500 := N_0
  have htl : t.val < 500 := lt_of_lt_of_eq t.isLt hN
  by_cases h0 : t.val % 250 = 0
  · have h2 : ¬t.val % 250 = 249 := by omega
    by_cases h1 : flagAt m hO t
    · rw [outsAt0_A m hO c t h0 h1 h2]
      dsimp only
      rw [KPieces.sc_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) ((hcond0_0 t).mpr h0) (fun h => h2 ((hcond0_2 t).mp h)) h1]
      funext i
      obtain ⟨k, j, rfl⟩ : ∃ (k : Fin 1000) (j : Fin 48), i = ix2 k j := ⟨i 0, i 1, eq_ix2 i⟩
      rw [accP_flag m c hO hD t _ k j, pay6_apply]
      exact (acc_first _ _ _ _ t.val h0 k j).symm
    · rw [outsAt0_B m hO c t h0 h1 h2]
      dsimp only
      rw [KPieces.sc_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) ((hcond0_0 t).mpr h0) (fun h => h2 ((hcond0_2 t).mp h)) h1]
      funext i
      obtain ⟨k, j, rfl⟩ : ∃ (k : Fin 1000) (j : Fin 48), i = ix2 k j := ⟨i 0, i 1, eq_ix2 i⟩
      rw [pay6_apply]
      show (0 : EReal) = acc _ _ _ _ (t.val / 250) (t.val % 250 + 1) k j
      rw [acc_first _ _ _ _ t.val h0 k j, contrib_noflag m c hO hD t h1 k j, add_zero]
  · have hpos : 0 < t.val := Nat.pos_of_ne_zero (fun e => h0 (by rw [e]))
    have hprev := ih (t.val - 1) (by omega) (Nat.lt_of_le_of_lt (Nat.sub_le _ _) t.isLt)
    by_cases h1 : flagAt m hO t
    · by_cases h2 : t.val % 250 = 249
      · rw [outsAt0_E m hO c t h0 h1 h2]
        dsimp only
        rw [KPieces.sc_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1]
        funext i
        obtain ⟨k, j, rfl⟩ : ∃ (k : Fin 1000) (j : Fin 48), i = ix2 k j := ⟨i 0, i 1, eq_ix2 i⟩
        rw [accP_flag m c hO hD t _ k j, hprev]
        exact (acc_later _ _ _ _ t.val h0 k j).symm
      · rw [outsAt0_C m hO c t h0 h1 h2]
        dsimp only
        rw [KPieces.sc_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) (fun h => h2 ((hcond0_2 t).mp h)) h1]
        funext i
        obtain ⟨k, j, rfl⟩ : ∃ (k : Fin 1000) (j : Fin 48), i = ix2 k j := ⟨i 0, i 1, eq_ix2 i⟩
        rw [accP_flag m c hO hD t _ k j, hprev]
        exact (acc_later _ _ _ _ t.val h0 k j).symm
    · by_cases h2 : t.val % 250 = 249
      · rw [outsAt0_F m hO c t h0 h1 h2]
        dsimp only
        rw [KPieces.sc_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1, hprev]
        funext i
        obtain ⟨k, j, rfl⟩ : ∃ (k : Fin 1000) (j : Fin 48), i = ix2 k j := ⟨i 0, i 1, eq_ix2 i⟩
        show acc _ _ _ _ ((t.val - 1) / 250) ((t.val - 1) % 250 + 1) k j = acc _ _ _ _ (t.val / 250) (t.val % 250 + 1) k j
        rw [acc_later _ _ _ _ t.val h0 k j, contrib_noflag m c hO hD t h1 k j, add_zero]
      · rw [outsAt0_D m hO c t h0 h1 h2]
        dsimp only
        rw [KPieces.sc_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) (fun h => h2 ((hcond0_2 t).mp h)) h1, hprev]
        funext i
        obtain ⟨k, j, rfl⟩ : ∃ (k : Fin 1000) (j : Fin 48), i = ix2 k j := ⟨i 0, i 1, eq_ix2 i⟩
        show acc _ _ _ _ ((t.val - 1) / 250) ((t.val - 1) % 250 + 1) k j = acc _ _ _ _ (t.val / 250) (t.val % 250 + 1) k j
        rw [acc_later _ _ _ _ t.val h0 k j, contrib_noflag m c hO hD t h1 k j, add_zero]

/-- What the accumulator holds after each point: its half's running sum. -/
theorem scratch_eq (hD : Dom m c) : ∀ (n : ℕ) (h : n < (cfgM m hO).N), (outsAt0 m hO c n h).2.2 = accBlock m c n := by
  intro n
  induction n using Nat.strong_induction_on with
  | _ n ih =>
    intro h
    exact scratch_step m c hO hD ⟨n, h⟩ (fun k hk hlt => ih k hk hlt)

/-! ## The outputs, point by point -/

/-- The scores after point t: the specification's scores of tile t's rows. -/
theorem out_eq (hD : Dom m c) (t : Fin (cfgM m hO).N) (r : Fin 2000) :
    (outsAt0 m hO c t.val t.isLt).1 (ix2 r 0)
      = outArr (params m c) (ids m c) (feats m c) (bank m c) (ix2 (row (2000 * t.val + r.val)) 0) := by
  have hN : (cfgM m hO).N = 500 := N_0
  by_cases h0 : t.val % 250 = 0
  · have h2 : ¬t.val % 250 = 249 := by omega
    by_cases h1 : flagAt m hO t
    · rw [outsAt0_A m hO c t h0 h1 h2]
      dsimp only
      rw [KPieces.out_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) ((hcond0_0 t).mpr h0) (fun h => h2 ((hcond0_2 t).mp h)) h1]
      exact outP_point m c hO hD t r
    · rw [outsAt0_B m hO c t h0 h1 h2]
      dsimp only
      rw [KPieces.out_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) ((hcond0_0 t).mpr h0) (fun h => h2 ((hcond0_2 t).mp h)) h1]
      exact outP_point m c hO hD t r
  · by_cases h1 : flagAt m hO t
    · by_cases h2 : t.val % 250 = 249
      · rw [outsAt0_E m hO c t h0 h1 h2]
        dsimp only
        rw [KPieces.out_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1]
        exact outP_point m c hO hD t r
      · rw [outsAt0_C m hO c t h0 h1 h2]
        dsimp only
        rw [KPieces.out_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) (fun h => h2 ((hcond0_2 t).mp h)) h1]
        exact outP_point m c hO hD t r
    · by_cases h2 : t.val % 250 = 249
      · rw [outsAt0_F m hO c t h0 h1 h2]
        dsimp only
        rw [KPieces.out_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1]
        exact outP_point m c hO hD t r
      · rw [outsAt0_D m hO c t h0 h1 h2]
        dsimp only
        rw [KPieces.out_D c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) (fun h => h2 ((hcond0_2 t).mp h)) h1]
        exact outP_point m c hO hD t r

/-- Adding a unit axis in front: entry (0, k, j) of the result is entry (k, j). -/
theorem pay5_apply (v : Vec Ideal S1000x48 .f32) (k : Fin 1000) (j : Fin 48) :
    k0_pay5 (F := Ideal) v (ix3 0 k j) = v (ix2 k j) := by
  unfold k0_pay5
  refine (shapeCast_addUnit_apply (![1000, 48]) v _ (ix3 0 k j)).trans ?_
  congr 1
  funext a
  match a with
  | ⟨0, _⟩ => rfl
  | ⟨1, _⟩ => rfl

/-- At the last tile of a half the second output's block is the half's total. -/
theorem o12_eq (hD : Dom m c) (t : Fin (cfgM m hO).N) (h2 : t.val % 250 = 249) (k : Fin 1000) (j : Fin 48) :
    (outsAt0 m hO c t.val t.isLt).2.1 (ix3 0 k j)
      = acc (params m c) (ids m c) (feats m c) (bank m c) (t.val / 250) 250 k j := by
  have h0 : ¬t.val % 250 = 0 := by omega
  have hs := scratch_eq m c hO hD t.val t.isLt
  have e : t.val % 250 + 1 = 250 := by omega
  by_cases h1 : flagAt m hO t
  · rw [outsAt0_E m hO c t h0 h1 h2] at hs ⊢
    dsimp only at hs ⊢
    rw [KPieces.o12_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1, pay5_apply]
    rw [KPieces.sc_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1] at hs
    rw [hs]
    show acc _ _ _ _ (t.val / 250) (t.val % 250 + 1) k j = _
    rw [e]
  · rw [outsAt0_F m hO c t h0 h1 h2] at hs ⊢
    dsimp only at hs ⊢
    rw [KPieces.o12_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1, pay5_apply]
    rw [KPieces.sc_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (outsAt0 m hO c (t.val - 1) (Nat.lt_of_le_of_lt (Nat.sub_le _ _) t.isLt)).2.2 (fun h => h0 ((hcond0_0 t).mp h)) ((hcond0_2 t).mpr h2) h1] at hs
    rw [hs]
    show acc _ _ _ _ (t.val / 250) (t.val % 250 + 1) k j = _
    rw [e]

/-! ## The arrays after the region, and the results -/

/-- The two halves' totals, as the second output's array. -/
def halves : S2x1000x48.Idx → EReal :=
  fun i => acc (params m c) (ids m c) (feats m c) (bank m c) (i 0).val 250 (i 1) (i 2)

theorem final_scores (hD : Dom m c) :
    (dats m hO 0 c).arrAt 11 (cfgM m hO).N = outArr (params m c) (ids m c) (feats m c) (bank m c) :=
  Cert.KernelFinal.final11 m hO c _ fun t r => by
    have hN : (cfgM m hO).N = 500 := N_0
    rw [out_eq m c hO hD t r]
    congr 2
    apply Fin.ext
    show (2000 * t.val + r.val) % 1000000 = 2000 * t.val + r.val
    have := t.isLt; have := r.isLt; omega

theorem final_halves (hD : Dom m c) : (dats m hO 0 c).arrAt 12 (cfgM m hO).N = halves m c :=
  Cert.KernelFinal.final12 m hO c _ fun t h2 k j => o12_eq m c hO hD t h2 k j

/-- The second result: the specification's bank update. -/
theorem tail_eq (hD : Dom m c) :
    (Pipeline.afterTail pcfgs (fun _ => adm m hO) (dats m hO) 0 (V0 m) [hostOps1, hostOps1_1] c main_v49 : S1000x48.Idx → EReal)
      = newState (params m c) (ids m c) (feats m c) (bank m c) := by
  funext i
  obtain ⟨k, j, rfl⟩ : ∃ (k : Fin 1000) (j : Fin 48), i = ix2 k j := ⟨i 0, i 1, eq_ix2 i⟩
  refine (Cert.KernelTail.tail_apply m hO (dats m hO) c (fun k => (lastOcc (slot (ids m c)) k).isSome = true)
    (fun k => Cert.KernelHost.V_occurs' m c hD.hR k) k j).trans ?_
  rw [show Cert.KernelTail.halves m hO (dats m hO) c = halves m c from final_halves m c hO hD, newState_eq_select]
  rfl

/-! ## The run -/

/-- On the domain, every weakly fair execution of the kernel program ends with the scores and the updated bank of the
    specification, and its arguments unchanged. -/
theorem run (hD : ∀ c : Dev nD, Dom m c) :
    θ_run (defs (F := Ideal)) (onTc (τ := τ) (main (F := Ideal))) ⟨m, fun _ => 0, ρ⟩ (fun r => ∀ c : Dev nD,
      r.2.mem ((c.tc : Thread nD τ).loc main_v41_0) = outArr (params m c) (ids m c) (feats m c) (bank m c)
      ∧ r.2.mem ((c.tc : Thread nD τ).loc main_v49) = newState (params m c) (ids m c) (feats m c) (bank m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).1 11).trans (final_scores m c trivial (hD c)),
      ((h c).2 main_v49 (by decide : main_v49 ∈ Pipeline.restRefs sig spec0)).trans (tail_eq m c trivial (hD c)),
      ((h c).2 main_arg0 (by decide : main_arg0 ∈ Pipeline.restRefs sig spec0)).trans (W_main_arg0 m trivial (dats m trivial) c),
      ((h c).2 main_arg1 (by decide : main_arg1 ∈ Pipeline.restRefs sig spec0)).trans (W_main_arg1 m trivial (dats m trivial) c),
      ((h c).2 main_arg2 (by decide : main_arg2 ∈ Pipeline.restRefs sig spec0)).trans (W_main_arg2 m trivial (dats m trivial) c),
      ((h c).2 main_arg3 (by decide : main_arg3 ∈ Pipeline.restRefs sig spec0)).trans (W_main_arg3 m trivial (dats m trivial) c),
      ((h c).2 main_arg4 (by decide : main_arg4 ∈ Pipeline.restRefs sig spec0)).trans (W_main_arg4 m trivial (dats m trivial) c),
      ((h c).1 6).trans (((dats m trivial 0 c).arrAt_in 6 rfl _).trans ((A_eq m trivial c 6).trans (V_main_arg5 m c))),
      ((h c).2 main_arg6 (by decide : main_arg6 ∈ Pipeline.restRefs sig spec0)).trans (W_main_arg6 m trivial (dats m trivial) c),
      ((h c).1 8).trans (((dats m trivial 0 c).arrAt_in 8 rfl _).trans ((A_eq m trivial c 8).trans (V_main_arg7 m c))),
      ((h c).2 main_arg8 (by decide : main_arg8 ∈ Pipeline.restRefs sig spec0)).trans (W_main_arg8 m trivial (dats m trivial) c),
      ((h c).1 10).trans (((dats m trivial 0 c).arrAt_in 10 rfl _).trans ((A_eq m trivial c 10).trans (V_main_arg9 m c)))⟩)
    (run_main m ρ trivial)

end Cert.KRun

end
-- ==== Proof.RefValue.lean ====
/-
  The reference program computes the specification.

  Its host operations, read one at a time at an index: the ids are normalised (a negative id would have 1000 added;
  on the domain none is negative), the bank's rows are gathered by them, the two affine maps are matrix products,
  the gates are spelled 1 / (1 + e^(−x)) — the logistic function —, the new states are scattered back into the bank
  row by row with "the update replaces the entry" (so the last row carrying a slot wins), and the head is two more
  matrix products, a maximum with zero and one more logistic function.
-/
import proofs.«418272_j53223234732113_3_alg».proof.Defs
import proofs.«418272_j53223234732113_3_alg».proof.Proof.Gen.ReferenceIdeal.Run
import proofs.«418272_j53223234732113_3_alg».proof.Proof.Gen.ReferenceIdeal.Read
import proofs.«418272_j53223234732113_3_alg».proof.Proof.Spec
import proofs.«418272_j53223234732113_3_alg».proof.Proof.SpecFacts
import proofs.«418272_j53223234732113_3_alg».proof.Proof.LibRows
import proofs.«418272_j53223234732113_3_alg».proof.Proof.LibPlainDot
import Idealize.ShloMosaic.Lib.Pipeline.Value
import Idealize.ShloMosaic.Lib.ValueLayout

set_option maxRecDepth 16384

noncomputable section

open scoped BigOperators

namespace Cert.RefValue

open Idealize.ShloMosaic Idealize.ShloMosaic.TcCoe Idealize.SL.Sem Idealize.ShloMosaic.ValueIdx
open Cert.ReferenceIdeal Cert.Gru Cert.LibLast

variable (m : (ℓ : Loc nD τ sig) → Buf (Elt Ideal) ℓ) (ρ : Dev nD → PrngReg) (c : Dev nD)

/-- The arguments, as the specification's arrays. -/
abbrev ids : (⟨1, ![1000000]⟩ : Shape).Idx → BitVec 32 := m ((c.tc : Thread nD τ).loc main_arg0)
abbrev feats : Mat 1000000 64 := m ((c.tc : Thread nD τ).loc main_arg1)
abbrev bank : Mat 1000 48 := m ((c.tc : Thread nD τ).loc main_arg2)
/-- The parameters, read off the arguments. -/
def params : Params where
  W := m ((c.tc : Thread nD τ).loc main_arg3)
  U := m ((c.tc : Thread nD τ).loc main_arg4)
  b := m ((c.tc : Thread nD τ).loc main_arg5)
  dw1 := m ((c.tc : Thread nD τ).loc main_arg6)
  db1 := m ((c.tc : Thread nD τ).loc main_arg7)
  dw2 := m ((c.tc : Thread nD τ).loc main_arg8)
  db2 := m ((c.tc : Thread nD τ).loc main_arg9)

/-! ## Words -/

/-- A word below 1000 is not negative when read as a signed word. -/
theorem cmpi_slt_zero_of_lt (x : BitVec 32) (h : x.toNat < 1000) : IntOp.cmpi .slt x 0#32 = 0#1 := by
  have hx : x.toInt = (x.toNat : Int) := BitVec.toInt_eq_toNat_of_lt (by omega)
  have h0 : x.slt 0#32 = false := by
    show decide (x.toInt < (0#32).toInt) = false
    rw [hx, BitVec.toInt_zero]
    exact decide_eq_false (by omega)
  show BitVec.ofBool (x.slt 0#32) = 0#1
  rw [h0]
  rfl

section Stages

variable (I : (⟨1, ![1000000]⟩ : Shape).Idx → BitVec 32) (hR : InRange I) (P : Params) (X : Mat 1000000 64)
  (S : Mat 1000 48)

/-! ## Indices of the layout operations, at an index given by its coordinates -/

theorem lidx7 (t : Fin 1000000) (c : Fin 144) (k : Fin 64) : Read.lidx_main_v7 (ix2 t c) k = ix2 t k := by
  funext a; match a with | ⟨0, _⟩ => rfl | ⟨1, _⟩ => rfl
theorem ridx7 (t : Fin 1000000) (c : Fin 144) (k : Fin 64) : Read.ridx_main_v7 (ix2 t c) k = ix2 k c := by
  funext a; match a with | ⟨0, _⟩ => rfl | ⟨1, _⟩ => rfl
theorem lidx11 (t : Fin 1000000) (c : Fin 144) (k : Fin 48) : Read.lidx_main_v11 (ix2 t c) k = ix2 t k := by
  funext a; match a with | ⟨0, _⟩ => rfl | ⟨1, _⟩ => rfl
theorem ridx11 (t : Fin 1000000) (c : Fin 144) (k : Fin 48) : Read.ridx_main_v11 (ix2 t c) k = ix2 k c := by
  funext a; match a with | ⟨0, _⟩ => rfl | ⟨1, _⟩ => rfl
theorem lidx47 (t : Fin 1000000) (c : Fin 24) (k : Fin 48) : Read.lidx_main_v47 (ix2 t c) k = ix2 t k := by
  funext a; match a with | ⟨0, _⟩ => rfl | ⟨1, _⟩ => rfl
theorem ridx47 (t : Fin 1000000) (c : Fin 24) (k : Fin 48) : Read.ridx_main_v47 (ix2 t c) k = ix2 k c := by
  funext a; match a with | ⟨0, _⟩ => rfl | ⟨1, _⟩ => rfl
theorem lidx52 (t : Fin 1000000) (c : Fin 1) (k : Fin 24) : Read.lidx_main_v52 (ix2 t c) k = ix2 t k := by
  funext a; match a with | ⟨0, _⟩ => rfl | ⟨1, _⟩ => rfl
theorem ridx52 (t : Fin 1000000) (c : Fin 1) (k : Fin 24) : Read.ridx_main_v52 (ix2 t c) k = ix2 k c := by
  funext a; match a with | ⟨0, _⟩ => rfl | ⟨1, _⟩ => rfl

theorem idx12 (t : Fin 1000000) (j : Fin 48) : Read.idx_main_v12 (ix2 t j) = ix2 t (colZ j) := by
  funext a; match a with | ⟨0, _⟩ => rfl | ⟨1, _⟩ => rfl
theorem idx15 (t : Fin 1000000) (j : Fin 48) : Read.idx_main_v15 (ix2 t j) = ix2 t (colZ j) := by
  funext a; match a with | ⟨0, _⟩ => rfl | ⟨1, _⟩ => rfl
theorem idx13 (t : Fin 1000000) (j : Fin 48) : Read.idx_main_v13 (ix2 t j) = ix2 t (colR j) := by
  funext a; match a with | ⟨0, _⟩ => rfl | ⟨1, _⟩ => exact Fin.ext (Nat.add_comm 48 j.val)
theorem idx16 (t : Fin 1000000) (j : Fin 48) : Read.idx_main_v16 (ix2 t j) = ix2 t (colR j) := by
  funext a; match a with | ⟨0, _⟩ => rfl | ⟨1, _⟩ => exact Fin.ext (Nat.add_comm 48 j.val)
theorem idx14 (t : Fin 1000000) (j : Fin 48) : Read.idx_main_v14 (ix2 t j) = ix2 t (colH j) := by
  funext a; match a with | ⟨0, _⟩ => rfl | ⟨1, _⟩ => exact Fin.ext (Nat.add_comm 96 j.val)
theorem idx17 (t : Fin 1000000) (j : Fin 48) : Read.idx_main_v17 (ix2 t j) = ix2 t (colH j) := by
  funext a; match a with | ⟨0, _⟩ => rfl | ⟨1, _⟩ => exact Fin.ext (Nat.add_comm 96 j.val)

/-! ## The two affine maps -/

/-- x·W + b at (t, c). -/
theorem v10_at (t : Fin 1000000) (c : Fin 144) :
    Read.val_main_v10 (F := Ideal) X P.W P.b (ix2 t c) = gx P (featRow X t) c := by
  have h8 : Read.idx_main_v8 (Read.idx_main_v9 (ix2 t c)) = ix1 c := by
    funext a; match a with | ⟨0, _⟩ => rfl
  rw [Read.val_main_v10_apply, Read.val_main_v7_apply, Read.val_main_v9_apply, Read.val_main_v8_apply, h8]
  simp only [lidx7, ridx7]
  rfl

include hR

/-! ## The normalised id column -/

/-- On the domain the column of normalised ids, read at row t, is the id of row t (gather's copy). -/
theorem col5_at (t : Fin 1000000) (q : Fin 1) : Read.val_main_v5 (F := Ideal) I (ix2 t q) = I (ix1 t) := by
  have hi : Read.idx_main_v5 (ix2 t q) = ix1 t := by
    funext a; match a with | ⟨0, _⟩ => rfl
  rw [Read.val_main_v5_apply, hi, Read.val_main_v4_apply, Read.val_main_v1_apply, Read.val_main_v0_apply,
    Read.val_main_c_apply, cmpi_slt_zero_of_lt _ (hR t), select_zero]

/-- The same for the scatter's copy of the column. -/
theorem col45_at (t : Fin 1000000) (q : Fin 1) : Read.val_main_v45 (F := Ideal) I (ix2 t q) = I (ix1 t) := by
  have hi : Read.idx_main_v45 (ix2 t q) = ix1 t := by
    funext a; match a with | ⟨0, _⟩ => rfl
  rw [Read.val_main_v45_apply, hi, Read.val_main_v44_apply, Read.val_main_v41_apply, Read.val_main_v40_apply,
    Read.val_main_c_5_apply, cmpi_slt_zero_of_lt _ (hR t), select_zero]

/-! ## The gathered rows -/

/-- The gathered bank at (t, j) is the bank's row at row t's slot. -/
theorem v6_at (t : Fin 1000000) (j : Fin 48) :
    Read.val_main_v6 (F := Ideal) I S (ix2 t j) = S (ix2 (slot I t) j) := by
  unfold Read.val_main_v6
  have hcol : ∀ t : Fin 1000000, (Read.val_main_v5 (F := Ideal) I (ix2 t 0)).toNat < 1000 := fun t => by
    rw [col5_at I hR]; exact hR t
  have h0 : Read.val_main_v5 (F := Ideal) I (ix2 t 0) = I (ix1 t) := col5_at I hR t 0
  generalize Read.val_main_v5 (F := Ideal) I = col at hcol h0
  refine (LibRows.gather_rows_apply (N := 1000000) (K := 1000) (C := 48)
    Facts₀.gather_S1000x48_S1000000x1_S1000000x48_1_0_n_n_0_1_148_wf (by norm_num) S col hcol t j).trans ?_
  have hs : (⟨(col (ix2 t 0)).toNat, hcol t⟩ : Fin 1000) = slot I t := Fin.ext (by
    show (col (ix2 t 0)).toNat = (I (ix1 t)).toNat % 1000
    rw [h0, Nat.mod_eq_of_lt (hR t)])
  rw [hs]
/-- h·U at (t, c), h the bank's row at row t's slot. -/
theorem v11_at (t : Fin 1000000) (c : Fin 144) :
    Read.val_main_v11 (F := Ideal) I S P.U (ix2 t c) = gh P (stateRow I S t) c := by
  rw [Read.val_main_v11_apply]
  simp only [lidx11, ridx11, v6_at I hR S]
  rfl

/-! ## The gates and the new state -/

/-- The update gate. -/
theorem v24_at (t : Fin 1000000) (j : Fin 48) :
    Read.val_main_v24 (F := Ideal) I X S P.W P.U P.b (ix2 t j) = upd P (stateRow I S t) (featRow X t) j := by
  rw [Read.val_main_v24_apply, Read.val_main_v23_apply, Read.val_main_cst_1_apply, Read.val_main_v22_apply,
    Read.val_main_v21_apply, Read.val_main_cst_apply, Read.val_main_v20_apply, Read.val_main_v19_apply,
    Read.val_main_v18_apply, Read.val_main_v12_apply, Read.val_main_v15_apply, idx12, idx15, v10_at, v11_at I hR]
  exact div_one_add_exp_neg _

/-- The reset gate. -/
theorem v31_at (t : Fin 1000000) (j : Fin 48) :
    Read.val_main_v31 (F := Ideal) I X S P.W P.U P.b (ix2 t j) = rst P (stateRow I S t) (featRow X t) j := by
  rw [Read.val_main_v31_apply, Read.val_main_v30_apply, Read.val_main_cst_3_apply, Read.val_main_v29_apply,
    Read.val_main_v28_apply, Read.val_main_cst_2_apply, Read.val_main_v27_apply, Read.val_main_v26_apply,
    Read.val_main_v25_apply, Read.val_main_v13_apply, Read.val_main_v16_apply, idx13, idx16, v10_at, v11_at I hR]
  exact div_one_add_exp_neg _

/-- The candidate state. -/
theorem v34_at (t : Fin 1000000) (j : Fin 48) :
    Read.val_main_v34 (F := Ideal) I X S P.W P.U P.b (ix2 t j) = cand P (stateRow I S t) (featRow X t) j := by
  rw [Read.val_main_v34_apply, Read.val_main_v33_apply, Read.val_main_v14_apply, Read.val_main_v32_apply,
    Read.val_main_v17_apply, idx14, idx17, v10_at, v11_at I hR, v31_at I hR]
  rfl

/-- The new hidden state. -/
theorem v39_at (t : Fin 1000000) (j : Fin 48) :
    Read.val_main_v39 (F := Ideal) I X S P.W P.U P.b (ix2 t j) = H P I X S t j := by
  rw [Read.val_main_v39_apply, Read.val_main_v35_apply, Read.val_main_v38_apply, Read.val_main_v37_apply,
    Read.val_main_v36_apply, Read.val_main_cst_4_apply, v24_at I hR, v34_at I hR, v6_at I hR]
  rfl

/-! ## The updated bank -/

/-- The scattered bank is the specification's updated bank. -/
theorem v46_eq : Read.val_main_v46 (F := Ideal) I X S P.W P.U P.b = newState P I X S := by
  funext i
  unfold Read.val_main_v46
  have hcol : ∀ t : Fin 1000000, (Read.val_main_v45 (F := Ideal) I (ix2 t 0)).toNat < 1000 := fun t => by
    rw [col45_at I hR]; exact hR t
  have hs : LibRows.slotOf (K := 1000) (by norm_num) (Read.val_main_v45 (F := Ideal) I) = slot I := by
    funext t
    exact Fin.ext (by
      show (Read.val_main_v45 (F := Ideal) I (ix2 t 0)).toNat % 1000 = (I (ix1 t)).toNat % 1000
      rw [col45_at I hR])
  have hu : ∀ (t : Fin 1000000) (j : Fin 48),
      Read.val_main_v39 (F := Ideal) I X S P.W P.U P.b (ix2 t j) = H P I X S t j := v39_at I hR P X S
  generalize Read.val_main_v45 (F := Ideal) I = col at hcol hs
  generalize Read.val_main_v39 (F := Ideal) I X S P.W P.U P.b = u at hu
  refine (LibRows.scatter_set_rows (N := 1000000) (K := 1000) (C := 48)
    Facts₀.scatter_S1000x48_S1000000x1_S1000000x48_1_0_0_1_wf (by norm_num) (by norm_num) S col u hcol i).trans ?_
  rw [hs]
  delta newState
  cases lastOcc (slot I) (i 0) with
  | none => rfl
  | some t => exact hu t (i 1)

/-! ## The head -/

/-- The head's first affine map of the new state. -/
theorem v50_at (t : Fin 1000000) (k : Fin 24) :
    Read.val_main_v50 (F := Ideal) I X S P.W P.U P.b P.dw1 P.db1 (ix2 t k)
      = (∑ i : Fin 48, hnew P (stateRow I S t) (featRow X t) i * P.dw1 (ix2 i k)) + P.db1 (ix1 k) := by
  have h48 : Read.idx_main_v48 (Read.idx_main_v49 (ix2 t k)) = ix1 k := by
    funext a; match a with | ⟨0, _⟩ => rfl
  rw [Read.val_main_v50_apply, Read.val_main_v47_apply, Read.val_main_v49_apply, Read.val_main_v48_apply, h48]
  simp only [lidx47, ridx47, v39_at I hR P X S]
  rfl

/-- The head's hidden layer. -/
theorem v51_at (t : Fin 1000000) (k : Fin 24) :
    Read.val_main_v51 (F := Ideal) I X S P.W P.U P.b P.dw1 P.db1 (ix2 t k)
      = hidden P (stateRow I S t) (featRow X t) k := by
  rw [Read.val_main_v51_apply, v50_at I hR, Read.val_main_call0_v0_apply, Read.val_main_call0_cst_apply]
  rfl

/-- The score of row t. -/
theorem v61_at (t : Fin 1000000) (q : Fin 1) :
    Read.val_main_v61 (F := Ideal) I X S P.W P.U P.b P.dw1 P.db1 P.dw2 P.db2 (ix2 t q)
      = score P (stateRow I S t) (featRow X t) := by
  obtain rfl : q = 0 := Subsingleton.elim _ _
  have h53 : Read.idx_main_v53 (Read.idx_main_v54 (ix2 t (0 : Fin 1))) = ix1 (0 : Fin 1) := by
    funext a; match a with | ⟨0, _⟩ => rfl
  rw [Read.val_main_v61_apply, Read.val_main_v60_apply, Read.val_main_cst_8_apply, Read.val_main_v59_apply,
    Read.val_main_v58_apply, Read.val_main_cst_7_apply, Read.val_main_v57_apply, Read.val_main_v56_apply,
    Read.val_main_v55_apply, Read.val_main_v52_apply, Read.val_main_v54_apply, Read.val_main_v53_apply, h53]
  simp only [lidx52, ridx52, v51_at I hR P X S]
  exact div_one_add_exp_neg _

/-- The scores are the specification's. -/
theorem v61_eq : Read.val_main_v61 (F := Ideal) I X S P.W P.U P.b P.dw1 P.db1 P.dw2 P.db2 = outArr P I X S := by
  funext i
  obtain ⟨t, q, rfl⟩ : ∃ t q, i = ix2 t q := ⟨i 0, i 1, eq_ix2 i⟩
  exact v61_at I hR P X S t q

end Stages

/-- On the domain of ids in range, every weakly fair execution of the reference ends with the scores and the updated
    bank of the specification, and its arguments unchanged. -/
theorem run (hR : ∀ c : Dev nD, InRange (ids m c)) :
    θ_run (defs (F := Ideal)) (onTc (τ := τ) (main (F := Ideal))) ⟨m, fun _ => 0, ρ⟩ (fun r => ∀ c : Dev nD,
      r.2.mem ((c.tc : Thread nD τ).loc main_v61) = outArr (params m c) (ids m c) (feats m c) (bank m c)
      ∧ r.2.mem ((c.tc : Thread nD τ).loc main_v46) = newState (params m c) (ids m c) (feats m c) (bank m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun _ h c =>
    ⟨(h c).1.trans ((Read.val_main_v61_eq m c).trans
        (v61_eq (ids m c) (hR c) (params m c) (feats m c) (bank m c))),
      (h c).2.1.trans ((Read.val_main_v46_eq m c).trans
        (v46_eq (ids m c) (hR c) (params m c) (feats m c) (bank m c))),
      (h c).2.2⟩)
    (Cert.ReferenceIdeal.Value.run (F := Ideal) m ρ)

end Cert.RefValue

end
-- ==== Proof.lean ====
/-
  The certificate: a shared-state GRU step (gather a row of the bank per transaction, one GRU cell, a two-layer head,
  scatter the new states back with the last writer winning) computed by a tiled kernel and by the plain reference.

  On the domain — every float input finite, every id a slot number — both programs compute ONE function of the
  arguments (Proof/Spec.lean). The reference gathers, runs the cell on whole arrays and scatters
  (Proof/RefValue.lean). The kernel program precomputes, from the ids, which row is the last carrying its slot and
  which slots occur; the kernel gathers by an indicator matrix product against [bank | bank·U] (a second product
  against the table minus itself adds zero, the entries being real), runs the same cell on 2000 rows at a time, and
  accumulates, per half of the batch, the marked rows' new states slot by slot; the host adds the two halves and
  selects against the old bank (Proof/KRun.lean). The two frames of the kernel programs are the generated ones (the
  side condition on the prefetched flags is empty); the reference's frame is its run with the results dropped; the
  one rewrite of the ideal pass, a narrowing to bf16 and back, is the identity on the extended reals.
-/
import proofs.«418272_j53223234732113_3_alg».proof.Defs
import proofs.«418272_j53223234732113_3_alg».proof.Proof.Gen.Kernel
import proofs.«418272_j53223234732113_3_alg».proof.Proof.Gen.Kernel.Frame
import proofs.«418272_j53223234732113_3_alg».proof.Proof.Gen.KernelIdeal
import proofs.«418272_j53223234732113_3_alg».proof.Proof.Gen.KernelIdeal.Frame
import proofs.«418272_j53223234732113_3_alg».proof.Proof.Gen.ReferenceIdeal
import proofs.«418272_j53223234732113_3_alg».proof.Proof.Gen.Pre_finite_inputs
import proofs.«418272_j53223234732113_3_alg».proof.Proof.PreFacts
import proofs.«418272_j53223234732113_3_alg».proof.Proof.KRun
import proofs.«418272_j53223234732113_3_alg».proof.Proof.RefValue
import Idealize.ShloMosaic.Adequacy
import Idealize.ShloMosaic.Init

noncomputable section

namespace Cert.Proof

open Idealize.ShloMosaic Idealize.SL.Sem Cert.Gru

/-- The precondition on the kernel program's memory gives the domain. -/
theorem dom_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KRun.Dom m c :=
  have h3 := Cert.PreFacts.of_pre _ _ _ _ _ _ _ _ _ _ (h c)
  ⟨h3.1, h3.2.1, h3.2.2⟩

theorem frame_k : Cert.frame_Kernel := fun m ρ _ => Cert.Kernel.Gen.frame m ρ trivial

theorem frame_ki : Cert.frame_KernelIdeal := fun m ρ _ => Cert.KernelIdeal.Gen.frame m ρ trivial

/-- The reference's frame: its run, with the two results dropped. -/
theorem frame_ri : Cert.frame_ReferenceIdeal := fun m ρ h =>
  (θ_run Cert.ReferenceIdeal.defs _ _).mono (fun _ hr c => (hr c).2.2)
    (Cert.RefValue.run m ρ fun c => (Cert.PreFacts.of_pre _ _ _ _ _ _ _ _ _ _ (h c)).1)

/-- The ideal pass's one rewrite: narrowing to bf16 and widening back is the identity on the extended reals. -/
theorem preserves : Cert.preserves_Kernel_KernelIdeal :=
  IdealRules.truncf_extf.statement Cert.KernelIdeal.S2000x48 .f32 .bf16

/-- Both programs end at the specification's scores and bank of the (agreeing) arguments. -/
theorem algebraic : Cert.algebraic_KernelIdeal_ReferenceIdeal := by
  intro m ρ m' ρ' hpre hagree
  have hD : ∀ c, Cert.KRun.Dom m c := dom_of_pre m hpre
  have hids : ∀ c, Cert.RefValue.ids m' c = Cert.KernelHost.ids m c := fun c => (hagree c).1
  have hR : ∀ c, InRange (Cert.RefValue.ids m' c) := fun c => by rw [hids c]; exact (hD c).hR
  have hpar : ∀ c, Cert.RefValue.params m' c = Cert.KernelHost.params m c := fun c => by
    unfold Cert.RefValue.params Cert.KernelHost.params
    rw [(hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2]
  have hX : ∀ c, Cert.RefValue.feats m' c = Cert.KernelHost.feats m c := fun c => (hagree c).2.1
  have hS : ∀ c, Cert.RefValue.bank m' c = Cert.KernelHost.bank m c := fun c => (hagree c).2.2.1
  refine ⟨fun c => outArr (Cert.KernelHost.params m c) (Cert.KernelHost.ids m c) (Cert.KernelHost.feats m c) (Cert.KernelHost.bank m c),
    fun c => newState (Cert.KernelHost.params m c) (Cert.KernelHost.ids m c) (Cert.KernelHost.feats m c) (Cert.KernelHost.bank m c),
    Cert.KRun.run m ρ hD, ?_⟩
  refine (θ_run Cert.ReferenceIdeal.defs _ _).mono (fun _ hr c => ?_) (Cert.RefValue.run m' ρ' hR)
  have h := hr c
  rw [hpar c, hids c, hX c, hS c] at h
  exact h

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
